-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S2x1024 : Shape := ⟨2, ![2, 1024]⟩
abbrev S2 : Shape := ⟨1, ![2]⟩
abbrev S32000x4096 : Shape := ⟨2, ![32000, 4096]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn_part1 {F : FTy → Type} [FloatOps F] (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  main_v18

def fn {F : FTy → Type} [FloatOps F] (main_arg0 : FVec F S2x1024x4096 .f32) (main_arg1 : FVec F S2x1024x4096 .f32) (main_arg2 : IVec S2x1024 32) (main_arg3 : IVec S2 1) (main_arg4 : FVec F S32000x4096 .f32) (main_arg5 : FVec F S32000x4096 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S2x1024x4096 .f32 := Host.absf main_arg1
  let main_cst_0 : FVec F S_ .f32 := constant S_ .f32 0x7F800000#32
  let main_v5 : FVec F S2x1024x4096 .f32 := broadcastInDim S2x1024x4096 ![] bcast_S_S2x1024x4096 main_cst_0
  let main_v6 : IVec S2x1024x4096 1 := cmpf .olt main_v4 main_v5
  let main_c_1 : IVec S_ 1 := constantI S_ 1 1#1
  let main_v7 : IVec S_ 1 := (fun x v => Host.reduce IntOp.andi x v reducesTo_S2x1024x4096_S_d0_1_2 h_S_) main_v6 main_c_1
  let main_v8 : IVec S_ 1 := andi main_v3 main_v7
  let main_v9 : FVec F S32000x4096 .f32 := Host.absf main_arg4
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S32000x4096 .f32 := Host.absf main_arg5
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_v13 main_v16
-- ==== Kernel.lean ====
abbrev S2x1024x4096 : Shape := ⟨3, ![2, 1024, 4096]⟩
abbrev S2x1024 : Shape := ⟨2, ![2, 1024]⟩
abbrev S2 : Shape := ⟨1, ![2]⟩
abbrev S32000x4096 : Shape := ⟨2, ![32000, 4096]⟩
abbrev S2048x4096 : Shape := ⟨2, ![2048, 4096]⟩
abbrev S_ : Shape := ⟨0, ![]⟩
abbrev S2048x1 : Shape := ⟨2, ![2048, 1]⟩
abbrev S1024x4096 : Shape := ⟨2, ![1024, 4096]⟩
abbrev S256x4096 : Shape := ⟨2, ![256, 4096]⟩
abbrev S1024x1 : Shape := ⟨2, ![1024, 1]⟩
abbrev S1024x256 : Shape := ⟨2, ![1024, 256]⟩
abbrev S1024 : Shape := ⟨1, ![1024]⟩
abbrev S2048 : Shape := ⟨1, ![2048]⟩

abbrev nBuf : Space → Nat
  | .hbm => 86
  | .vmem => 22
  | .smem => 0
  | _ => 0

abbrev bufTy : (tb : Table) → Fin (tcTables nBuf tb) → BufTy
  | .hbm, ⟨0, _⟩ => ⟨S2x1024x4096, .f32⟩
  | .hbm, ⟨1, _⟩ => ⟨S2x1024x4096, .f32⟩
  | .hbm, ⟨2, _⟩ => ⟨S2x1024, .i32⟩
  | .hbm, ⟨3, _⟩ => ⟨S2, .i1⟩
  | .hbm, ⟨4, _⟩ => ⟨S32000x4096, .f32⟩
  | .hbm, ⟨5, _⟩ => ⟨S32000x4096, .f32⟩
  | .hbm, ⟨6, _⟩ => ⟨S2048x4096, .f32⟩
  | .hbm, ⟨7, _⟩ => ⟨S2048x4096, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x1024, .i32⟩
  | .hbm, ⟨12, _⟩ => ⟨S2x1024, .i32⟩
  | .hbm, ⟨13, _⟩ => ⟨S_, .i32⟩
  | .hbm, ⟨14, _⟩ => ⟨S2x1024, .i32⟩
  | .hbm, ⟨15, _⟩ => ⟨S2x1024, .i32⟩
  | .hbm, ⟨16, _⟩ => ⟨S2048x1, .i32⟩
  | .hbm, ⟨17, _⟩ => ⟨S2048x1, .f32⟩
  | .hbm, ⟨18, _⟩ => ⟨S2048, .f32⟩
  | .hbm, ⟨19, _⟩ => ⟨S2x1024, .f32⟩
  | .hbm, ⟨20, _⟩ => ⟨S_, .i32⟩
  | .hbm, ⟨21, _⟩ => ⟨S2x1024, .i32⟩
  | .hbm, ⟨22, _⟩ => ⟨S2x1024, .i1⟩
  | .hbm, ⟨23, _⟩ => ⟨S2x1024, .f32⟩
  | .hbm, ⟨24, _⟩ => ⟨S2x1024, .f32⟩
  | .hbm, ⟨25, _⟩ => ⟨S_, .f32⟩
  | .hbm, ⟨26, _⟩ => ⟨S2, .f32⟩
  | .hbm, ⟨27, _⟩ => ⟨S_, .f32⟩
  | .hbm, ⟨28, _⟩ => ⟨S2, .f32⟩
  | .hbm, ⟨29, _⟩ => ⟨S_, .f32⟩
  | .hbm, ⟨30, _⟩ => ⟨S2, .f32⟩
  | .hbm, ⟨31, _⟩ => ⟨S2, .f32⟩
  | .hbm, ⟨32, _⟩ => ⟨S2, .f32⟩
  | .hbm, ⟨33, _⟩ => ⟨S2048x4096, .f32⟩
  | .hbm, ⟨34, _⟩ => ⟨S2048x4096, .bf16⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S2x1024, .i32⟩
  | .hbm, ⟨39, _⟩ => ⟨S2x1024, .i32⟩
  | .hbm, ⟨40, _⟩ => ⟨S_, .i32⟩
  | .hbm, ⟨41, _⟩ => ⟨S2x1024, .i32⟩
  | .hbm, ⟨42, _⟩ => ⟨S2x1024, .i32⟩
  | .hbm, ⟨43, _⟩ => ⟨S2048x1, .i32⟩
  | .hbm, ⟨44, _⟩ => ⟨S2048x1, .f32⟩
  | .hbm, ⟨45, _⟩ => ⟨S2048, .f32⟩
  | .hbm, ⟨46, _⟩ => ⟨S2x1024, .f32⟩
  | .hbm, ⟨47, _⟩ => ⟨S_, .i32⟩
  | .hbm, ⟨48, _⟩ => ⟨S2x1024, .i32⟩
  | .hbm, ⟨49, _⟩ => ⟨S2x1024, .i1⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2, .f32⟩
  | .hbm, ⟨54, _⟩ => ⟨S_, .f32⟩
  | .hbm, ⟨55, _⟩ => ⟨S2, .f32⟩
  | .hbm, ⟨56, _⟩ => ⟨S_, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S2, .f32⟩
  | .hbm, ⟨64, _⟩ => ⟨S2, .f32⟩
  | .hbm, ⟨65, _⟩ => ⟨S2, .f32⟩
  | .hbm, ⟨66, _⟩ => ⟨S_, .f32⟩
  | .hbm, ⟨67, _⟩ => ⟨S2, .f32⟩
  | .hbm, ⟨68, _⟩ => ⟨S2, .f32⟩
  | .hbm, ⟨69, _⟩ => ⟨S2, .f32⟩
  | .hbm, ⟨70, _⟩ => ⟨S2, .f32⟩
  | .hbm, ⟨71, _⟩ => ⟨S2, .f32⟩
  | .hbm, ⟨72, _⟩ => ⟨S2, .f32⟩
  | .hbm, ⟨73, _⟩ => ⟨S_, .f32⟩
  | .hbm, ⟨74, _⟩ => ⟨S2, .f32⟩
  | .hbm, ⟨75, _⟩ => ⟨S2, .f32⟩
  | .hbm, ⟨76, _⟩ => ⟨S_, .f32⟩
  | .hbm, ⟨77, _⟩ => ⟨S2, .f32⟩
  | .hbm, ⟨78, _⟩ => ⟨S2, .f32⟩
  | .hbm, ⟨79, _⟩ => ⟨S_, .f32⟩
  | .hbm, ⟨80, _⟩ => ⟨S2, .f32⟩
  | .hbm, ⟨81, _⟩ => ⟨S2, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x4096, .bf16⟩
  | .local _ .vmem, ⟨12, _⟩ => ⟨S1024x4096, .bf16⟩
  | .local _ .vmem, ⟨13, _⟩ => ⟨S256x4096, .f32⟩
  | .local _ .vmem, ⟨14, _⟩ => ⟨S256x4096, .f32⟩
  | .local _ .vmem, ⟨15, _⟩ => ⟨S1024x1, .i32⟩
  | .local _ .vmem, ⟨16, _⟩ => ⟨S1024x1, .i32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_cst_8 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_10 : Ref sig .tc := ⟨.hbm, 61, rfl⟩
abbrev main_cst_11 : Ref sig .tc := ⟨.hbm, 62, rfl⟩
abbrev main_call2_v0 : Ref sig .tc := ⟨.hbm, 63, rfl⟩
abbrev main_call2_v1 : Ref sig .tc := ⟨.hbm, 64, rfl⟩
abbrev main_v33 : Ref sig .tc := ⟨.hbm, 65, rfl⟩
abbrev main_cst_12 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_13 : Ref sig .tc := ⟨.hbm, 73, rfl⟩
abbrev main_v40 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_v43 : Ref sig .tc := ⟨.hbm, 78, rfl⟩
abbrev main_cst_15 : Ref sig .tc := ⟨.hbm, 79, rfl⟩
abbrev main_v44 : Ref sig .tc := ⟨.hbm, 80, rfl⟩
abbrev main_v45 : Ref sig .tc := ⟨.hbm, 81, rfl⟩
abbrev main_cst_16 : Ref sig .tc := ⟨.hbm, 82, rfl⟩
abbrev main_v46 : Ref sig .tc := ⟨.hbm, 83, rfl⟩
abbrev main_cst_17 : Ref sig .tc := ⟨.hbm, 84, rfl⟩
abbrev main_v47 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 125], ![false, false]⟩

def k1_cond2 (i : grid1.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_24 : BitVec 32 := 0#32
  let v48 : BitVec 1 := Scalar.cmpi .ne v47 c0_i32_24
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2x1024x4096_S2048x4096 : S2x1024x4096.ShapeCasts S2048x4096
  bitsLt_bf16_f32 : FTy.bits .bf16 < FTy.bits .f32
  bcast_S_S2x1024 : S_.BroadcastsInDim S2x1024 (![] : Fin 0 → Fin S2x1024.rank)
  shapeCasts_S2x1024_S2048x1 : S2x1024.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  iota_S1024x256_d1_w32 : S1024x256.Iotas .tc 32 [1]
  broadcasts_S1024x1_S1024x256 : S1024x1.Broadcasts S1024x256
  reduces_S1024x256_S1024 : S1024x256.Reduces [1] S1024
  shapeCasts_S1024_S1024x1 : S1024.ShapeCasts S1024x1
  shapeCasts_S2048x1_S2048 : S2048x1.ShapeCasts S2048
  shapeCasts_S2048_S2x1024 : S2048.ShapeCasts S2x1024
  reducesTo_S2x1024_S2_d1 : S2x1024.ReducesTo [1] S2
  h_S_ : 0 < S_.numel
  bcast_S_S2 : S_.BroadcastsInDim S2 (![] : Fin 0 → Fin S2.rank)
  reducesTo_S2_S_d0 : S2.ReducesTo [0] S_
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x4096.size a
  hwx0_0 : ∀ i : grid0.Coords, EltTy.bits .bf16 = 32 ∨ (Rect.block (s := S2048x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32000x4096.size a
  hwx0_1 : ∀ i : grid0.Coords, EltTy.bits .f32 = 32 ∨ (Rect.block (s := S32000x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S2048x4096.size a
  hwx1_0 : ∀ i : grid1.Coords, EltTy.bits .bf16 = 32 ∨ (Rect.block (s := S2048x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S32000x4096.size a
  hwx1_1 : ∀ i : grid1.Coords, EltTy.bits .f32 = 32 ∨ (Rect.block (s := S32000x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .i32 = 32 ∨ (Rect.block (s := S2048x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v17) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x1024x4096 : Shape := ⟨3, ![2, 1024, 4096]⟩
abbrev S2x1024 : Shape := ⟨2, ![2, 1024]⟩
abbrev S2 : Shape := ⟨1, ![2]⟩
abbrev S32000x4096 : Shape := ⟨2, ![32000, 4096]⟩
abbrev S2x1024x32000 : Shape := ⟨3, ![2, 1024, 32000]⟩
abbrev S_ : Shape := ⟨0, ![]⟩
abbrev S2x1024x1 : Shape := ⟨3, ![2, 1024, 1]⟩
abbrev S2x1024x1x1 : Shape := ⟨4, ![2, 1024, 1, 1]⟩
abbrev S1 : Shape := ⟨1, ![1]⟩
abbrev S1x1x1x1 : Shape := ⟨4, ![1, 1, 1, 1]⟩

abbrev nBuf : Space → Nat
  | .hbm => 154
  | .vmem => 0
  | .smem => 0
  | _ => 0

abbrev hbmTy0_0 (i : Nat) : BufTy := match i % 128 with
  | 0 => ⟨S2x1024x4096, .f32⟩
  | 1 => ⟨S2x1024x4096, .f32⟩
  | 2 => ⟨S2x1024, .i32⟩
  | 3 => ⟨S2, .i1⟩
  | 4 => ⟨S32000x4096, .f32⟩
  | 5 => ⟨S32000x4096, .f32⟩
  | 6 => ⟨S2x1024x32000, .f32⟩
  | 7 => ⟨S_, .f32⟩
  | 8 => ⟨S2x1024, .f32⟩
  | 9 => ⟨S_, .f32⟩
  | 10 => ⟨S2x1024, .f32⟩
  | 11 => ⟨S2x1024, .f32⟩
  | 12 => ⟨S2x1024x1, .f32⟩
  | 13 => ⟨S2x1024x32000, .f32⟩
  | 14 => ⟨S2x1024x32000, .f32⟩
  | 15 => ⟨S2x1024x32000, .f32⟩
  | 16 => ⟨S_, .f32⟩
  | 17 => ⟨S2x1024, .f32⟩
  | 18 => ⟨S2x1024x1, .f32⟩
  | 19 => ⟨S2x1024x1, .f32⟩
  | 20 => ⟨S2x1024x32000, .f32⟩
  | 21 => ⟨S2x1024x32000, .f32⟩
  | 22 => ⟨S_, .i32⟩
  | 23 => ⟨S_, .i32⟩
  | 24 => ⟨S_, .i32⟩
  | 25 => ⟨S2x1024, .i32⟩
  | 26 => ⟨S2x1024, .i32⟩
  | 27 => ⟨S_, .i32⟩
  | 28 => ⟨S2x1024, .i32⟩
  | 29 => ⟨S2x1024, .i32⟩
  | 30 => ⟨S2x1024x1, .i32⟩
  | 31 => ⟨S_, .i32⟩
  | 32 => ⟨S2x1024x1, .i32⟩
  | 33 => ⟨S2x1024x1, .i1⟩
  | 34 => ⟨S_, .i32⟩
  | 35 => ⟨S2x1024x1, .i32⟩
  | 36 => ⟨S2x1024x1, .i32⟩
  | 37 => ⟨S2x1024x1, .i32⟩
  | 38 => ⟨S2x1024x1x1, .i32⟩
  | 39 => ⟨S1, .i32⟩
  | 40 => ⟨S_, .i32⟩
  | 41 => ⟨S2x1024x1x1, .i32⟩
  | 42 => ⟨S2x1024x1x1, .i1⟩
  | 43 => ⟨S1x1x1x1, .i32⟩
  | 44 => ⟨S2x1024x1x1, .i32⟩
  | 45 => ⟨S2x1024x1x1, .i1⟩
  | 46 => ⟨S2x1024x1x1, .i1⟩
  | 47 => ⟨S_, .i1⟩
  | 48 => ⟨S2x1024x1, .i1⟩
  | 49 => ⟨S2x1024x1, .f32⟩
  | 50 => ⟨S_, .f32⟩
  | 51 => ⟨S2x1024x1, .f32⟩
  | 52 => ⟨S2x1024x1, .f32⟩
  | 53 => ⟨S2x1024, .f32⟩
  | 54 => ⟨S_, .i32⟩
  | 55 => ⟨S2x1024, .i32⟩
  | 56 => ⟨S2x1024, .i1⟩
  | 57 => ⟨S2x1024, .f32⟩
  | 58 => ⟨S2x1024, .f32⟩
  | 59 => ⟨S_, .f32⟩
  | 60 => ⟨S2, .f32⟩
  | 61 => ⟨S_, .f32⟩
  | 62 => ⟨S2, .f32⟩
  | 63 => ⟨S_, .f32⟩
  | 64 => ⟨S2, .f32⟩
  | 65 => ⟨S2, .f32⟩
  | 66 => ⟨S2, .f32⟩
  | 67 => ⟨S2x1024x32000, .f32⟩
  | 68 => ⟨S_, .f32⟩
  | 69 => ⟨S2x1024, .f32⟩
  | 70 => ⟨S_, .f32⟩
  | 71 => ⟨S2x1024, .f32⟩
  | 72 => ⟨S2x1024, .f32⟩
  | 73 => ⟨S2x1024x1, .f32⟩
  | 74 => ⟨S2x1024x32000, .f32⟩
  | 75 => ⟨S2x1024x32000, .f32⟩
  | 76 => ⟨S2x1024x32000, .f32⟩
  | 77 => ⟨S_, .f32⟩
  | 78 => ⟨S2x1024, .f32⟩
  | 79 => ⟨S2x1024x1, .f32⟩
  | 80 => ⟨S2x1024x1, .f32⟩
  | 81 => ⟨S2x1024x32000, .f32⟩
  | 82 => ⟨S2x1024x32000, .f32⟩
  | 83 => ⟨S_, .i32⟩
  | 84 => ⟨S_, .i32⟩
  | 85 => ⟨S_, .i32⟩
  | 86 => ⟨S2x1024, .i32⟩
  | 87 => ⟨S2x1024, .i32⟩
  | 88 => ⟨S_, .i32⟩
  | 89 => ⟨S2x1024, .i32⟩
  | 90 => ⟨S2x1024, .i32⟩
  | 91 => ⟨S2x1024x1, .i32⟩
  | 92 => ⟨S_, .i32⟩
  | 93 => ⟨S2x1024x1, .i32⟩
  | 94 => ⟨S2x1024x1, .i1⟩
  | 95 => ⟨S_, .i32⟩
  | 96 => ⟨S2x1024x1, .i32⟩
  | 97 => ⟨S2x1024x1, .i32⟩
  | 98 => ⟨S2x1024x1, .i32⟩
  | 99 => ⟨S2x1024x1x1, .i32⟩
  | 100 => ⟨S1, .i32⟩
  | 101 => ⟨S_, .i32⟩
  | 102 => ⟨S2x1024x1x1, .i32⟩
  | 103 => ⟨S2x1024x1x1, .i1⟩
  | 104 => ⟨S1x1x1x1, .i32⟩
  | 105 => ⟨S2x1024x1x1, .i32⟩
  | 106 => ⟨S2x1024x1x1, .i1⟩
  | 107 => ⟨S2x1024x1x1, .i1⟩
  | 108 => ⟨S_, .i1⟩
  | 109 => ⟨S2x1024x1, .i1⟩
  | 110 => ⟨S2x1024x1, .f32⟩
  | 111 => ⟨S_, .f32⟩
  | 112 => ⟨S2x1024x1, .f32⟩
  | 113 => ⟨S2x1024x1, .f32⟩
  | 114 => ⟨S2x1024, .f32⟩
  | 115 => ⟨S_, .i32⟩
  | 116 => ⟨S2x1024, .i32⟩
  | 117 => ⟨S2x1024, .i1⟩
  | 118 => ⟨S2x1024, .f32⟩
  | 119 => ⟨S2x1024, .f32⟩
  | 120 => ⟨S_, .f32⟩
  | 121 => ⟨S2, .f32⟩
  | 122 => ⟨S_, .f32⟩
  | 123 => ⟨S2, .f32⟩
  | 124 => ⟨S_, .f32⟩
  | 125 => ⟨S2, .f32⟩
  | 126 => ⟨S2, .f32⟩
  | 127 => ⟨S2, .f32⟩
  | _ => ⟨S2x1024x4096, .f32⟩

abbrev hbmTy0_1 (i : Nat) : BufTy := match i % 128 with
  | 0 => ⟨S2, .f32⟩
  | 1 => ⟨S_, .f32⟩
  | 2 => ⟨S_, .f32⟩
  | 3 => ⟨S2, .f32⟩
  | 4 => ⟨S2, .f32⟩
  | 5 => ⟨S2, .f32⟩
  | 6 => ⟨S_, .f32⟩
  | 7 => ⟨S2, .f32⟩
  | 8 => ⟨S2, .f32⟩
  | 9 => ⟨S2, .f32⟩
  | 10 => ⟨S2, .f32⟩
  | 11 => ⟨S2, .f32⟩
  | 12 => ⟨S2, .f32⟩
  | 13 => ⟨S_, .f32⟩
  | 14 => ⟨S2, .f32⟩
  | 15 => ⟨S2, .f32⟩
  | 16 => ⟨S_, .f32⟩
  | 17 => ⟨S2, .f32⟩
  | 18 => ⟨S2, .f32⟩
  | 19 => ⟨S_, .f32⟩
  | 20 => ⟨S2, .f32⟩
  | 21 => ⟨S2, .f32⟩
  | 22 => ⟨S_, .f32⟩
  | 23 => ⟨S_, .f32⟩
  | 24 => ⟨S_, .f32⟩
  | 25 => ⟨S_, .f32⟩
  | _ => ⟨S2x1024x4096, .f32⟩

abbrev hbmTy (i : Nat) : BufTy := match i / 128 with
  | 0 => hbmTy0_0 i
  | 1 => hbmTy0_1 i
  | _ => ⟨S2x1024x4096, .f32⟩

abbrev bufTy : (tb : Table) → Fin (tcTables nBuf tb) → BufTy
  | .hbm, ⟨i, _⟩ => hbmTy i
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v1 : Ref sig .tc := ⟨.hbm, 21, rfl⟩
abbrev main_c : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v2 : Ref sig .tc := ⟨.hbm, 29, rfl⟩
abbrev main_v3 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v4 : Ref sig .tc := ⟨.hbm, 52, rfl⟩
abbrev main_v5 : Ref sig .tc := ⟨.hbm, 53, rfl⟩
abbrev main_c_1 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst : Ref sig .tc := ⟨.hbm, 59, rfl⟩
abbrev main_v10 : Ref sig .tc := ⟨.hbm, 60, rfl⟩
abbrev main_cst_2 : Ref sig .tc := ⟨.hbm, 61, rfl⟩
abbrev main_v11 : Ref sig .tc := ⟨.hbm, 62, rfl⟩
abbrev main_cst_3 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_call3_cst : Ref sig .tc := ⟨.hbm, 68, rfl⟩
abbrev main_call3_v0 : Ref sig .tc := ⟨.hbm, 69, rfl⟩
abbrev main_call3_cst_0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_cst_1 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_v16 : Ref sig .tc := ⟨.hbm, 82, rfl⟩
abbrev main_c_4 : Ref sig .tc := ⟨.hbm, 83, rfl⟩
abbrev main_c_5 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v17 : Ref sig .tc := ⟨.hbm, 90, rfl⟩
abbrev main_v18 : Ref sig .tc := ⟨.hbm, 91, rfl⟩
abbrev main_call5_c : Ref sig .tc := ⟨.hbm, 92, rfl⟩
abbrev main_call5_v0 : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_c_1 : Ref sig .tc := ⟨.hbm, 100, rfl⟩
abbrev main_call5_c_2 : Ref sig .tc := ⟨.hbm, 101, rfl⟩
abbrev main_call5_v6 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_c_3 : Ref sig .tc := ⟨.hbm, 108, rfl⟩
abbrev main_call5_v12 : Ref sig .tc := ⟨.hbm, 109, rfl⟩
abbrev main_call5_v13 : Ref sig .tc := ⟨.hbm, 110, rfl⟩
abbrev main_call5_cst : Ref sig .tc := ⟨.hbm, 111, rfl⟩
abbrev main_call5_v14 : Ref sig .tc := ⟨.hbm, 112, rfl⟩
abbrev main_v19 : Ref sig .tc := ⟨.hbm, 113, rfl⟩
abbrev main_v20 : Ref sig .tc := ⟨.hbm, 114, rfl⟩
abbrev main_c_6 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_cst_7 : Ref sig .tc := ⟨.hbm, 120, rfl⟩
abbrev main_v25 : Ref sig .tc := ⟨.hbm, 121, rfl⟩
abbrev main_cst_8 : Ref sig .tc := ⟨.hbm, 122, rfl⟩
abbrev main_v26 : Ref sig .tc := ⟨.hbm, 123, rfl⟩
abbrev main_cst_9 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_cst_10 : Ref sig .tc := ⟨.hbm, 129, rfl⟩
abbrev main_cst_11 : Ref sig .tc := ⟨.hbm, 130, rfl⟩
abbrev main_call6_v0 : Ref sig .tc := ⟨.hbm, 131, rfl⟩
abbrev main_call6_v1 : Ref sig .tc := ⟨.hbm, 132, rfl⟩
abbrev main_v31 : Ref sig .tc := ⟨.hbm, 133, rfl⟩
abbrev main_cst_12 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_cst_13 : Ref sig .tc := ⟨.hbm, 141, rfl⟩
abbrev main_v38 : Ref sig .tc := ⟨.hbm, 142, rfl⟩
abbrev main_v39 : Ref sig .tc := ⟨.hbm, 143, rfl⟩
abbrev main_cst_14 : Ref sig .tc := ⟨.hbm, 144, rfl⟩
abbrev main_v40 : Ref sig .tc := ⟨.hbm, 145, rfl⟩
abbrev main_v41 : Ref sig .tc := ⟨.hbm, 146, rfl⟩
abbrev main_cst_15 : Ref sig .tc := ⟨.hbm, 147, rfl⟩
abbrev main_v42 : Ref sig .tc := ⟨.hbm, 148, rfl⟩
abbrev main_v43 : Ref sig .tc := ⟨.hbm, 149, rfl⟩
abbrev main_cst_16 : Ref sig .tc := ⟨.hbm, 150, rfl⟩
abbrev main_v44 : Ref sig .tc := ⟨.hbm, 151, rfl⟩
abbrev main_cst_17 : Ref sig .tc := ⟨.hbm, 152, rfl⟩
abbrev main_v45 : Ref sig .tc := ⟨.hbm, 153, rfl⟩

abbrev nD : Nat := 1
abbrev τ : Topo := Topo.v7x

variable {F : FTy → Type} [FloatOps F]

class Facts₀ : Prop where
  reducesTo_S2x1024x32000_S2x1024_d2 : S2x1024x32000.ReducesTo [2] S2x1024
  h_S_ : 0 < S_.numel
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S2x1024x1_S2x1024x32000_0_1_2 : S2x1024x1.BroadcastsInDim S2x1024x32000 (![0, 1, 2] : Fin 3 → Fin S2x1024x32000.rank)
  bcast_S_S2x1024x1 : S_.BroadcastsInDim S2x1024x1 (![] : Fin 0 → Fin S2x1024x1.rank)
  shapeCasts_S2x1024x1_S2x1024x1x1 : S2x1024x1.ShapeCasts S2x1024x1x1
  bcast_S_S2x1024x1x1 : S_.BroadcastsInDim S2x1024x1x1 (![] : Fin 0 → Fin S2x1024x1x1.rank)
  bcast_S1_S1x1x1x1_3 : S1.BroadcastsInDim S1x1x1x1 (![3] : Fin 1 → Fin S1x1x1x1.rank)
  bcast_S1x1x1x1_S2x1024x1x1_0_1_2_3 : S1x1x1x1.BroadcastsInDim S2x1024x1x1 (![0, 1, 2, 3] : Fin 4 → Fin S2x1024x1x1.rank)
  reducesTo_S2x1024x1x1_S2x1024x1_d3 : S2x1024x1x1.ReducesTo [3] S2x1024x1
  shapeCasts_S2x1024x1_S2x1024 : S2x1024x1.ShapeCasts S2x1024
  reducesTo_S2x1024_S2_d1 : S2x1024.ReducesTo [1] S2
  bcast_S_S2 : S_.BroadcastsInDim S2 (![] : Fin 0 → Fin S2.rank)
  reducesTo_S2_S_d0 : S2.ReducesTo [0] S_
  dot_S2x1024x4096_S32000x4096_S2x1024x32000_2_1_01_0_n_n_wf : DotDims.WF S2x1024x4096 S32000x4096 S2x1024x32000 [2] [1] [0, 1] [0] [] []
  gather_S2x1024x32000_S2x1024x1x1_S2x1024x1_n_2_01_01_2_3_111_wf : GatherDims.WF S2x1024x32000 S2x1024x1x1 S2x1024x1 [] [2] [0, 1] [2] [0, 1] 3 ![1, 1, 1]

variable [Facts₀]

def dot_S2x1024x4096_S32000x4096_S2x1024x32000_2_1_01_0_n_n : DotDims S2x1024x4096 S32000x4096 S2x1024x32000 where
  lhsContracting := [2]
  rhsContracting := [1]
  lhsNonContracting := [0, 1]
  rhsNonContracting := [0]
  lhsBatch := []
  rhsBatch := []
  wf := dot_S2x1024x4096_S32000x4096_S2x1024x32000_2_1_01_0_n_n_wf
def gather_S2x1024x32000_S2x1024x1x1_S2x1024x1_n_2_01_01_2_3_111 : GatherDims S2x1024x32000 S2x1024x1x1 S2x1024x1 where
  offsetDims := []
  collapsedSliceDims := [2]
  operandBatchingDims := [0, 1]
  startIndicesBatchingDims := [0, 1]
  startIndexMap := [2]
  indexVectorDim := 3
  sliceSizes := ![1, 1, 1]
  wf := gather_S2x1024x32000_S2x1024x1x1_S2x1024x1_n_2_01_01_2_3_111_wf

class Facts : Prop extends Facts₀ where

variable [Facts]
-- ==== Proof.Policy.Schedule.lean ====
/-
  The policy model's call (the first pallas_call): its grid is 2 row tiles by 125 vocabulary tiles, the vocabulary
  axis innermost, so point t is row tile t / 125 and vocabulary tile t % 125. The body resets its three carried
  columns (running maximum, running sum of exponentials, accumulated target logit) at vocabulary tile 0 and emits the
  token log-probabilities at vocabulary tile 124; here are those two conditions in closed form over the grid, where
  the output window is idle, and the names of the memrefs the body is called with.
-/
import proofs.«410554_j45887430590963_2_alg».proof.Proof.Gen.KernelIdeal.Launch
import proofs.«410554_j45887430590963_2_alg».proof.Proof.Gen.KernelIdeal.Skeleton
import proofs.«410554_j45887430590963_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Policy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the vocabulary coordinate is 0 (the scalar chain the body computes). -/
abbrev atFirstTile (i : grid0.Coords) : Prop :=
  (Scalar.cmpi .ne (Scalar.extui (Scalar.cmpi .eq (BitVec.ofNat 32 (i 1).val) 0#32)) 0#32) = 1#1
/-- It is taken at the points that are 0 modulo 125. -/
theorem atFirstTile_iff : ∀ t : Fin cfg0.N, atFirstTile (grid0.coords t) ↔ t.val % 125 = 0 :=
  (by decide +kernel : ∀ t : Fin grid0.N, atFirstTile (grid0.coords t) ↔ t.val % 125 = 0)

/-- The body's last branch is taken: the vocabulary coordinate is 124. -/
abbrev atLastTile (i : grid0.Coords) : Prop := k0_cond2 i = 1#1
/-- It is taken at the points that are 124 modulo 125. -/
theorem atLastTile_iff : ∀ t : Fin cfg0.N, atLastTile (grid0.coords t) ↔ t.val % 125 = 124 :=
  (by decide +kernel : ∀ t : Fin grid0.N, atLastTile (grid0.coords t) ↔ t.val % 125 = 124)

/-- The three input windows are never idle. -/
theorem live_h : ∀ t : Fin cfg0.N, cfg0.idle 0 (grid0.coords t) = false := by decide +kernel
theorem live_w : ∀ t : Fin cfg0.N, cfg0.idle 1 (grid0.coords t) = false := by decide +kernel
theorem live_y : ∀ t : Fin cfg0.N, cfg0.idle 2 (grid0.coords t) = false := by decide +kernel
/-- Away from the last vocabulary tile the output window is idle and is not written back. -/
theorem idle_out : ∀ t : Fin cfg0.N, ¬atLastTile (grid0.coords t) → cfg0.idle 3 (grid0.coords t) = true := by decide +kernel
theorem noFlush_out : ∀ t : Fin cfg0.N, ¬atLastTile (grid0.coords t) → (cfg0.win 3).flush t = false := by decide +kernel
/-- At the last vocabulary tile it is live. -/
theorem live_out : ∀ t : Fin cfg0.N, atLastTile (grid0.coords t) → cfg0.idle 3 (grid0.coords t) = false := by decide +kernel

/-- The memrefs the pipeline calls the body with at point `t`, and that each is a whole buffer. -/
abbrev hMem (t : Fin cfg0.N) : Memref sig .tc .vmem S1024x4096 .bf16 := win0_0.stage (cfg0.slots t 0)
abbrev hMem_whole (t : Fin cfg0.N) : (hMem t).IsWhole := hstage0_0 ((cfg0.slots t 0).cast nbuf0_0)
abbrev wMem (t : Fin cfg0.N) : Memref sig .tc .vmem S256x4096 .f32 := win0_1.stage (cfg0.slots t 1)
abbrev wMem_whole (t : Fin cfg0.N) : (wMem t).IsWhole := hstage0_1 ((cfg0.slots t 1).cast nbuf0_1)
abbrev yMem (t : Fin cfg0.N) : Memref sig .tc .vmem S1024x1 .i32 := win0_2.stage (cfg0.slots t 2)
abbrev yMem_whole (t : Fin cfg0.N) : (yMem t).IsWhole := hstage0_2 ((cfg0.slots t 2).cast nbuf0_2)
abbrev oMem (t : Fin cfg0.N) : Memref sig .tc .vmem S1024x1 .f32 := win0_3.stage (cfg0.slots t 3)
abbrev oMem_whole (t : Fin cfg0.N) : (oMem t).IsWhole := hstage0_3 ((cfg0.slots t 3).cast nbuf0_3)
/-- The three carried columns: whole scoped buffers of the kernel's own. -/
abbrev maxMem : Memref sig .tc .vmem S1024x1 .f32 := Memref.whole cc0_scratch0
abbrev sumMem : Memref sig .tc .vmem S1024x1 .f32 := Memref.whole cc0_scratch1
abbrev tgtMem : Memref sig .tc .vmem S1024x1 .f32 := Memref.whole cc0_scratch2

end Cert.KernelIdeal.Policy

end
-- ==== Proof.Policy.RunFirst.lean ====
/-
  The body at the first vocabulary tile of a row tile: it first resets the three carried columns (whatever they held), then
  proceeds as at any tile; it emits nothing.
-/
import proofs.«410554_j45887430590963_2_alg».proof.Proof.Policy.Schedule

set_option maxRecDepth 16384

noncomputable section

namespace Cert.KernelIdeal.Policy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores into the three carried columns at a row tile's first vocabulary tile (the reset, then the
    update), as lists of pieces found by running it, with the proof that from whole memrefs — the inputs at `xh`, `xw`,
    `xy`, the output's at `xo`, the carried columns at any `sm`, `sl`, `sa` — the body runs to the continuation with the
    inputs and the output's buffer untouched and each carried column holding its pieces. -/
noncomputable def runFirst (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) :
    Σ' (Lm : List (View.Piece (Elt F) S1024x1 .f32)) (Ll : List (View.Piece (Elt F) S1024x1 .f32)), { La : List (View.Piece (Elt F) S1024x1 .f32) //
      ∀ (xo : Vec F S1024x1 .f32) (E : Set ℕ) (K : PUnit → sProp 𝕄),
        iprop(owns (c : Thread nD τ) arg2 fullShare xh ∗ owns (c : Thread nD τ) arg3 fullShare xw ∗ owns (c : Thread nD τ) arg4 fullShare xy
            ∗ owns (c : Thread nD τ) arg5 fullShare xo
            ∗ owns (c : Thread nD τ) arg6 fullShare sm ∗ owns (c : Thread nD τ) arg7 fullShare sl ∗ owns (c : Thread nD τ) arg8 fullShare sa
            ∗ (iprop(owns (c : Thread nD τ) arg2 fullShare xh ∗ owns (c : Thread nD τ) arg3 fullShare xw ∗ owns (c : Thread nD τ) arg4 fullShare xy
                ∗ owns (c : Thread nD τ) arg5 fullShare xo
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ll)
                ∗ (∃ f, arg8.view.loc (c : Thread nD τ) ↦[arg8.view.set]{fullShare} arg8.view.writes (Elt F) f La)) -∗ K ⟨⟩))
          ⊢ wp frame (wpE (defs₀ (F := F)) Variants.none c none) E (cc0__logp_kernel i arg2 harg2 arg3 harg3 arg4 harg4 arg5 harg5 arg6 harg6 arg7 harg7 arg8 harg8) K } := by
  refine ⟨?_, ?_, ?_, fun xo E K => ?run⟩
  case run =>
    simp only [cc0__logp_kernel_eq_skeleton]; unfold cc0__logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%fm, %hfm, Hm⟩, ⟨%fl, %hfl, Hl⟩, ⟨%fa, %hfa, Ha⟩, Hk⟩
    obtain rfl := harg2.eq_unread hf0; obtain rfl := harg3.eq_unread hf1; obtain rfl := harg4.eq_unread hf2
    obtain rfl := harg5.eq_unread hf3
    obtain rfl := harg6.eq_unread hfm; obtain rfl := harg7.eq_unread hfl; obtain rfl := harg8.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Hm]; · iexists _; iexact Hm
    isplitl [Hl]; · iexists _; iexact Hl
    iexists _; iexact Ha

end Cert.KernelIdeal.Policy

end
-- ==== Proof.Policy.RunMiddle.lean ====
/-
  The body at a middle vocabulary tile (neither the first nor the last of its row tile): it resets nothing and emits
  nothing; it reads the three input blocks and the three carried columns and stores each carried column once.
-/
import proofs.«410554_j45887430590963_2_alg».proof.Proof.Policy.Schedule

set_option maxRecDepth 16384

noncomputable section

namespace Cert.KernelIdeal.Policy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores into the three carried columns at a middle tile, as lists of pieces found by running it, with
    the proof that from whole memrefs — the inputs at `xh`, `xw`, `xy`, the output's at `xo`, the carried columns at
    `sm`, `sl`, `sa` — the body runs to the continuation with the inputs and the output's buffer untouched and each
    carried column holding its pieces. -/
noncomputable def runMiddle (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) :
    Σ' (Lm : List (View.Piece (Elt F) S1024x1 .f32)) (Ll : List (View.Piece (Elt F) S1024x1 .f32)), { La : List (View.Piece (Elt F) S1024x1 .f32) //
      ∀ (xo : Vec F S1024x1 .f32) (E : Set ℕ) (K : PUnit → sProp 𝕄),
        iprop(owns (c : Thread nD τ) arg2 fullShare xh ∗ owns (c : Thread nD τ) arg3 fullShare xw ∗ owns (c : Thread nD τ) arg4 fullShare xy
            ∗ owns (c : Thread nD τ) arg5 fullShare xo
            ∗ owns (c : Thread nD τ) arg6 fullShare sm ∗ owns (c : Thread nD τ) arg7 fullShare sl ∗ owns (c : Thread nD τ) arg8 fullShare sa
            ∗ (iprop(owns (c : Thread nD τ) arg2 fullShare xh ∗ owns (c : Thread nD τ) arg3 fullShare xw ∗ owns (c : Thread nD τ) arg4 fullShare xy
                ∗ owns (c : Thread nD τ) arg5 fullShare xo
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ll)
                ∗ (∃ f, arg8.view.loc (c : Thread nD τ) ↦[arg8.view.set]{fullShare} arg8.view.writes (Elt F) f La)) -∗ K ⟨⟩))
          ⊢ wp frame (wpE (defs₀ (F := F)) Variants.none c none) E (cc0__logp_kernel i arg2 harg2 arg3 harg3 arg4 harg4 arg5 harg5 arg6 harg6 arg7 harg7 arg8 harg8) K } := by
  refine ⟨?_, ?_, ?_, fun xo E K => ?run⟩
  case run =>
    simp only [cc0__logp_kernel_eq_skeleton]; unfold cc0__logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%fm, %hfm, Hm⟩, ⟨%fl, %hfl, Hl⟩, ⟨%fa, %hfa, Ha⟩, Hk⟩
    obtain rfl := harg2.eq_unread hf0; obtain rfl := harg3.eq_unread hf1; obtain rfl := harg4.eq_unread hf2
    obtain rfl := harg5.eq_unread hf3
    obtain rfl := harg6.eq_unread hfm; obtain rfl := harg7.eq_unread hfl; obtain rfl := harg8.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [Hm]; · iexists _; iexact Hm
    isplitl [Hl]; · iexists _; iexact Hl
    iexists _; iexact Ha

end Cert.KernelIdeal.Policy

end
-- ==== Proof.Policy.RunLast.lean ====
/-
  The body at the last vocabulary tile of a row tile: it updates the three carried columns as at any tile and then emits,
  into the output's buffer, target logit - (maximum + log sum) read from the updated columns.
-/
import proofs.«410554_j45887430590963_2_alg».proof.Proof.Policy.Schedule

set_option maxRecDepth 16384

noncomputable section

namespace Cert.KernelIdeal.Policy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores into the output's buffer and the three carried columns at a row tile's last vocabulary tile, as
    lists of pieces found by running it, with the proof that from whole memrefs — the inputs at `xh`, `xw`, `xy`, the
    output's at anything, the carried columns at `sm`, `sl`, `sa` — the body runs to the continuation with the inputs
    untouched and the output's buffer and each carried column holding its pieces. -/
noncomputable def runLast (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) :
    Σ' (Lo : List (View.Piece (Elt F) S1024x1 .f32)) (Lm : List (View.Piece (Elt F) S1024x1 .f32)) (Ll : List (View.Piece (Elt F) S1024x1 .f32)), { La : List (View.Piece (Elt F) S1024x1 .f32) //
      ∀ (E : Set ℕ) (K : PUnit → sProp 𝕄),
        iprop(owns (c : Thread nD τ) arg2 fullShare xh ∗ owns (c : Thread nD τ) arg3 fullShare xw ∗ owns (c : Thread nD τ) arg4 fullShare xy
            ∗ (∃ d, owns (c : Thread nD τ) arg5 fullShare d)
            ∗ owns (c : Thread nD τ) arg6 fullShare sm ∗ owns (c : Thread nD τ) arg7 fullShare sl ∗ owns (c : Thread nD τ) arg8 fullShare sa
            ∗ (iprop(owns (c : Thread nD τ) arg2 fullShare xh ∗ owns (c : Thread nD τ) arg3 fullShare xw ∗ owns (c : Thread nD τ) arg4 fullShare xy
                ∗ (∃ f, arg5.view.loc (c : Thread nD τ) ↦[arg5.view.set]{fullShare} arg5.view.writes (Elt F) f Lo)
                ∗ (∃ f, arg6.view.loc (c : Thread nD τ) ↦[arg6.view.set]{fullShare} arg6.view.writes (Elt F) f Lm)
                ∗ (∃ f, arg7.view.loc (c : Thread nD τ) ↦[arg7.view.set]{fullShare} arg7.view.writes (Elt F) f Ll)
                ∗ (∃ f, arg8.view.loc (c : Thread nD τ) ↦[arg8.view.set]{fullShare} arg8.view.writes (Elt F) f La)) -∗ K ⟨⟩))
          ⊢ wp frame (wpE (defs₀ (F := F)) Variants.none c none) E (cc0__logp_kernel i arg2 harg2 arg3 harg3 arg4 harg4 arg5 harg5 arg6 harg6 arg7 harg7 arg8 harg8) K } := by
  refine ⟨?_, ?_, ?_, ?_, fun E K => ?run⟩
  case run =>
    simp only [cc0__logp_kernel_eq_skeleton]; unfold cc0__logp_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fm, %hfm, Hm⟩, ⟨%fl, %hfl, Hl⟩, ⟨%fa, %hfa, Ha⟩, Hk⟩
    obtain rfl := harg2.eq_unread hf0; obtain rfl := harg3.eq_unread hf1; obtain rfl := harg4.eq_unread hf2

    obtain rfl := harg6.eq_unread hfm; obtain rfl := harg7.eq_unread hfl; obtain rfl := harg8.eq_unread hfa
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [Hm]; · iexists _; iexact Hm
    isplitl [Hl]; · iexists _; iexact Hl
    iexists _; iexact Ha

end Cert.KernelIdeal.Policy

end
-- ==== Proof.Policy.Tiles.lean ====
/-
  The three columns the policy model's kernel carries along a row tile, as pure functions of the blocks it reads.
  Per row, over the vocabulary tiles seen so far: the running maximum of the logits (started at a large negative
  finite number), the running sum of exp (logit - running maximum), rescaled whenever the maximum moves, and the logit
  of the target column (exactly one tile contains it; every other tile adds zero). At the last tile the kernel emits
  target logit - (maximum + log sum).
-/
import proofs.«410554_j45887430590963_2_alg».proof.Proof.Gen.KernelIdeal.Skeleton

noncomputable section

namespace Cert.KernelIdeal.Policy

open Cert.KernelIdeal Cert.KernelIdeal.Gen
open Idealize.ShloMosaic

variable {F : FTy → Type} [FloatOps F]

/-- The carried columns, in the order of the kernel's scratch operands: running maximum, running sum, target logit. -/
abbrev Carry (F : FTy → Type) [FloatOps F] : Type := FVec F S1024x1 .f32 × FVec F S1024x1 .f32 × FVec F S1024x1 .f32

/-- What the reset at a row tile's first vocabulary tile stores: the finite stand-in for minus infinity, zero, zero. -/
def carryReset : Carry F := (k0_pay4, k0_pay5, k0_pay6)

/-- One vocabulary tile: from the block of activations `h`, the block of the weight matrix `w`, the block of target
    indices `y` and the columns carried so far, the columns after the tile. The new maximum is the old one against
    the tile's row maxima; the new sum is the old sum rescaled by exp (old maximum - new maximum) plus the tile's sum of
    exp (logit - new maximum); the target logit gains the tile's logit where the column is the row's target. -/
def carryStep (i : grid0.Coords) (h : Vec F S1024x4096 .bf16) (w : Vec F S256x4096 .f32) (y : Vec F S1024x1 .i32) (s : Carry F) : Carry F :=
  (k0_pay2 (k0_pay9 h w s.1), k0_pay1 (k0_pay10 h w s.1 s.1) (k0_pay11 h w s.1) s.2.1, k0_pay8 i h w y s.2.2)

/-- What the last vocabulary tile emits from the carried columns: target logit - (maximum + log sum). -/
def emitted (s : Carry F) : FVec F S1024x1 .f32 := k0_pay3 s.2.2 s.1 s.2.1

/-- The carried columns after vocabulary tiles `0 … n` of one row tile: the reset, then one step per tile; `coords k` is
    the grid point of tile `k` (only its vocabulary coordinate is read), `wB k` the weight block of tile `k`. -/
def carryFold (coords : Fin 125 → grid0.Coords) (h : Vec F S1024x4096 .bf16) (wB : Fin 125 → Vec F S256x4096 .f32) (y : Vec F S1024x1 .i32) :
    (n : ℕ) → n < 125 → Carry F
  | 0, hn => carryStep (coords ⟨0, hn⟩) h (wB ⟨0, hn⟩) y carryReset
  | n + 1, hn => carryStep (coords ⟨n + 1, hn⟩) h (wB ⟨n + 1, hn⟩) y (carryFold coords h wB y n (Nat.lt_of_succ_lt hn))

end Cert.KernelIdeal.Policy

end
-- ==== Proof.Policy.Pieces.lean ====
/-
  What the three runs of the policy model's body store, read back as values: each carried column, and at the last
  vocabulary tile the output's block, ends holding exactly the pure step function of the blocks read and the columns
  found (the reset columns at a row tile's first vocabulary tile).
-/
import proofs.«410554_j45887430590963_2_alg».proof.Proof.Policy.RunFirst
import proofs.«410554_j45887430590963_2_alg».proof.Proof.Policy.RunMiddle
import proofs.«410554_j45887430590963_2_alg».proof.Proof.Policy.RunLast
import proofs.«410554_j45887430590963_2_alg».proof.Proof.Policy.Tiles
import Idealize.ShloMosaic.Lib.Pipeline.Value

set_option maxRecDepth 16384

noncomputable section

namespace Cert.KernelIdeal.Policy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem offsets_zero : (![0, 0] : Fin 2 → Nat) = fun _ => 0 := funext fun a => by fin_cases a <;> rfl

/-! ## Each buffer's stores cover it -/

theorem cover_first_max (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) (y : S1024x1.Idx) :
    ∃ pc ∈ (runFirst c i arg2 harg2 arg3 harg3 arg4 harg4 arg5 harg5 arg6 harg6 arg7 harg7 arg8 harg8 hfirst hlast xh xw xy sm sl sa).1, y ∈ pc.1.set :=
  View.cover_of_tiledL _ S1024x1.size (by sl_kernel_rfl) y
theorem cover_first_sum (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) (y : S1024x1.Idx) :
    ∃ pc ∈ (runFirst c i arg2 harg2 arg3 harg3 arg4 harg4 arg5 harg5 arg6 harg6 arg7 harg7 arg8 harg8 hfirst hlast xh xw xy sm sl sa).2.1, y ∈ pc.1.set :=
  View.cover_of_tiledL _ S1024x1.size (by sl_kernel_rfl) y
theorem cover_first_tgt (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) (y : S1024x1.Idx) :
    ∃ pc ∈ (runFirst c i arg2 harg2 arg3 harg3 arg4 harg4 arg5 harg5 arg6 harg6 arg7 harg7 arg8 harg8 hfirst hlast xh xw xy sm sl sa).2.2.val, y ∈ pc.1.set :=
  View.cover_of_tiledL _ S1024x1.size (by sl_kernel_rfl) y

theorem cover_mid_max (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) (y : S1024x1.Idx) :
    ∃ pc ∈ (runMiddle c i arg2 harg2 arg3 harg3 arg4 harg4 arg5 harg5 arg6 harg6 arg7 harg7 arg8 harg8 hfirst hlast xh xw xy sm sl sa).1, y ∈ pc.1.set :=
  View.cover_of_tiledL _ S1024x1.size (by sl_kernel_rfl) y
theorem cover_mid_sum (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) (y : S1024x1.Idx) :
    ∃ pc ∈ (runMiddle c i arg2 harg2 arg3 harg3 arg4 harg4 arg5 harg5 arg6 harg6 arg7 harg7 arg8 harg8 hfirst hlast xh xw xy sm sl sa).2.1, y ∈ pc.1.set :=
  View.cover_of_tiledL _ S1024x1.size (by sl_kernel_rfl) y
theorem cover_mid_tgt (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) (y : S1024x1.Idx) :
    ∃ pc ∈ (runMiddle c i arg2 harg2 arg3 harg3 arg4 harg4 arg5 harg5 arg6 harg6 arg7 harg7 arg8 harg8 hfirst hlast xh xw xy sm sl sa).2.2.val, y ∈ pc.1.set :=
  View.cover_of_tiledL _ S1024x1.size (by sl_kernel_rfl) y

theorem cover_last_out (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) (y : S1024x1.Idx) :
    ∃ pc ∈ (runLast c i arg2 harg2 arg3 harg3 arg4 harg4 arg5 harg5 arg6 harg6 arg7 harg7 arg8 harg8 hfirst hlast xh xw xy sm sl sa).1, y ∈ pc.1.set :=
  View.cover_of_tiledL _ S1024x1.size (by sl_kernel_rfl) y
theorem cover_last_max (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) (y : S1024x1.Idx) :
    ∃ pc ∈ (runLast c i arg2 harg2 arg3 harg3 arg4 harg4 arg5 harg5 arg6 harg6 arg7 harg7 arg8 harg8 hfirst hlast xh xw xy sm sl sa).2.1, y ∈ pc.1.set :=
  View.cover_of_tiledL _ S1024x1.size (by sl_kernel_rfl) y
theorem cover_last_sum (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) (y : S1024x1.Idx) :
    ∃ pc ∈ (runLast c i arg2 harg2 arg3 harg3 arg4 harg4 arg5 harg5 arg6 harg6 arg7 harg7 arg8 harg8 hfirst hlast xh xw xy sm sl sa).2.2.1, y ∈ pc.1.set :=
  View.cover_of_tiledL _ S1024x1.size (by sl_kernel_rfl) y
theorem cover_last_tgt (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) (y : S1024x1.Idx) :
    ∃ pc ∈ (runLast c i arg2 harg2 arg3 harg3 arg4 harg4 arg5 harg5 arg6 harg6 arg7 harg7 arg8 harg8 hfirst hlast xh xw xy sm sl sa).2.2.2.val, y ∈ pc.1.set :=
  View.cover_of_tiledL _ S1024x1.size (by sl_kernel_rfl) y

/-! ## What they hold -/

/-- At a row tile's first vocabulary tile the running maximum restarts from the reset value. -/
theorem first_max (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) :
    View.canon (runFirst c i arg2 harg2 arg3 harg3 arg4 harg4 arg5 harg5 arg6 harg6 arg7 harg7 arg8 harg8 hfirst hlast xh xw xy sm sl sa).1 = (carryStep i xh xw xy carryReset).1 := by
  unfold runFirst
  dsimp only
  sl_unfold_words
  rw [View.canon_cons_unit_zero (S := S1024x1) offsets_zero]
  unfold carryStep carryReset
  simp only [View.readAt_eq_ld, harg2.read_unread, harg3.read_unread, harg4.read_unread, harg6.read_unread,
    harg7.read_unread, harg8.read_unread, View.readCov_unit_zero (S := S1024x1) _ offsets_zero,
    View.ld_unit_zero (S := S1024x1) offsets_zero, View.ld_unit_zero (S := S1024x4096) offsets_zero,
    View.ld_unit_zero (S := S256x4096) offsets_zero, shapeCast_self]

/-- … and the running sum from zero. -/
theorem first_sum (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) :
    View.canon (runFirst c i arg2 harg2 arg3 harg3 arg4 harg4 arg5 harg5 arg6 harg6 arg7 harg7 arg8 harg8 hfirst hlast xh xw xy sm sl sa).2.1 = (carryStep i xh xw xy carryReset).2.1 := by
  unfold runFirst
  dsimp only
  sl_unfold_words
  rw [View.canon_cons_unit_zero (S := S1024x1) offsets_zero]
  unfold carryStep carryReset
  simp only [View.readAt_eq_ld, harg2.read_unread, harg3.read_unread, harg4.read_unread, harg6.read_unread,
    harg7.read_unread, harg8.read_unread, View.readCov_unit_zero (S := S1024x1) _ offsets_zero,
    View.ld_unit_zero (S := S1024x1) offsets_zero, View.ld_unit_zero (S := S1024x4096) offsets_zero,
    View.ld_unit_zero (S := S256x4096) offsets_zero, shapeCast_self]

/-- … and the target logit from zero. -/
theorem first_tgt (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : atFirstTile i) (hlast : ¬atLastTile i)
    (xh : Vec F S1024x4096 .bf16) (xw : Vec F S256x4096 .f32) (xy : Vec F S1024x1 .i32) (sm sl sa : Vec F S1024x1 .f32) :
    View.canon (runFirst c i arg2 harg2 arg3 harg3 arg4 harg4 arg5 harg5 arg6 harg6 arg7 harg7 arg8 harg8 hfirst hlast xh xw xy sm sl sa).2.2.val = (carryStep i xh xw xy carryReset).2.2 := by
  unfold runFirst
  dsimp only
  sl_unfold_words
  rw [View.canon_cons_unit_zero (S := S1024x1) offsets_zero]
  unfold carryStep carryReset
  simp only [View.readAt_eq_ld, harg2.read_unread, harg3.read_unread, harg4.read_unread, harg6.read_unread,
    harg7.read_unread, harg8.read_unread, View.readCov_unit_zero (S := S1024x1) _ offsets_zero,
    View.ld_unit_zero (S := S1024x1) offsets_zero, View.ld_unit_zero (S := S1024x4096) offsets_zero,
    View.ld_unit_zero (S := S256x4096) offsets_zero, shapeCast_self]

/-- At a middle tile each column is one step on from what the tile before left. -/
theorem mid_max (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) :
    View.canon (runMiddle c i arg2 harg2 arg3 harg3 arg4 harg4 arg5 harg5 arg6 harg6 arg7 harg7 arg8 harg8 hfirst hlast xh xw xy sm sl sa).1 = (carryStep i xh xw xy (sm, sl, sa)).1 := by
  unfold runMiddle
  dsimp only
  sl_unfold_words
  rw [View.canon_unit_zero offsets_zero]
  unfold carryStep
  simp only [View.readAt_eq_ld, harg2.read_unread, harg3.read_unread, harg4.read_unread, harg6.read_unread,
    harg7.read_unread, harg8.read_unread, View.ld_unit_zero (S := S1024x1) offsets_zero,
    View.ld_unit_zero (S := S1024x4096) offsets_zero, View.ld_unit_zero (S := S256x4096) offsets_zero, shapeCast_self]

/-- The running sum, one step on. -/
theorem mid_sum (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) :
    View.canon (runMiddle c i arg2 harg2 arg3 harg3 arg4 harg4 arg5 harg5 arg6 harg6 arg7 harg7 arg8 harg8 hfirst hlast xh xw xy sm sl sa).2.1 = (carryStep i xh xw xy (sm, sl, sa)).2.1 := by
  unfold runMiddle
  dsimp only
  sl_unfold_words
  rw [View.canon_unit_zero offsets_zero]
  unfold carryStep
  simp only [View.readAt_eq_ld, harg2.read_unread, harg3.read_unread, harg4.read_unread, harg6.read_unread,
    harg7.read_unread, harg8.read_unread, View.ld_unit_zero (S := S1024x1) offsets_zero,
    View.ld_unit_zero (S := S1024x4096) offsets_zero, View.ld_unit_zero (S := S256x4096) offsets_zero, shapeCast_self]

/-- The target logit, one step on. -/
theorem mid_tgt (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : ¬atLastTile i)
    (xh : Vec F S1024x4096 .bf16) (xw : Vec F S256x4096 .f32) (xy : Vec F S1024x1 .i32) (sm sl sa : Vec F S1024x1 .f32) :
    View.canon (runMiddle c i arg2 harg2 arg3 harg3 arg4 harg4 arg5 harg5 arg6 harg6 arg7 harg7 arg8 harg8 hfirst hlast xh xw xy sm sl sa).2.2.val = (carryStep i xh xw xy (sm, sl, sa)).2.2 := by
  unfold runMiddle
  dsimp only
  sl_unfold_words
  rw [View.canon_unit_zero offsets_zero]
  unfold carryStep
  simp only [View.readAt_eq_ld, harg2.read_unread, harg3.read_unread, harg4.read_unread, harg6.read_unread,
    harg7.read_unread, harg8.read_unread, View.ld_unit_zero (S := S1024x1) offsets_zero,
    View.ld_unit_zero (S := S1024x4096) offsets_zero, View.ld_unit_zero (S := S256x4096) offsets_zero, shapeCast_self]

/-- At the last tile the columns step as at any tile, -/
theorem last_max (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) :
    View.canon (runLast c i arg2 harg2 arg3 harg3 arg4 harg4 arg5 harg5 arg6 harg6 arg7 harg7 arg8 harg8 hfirst hlast xh xw xy sm sl sa).2.1 = (carryStep i xh xw xy (sm, sl, sa)).1 := by
  unfold runLast
  dsimp only
  sl_unfold_words
  rw [View.canon_unit_zero offsets_zero]
  unfold carryStep
  simp only [View.readAt_eq_ld, harg2.read_unread, harg3.read_unread, harg4.read_unread, harg6.read_unread,
    harg7.read_unread, harg8.read_unread, View.ld_unit_zero (S := S1024x1) offsets_zero,
    View.ld_unit_zero (S := S1024x4096) offsets_zero, View.ld_unit_zero (S := S256x4096) offsets_zero, shapeCast_self]

/-- the running sum too, -/
theorem last_sum (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) :
    View.canon (runLast c i arg2 harg2 arg3 harg3 arg4 harg4 arg5 harg5 arg6 harg6 arg7 harg7 arg8 harg8 hfirst hlast xh xw xy sm sl sa).2.2.1 = (carryStep i xh xw xy (sm, sl, sa)).2.1 := by
  unfold runLast
  dsimp only
  sl_unfold_words
  rw [View.canon_unit_zero offsets_zero]
  unfold carryStep
  simp only [View.readAt_eq_ld, harg2.read_unread, harg3.read_unread, harg4.read_unread, harg6.read_unread,
    harg7.read_unread, harg8.read_unread, View.ld_unit_zero (S := S1024x1) offsets_zero,
    View.ld_unit_zero (S := S1024x4096) offsets_zero, View.ld_unit_zero (S := S256x4096) offsets_zero, shapeCast_self]

/-- and the target logit, -/
theorem last_tgt (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) :
    View.canon (runLast c i arg2 harg2 arg3 harg3 arg4 harg4 arg5 harg5 arg6 harg6 arg7 harg7 arg8 harg8 hfirst hlast xh xw xy sm sl sa).2.2.2.val = (carryStep i xh xw xy (sm, sl, sa)).2.2 := by
  unfold runLast
  dsimp only
  sl_unfold_words
  rw [View.canon_unit_zero offsets_zero]
  unfold carryStep
  simp only [View.readAt_eq_ld, harg2.read_unread, harg3.read_unread, harg4.read_unread, harg6.read_unread,
    harg7.read_unread, harg8.read_unread, View.ld_unit_zero (S := S1024x1) offsets_zero,
    View.ld_unit_zero (S := S1024x4096) offsets_zero, View.ld_unit_zero (S := S256x4096) offsets_zero, shapeCast_self]

/-- and the output's block is what the stepped columns emit: target logit - (maximum + log sum). -/
theorem last_out (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
    (hfirst : ¬atFirstTile i) (hlast : atLastTile i)
    (xh : Vec F S1024x4096 .bf16) (xw : Vec F S256x4096 .f32) (xy : Vec F S1024x1 .i32) (sm sl sa : Vec F S1024x1 .f32) :
    View.canon (runLast c i arg2 harg2 arg3 harg3 arg4 harg4 arg5 harg5 arg6 harg6 arg7 harg7 arg8 harg8 hfirst hlast xh xw xy sm sl sa).1 = emitted (carryStep i xh xw xy (sm, sl, sa)) := by
  unfold runLast
  dsimp only
  sl_unfold_words
  rw [View.canon_unit_zero offsets_zero]
  unfold emitted carryStep
  simp only [View.readAt_eq_ld, harg2.read_unread, harg3.read_unread, harg4.read_unread, harg6.read_unread,
    harg7.read_unread, harg8.read_unread, View.readCov_unit_zero (S := S1024x1) _ offsets_zero,
    View.ld_unit_zero (S := S1024x1) offsets_zero, View.ld_unit_zero (S := S1024x4096) offsets_zero,
    View.ld_unit_zero (S := S256x4096) offsets_zero, shapeCast_self]

end Cert.KernelIdeal.Policy

end
-- ==== Proof.Policy.Carried.lean ====
/-
  The policy model's call as a pipeline: what each window's staging buffer holds after the body at each grid point, the
  invariant that carries the three columns from one point to the next, and the body's obligation at every point.
  The columns after point t are the pure fold `carryAt`: restarted from the reset at the points that are 0 modulo 125
  (a row tile's first vocabulary tile), one step on from the point before otherwise; the output's block after a row
  tile's last vocabulary tile is what those columns emit. Everything is stated at the contents `V` the unscoped buffers
  hold when the call is entered.
-/
import proofs.«410554_j45887430590963_2_alg».proof.Proof.Policy.Pieces

set_option maxRecDepth 16384

noncomputable section

namespace Cert.KernelIdeal.Policy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block of its array at point `t`, as the call finds the array. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The activations' row tile, the weights' vocabulary tile and the targets' row tile at point `t`, at their literal types. -/
abbrev hBlock (c : Dev nD) (t : Fin cfg0.N) : Vec F S1024x4096 .bf16 := blockAt V c 0 t
abbrev wBlock (c : Dev nD) (t : Fin cfg0.N) : Vec F S256x4096 .f32 := blockAt V c 1 t
abbrev yBlock (c : Dev nD) (t : Fin cfg0.N) : Vec F S1024x1 .i32 := blockAt V c 2 t

/-- An input window's current staging buffer holds its block at every point, fetched there or not (an unfetched window's
    block index has not moved), for any proof data whose array is `V`'s and whose body leaves the block in place. -/
theorem found_h {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_w {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_y {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The carried columns, point by point -/

/-- The three columns after the body at point `n`: restarted from the reset where a row tile begins, else one step on
    from the point before. -/
def carryAt (c : Dev nD) : (n : ℕ) → n < cfg0.N → Carry F
  | 0, hn => carryStep (grid0.coords ⟨0, hn⟩) (hBlock V c ⟨0, hn⟩) (wBlock V c ⟨0, hn⟩) (yBlock V c ⟨0, hn⟩) carryReset
  | n + 1, hn =>
    if (n + 1) % 125 = 0 then
      carryStep (grid0.coords ⟨n + 1, hn⟩) (hBlock V c ⟨n + 1, hn⟩) (wBlock V c ⟨n + 1, hn⟩) (yBlock V c ⟨n + 1, hn⟩) carryReset
    else
      carryStep (grid0.coords ⟨n + 1, hn⟩) (hBlock V c ⟨n + 1, hn⟩) (wBlock V c ⟨n + 1, hn⟩) (yBlock V c ⟨n + 1, hn⟩)
        (carryAt c n (Nat.lt_of_succ_lt hn))

/-- At a row tile's first vocabulary tile: one step from the reset. -/
theorem carryAt_first (c : Dev nD) (t : Fin cfg0.N) (h : t.val % 125 = 0) :
    carryAt V c t.val t.isLt = carryStep (grid0.coords t) (hBlock V c t) (wBlock V c t) (yBlock V c t) carryReset := by
  obtain ⟨n, hn⟩ := t
  cases n with
  | zero => rfl
  | succ n => exact (if_pos h).trans rfl

/-- Elsewhere: one step from the point before. -/
theorem carryAt_next (c : Dev nD) (t : Fin cfg0.N) (h : ¬t.val % 125 = 0) :
    carryAt V c t.val t.isLt = carryStep (grid0.coords t) (hBlock V c t) (wBlock V c t) (yBlock V c t)
      (carryAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- The core's scoped buffers that this call neither stages through nor carries (the other call's staging buffers and
    columns), each whole at some contents: unopened. -/
def otherScoped (c : Dev nD) : sProp 𝕄 :=
  Pipeline.scopedRestBut (Ix := Unit) (Name := ℕ) (U := UR sig nD τ) (Lvl := ℕ) (Val := Elt F) spec0 c [cc0_scratch0, cc0_scratch1, cc0_scratch2]

/-- What the launch hands the call: the three columns at anything, the other scoped buffers, the generator register. -/
theorem entryInv_eq (c : Dev nD) :
    (Pipeline.ΦA spec0 c : sProp 𝕄)
      = iprop((((∃ d, owns (c : Thread nD τ) maxMem fullShare d) ∗ (∃ d, owns (c : Thread nD τ) sumMem fullShare d)
          ∗ (∃ d, owns (c : Thread nD τ) tgtMem fullShare d)) ∗ otherScoped (F := F) c) ∗ (∃ r, prngReg c r)) := by
  unfold Pipeline.ΦA otherScoped
  rw [Pipeline.scopedRest_split_of_list spec0 c [cc0_scratch0, cc0_scratch1, cc0_scratch2] (by decide) (by decide)]
  simp only [maxMem, sumMem, tgtMem, owns_whole]; try rfl

/-- Before position `n`: at the call's entry what the launch hands it; afterwards the three columns at what the point
    before left in them, beside the other scoped buffers and the generator register. -/
def carriedInv (c : Dev nD) : (n : ℕ) → n ≤ cfg0.N → sProp 𝕄
  | 0, _ => Pipeline.ΦA spec0 c
  | n + 1, hn => iprop(((owns (c : Thread nD τ) maxMem fullShare (carryAt V c n hn).1 ∗ owns (c : Thread nD τ) sumMem fullShare (carryAt V c n hn).2.1
      ∗ owns (c : Thread nD τ) tgtMem fullShare (carryAt V c n hn).2.2) ∗ otherScoped (F := F) c) ∗ (∃ r, prngReg c r))

theorem carriedInv_zero (c : Dev nD) (n : ℕ) (h : n ≤ cfg0.N) (hz : n = 0) : carriedInv V c n h = Pipeline.ΦA spec0 c := by
  subst hz; rfl

theorem carriedInv_succ (c : Dev nD) (n : ℕ) (hn : n < cfg0.N) :
    carriedInv V c (n + 1) hn = iprop(((owns (c : Thread nD τ) maxMem fullShare (carryAt V c n hn).1 ∗ owns (c : Thread nD τ) sumMem fullShare (carryAt V c n hn).2.1
      ∗ owns (c : Thread nD τ) tgtMem fullShare (carryAt V c n hn).2.2) ∗ otherScoped (F := F) c) ∗ (∃ r, prngReg c r)) := rfl

theorem carriedInv_pos (c : Dev nD) (n : ℕ) (h : n ≤ cfg0.N) (hz : n ≠ 0) :
    carriedInv V c n h = iprop(((owns (c : Thread nD τ) maxMem fullShare (carryAt V c (n - 1) (by omega)).1 ∗ owns (c : Thread nD τ) sumMem fullShare (carryAt V c (n - 1) (by omega)).2.1
      ∗ owns (c : Thread nD τ) tgtMem fullShare (carryAt V c (n - 1) (by omega)).2.2) ∗ otherScoped (F := F) c) ∗ (∃ r, prngReg c r)) := by
  cases n with
  | zero => exact absurd rfl hz
  | succ n => rfl

/-! ## The proof data -/

/-- The call's proof data on core `c`: the arrays as the call finds them; after the body each input's buffer at its
    block and the output's at what the columns of that point emit (read only where the block is written back: a row tile's
    last vocabulary tile); the carried invariant; nothing owed; full shares. -/
def policyDat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => emitted (carryAt V c t.val t.isLt)
  Φ t := carriedInv V c t.val (Nat.le_of_lt_succ t.isLt)
  q _ := fullShare
  owed _ := 0

theorem policyDat_A (c : Dev nD) (w : Fin cfg0.W) : (policyDat V c).A w = V c (Pipeline.arrRef spec0 w) := by
  dsimp only [policyDat]
theorem after_h (c : Dev nD) (t : Fin cfg0.N) : (policyDat V c).after 0 t = blockAt V c 0 t := by dsimp only [policyDat]
theorem after_w (c : Dev nD) (t : Fin cfg0.N) : (policyDat V c).after 1 t = blockAt V c 1 t := by dsimp only [policyDat]
theorem after_y (c : Dev nD) (t : Fin cfg0.N) : (policyDat V c).after 2 t = blockAt V c 2 t := by dsimp only [policyDat]
theorem after_out (c : Dev nD) (t : Fin cfg0.N) : (policyDat V c).after 3 t = emitted (carryAt V c t.val t.isLt) := by dsimp only [policyDat]

theorem inv_castSucc (c : Dev nD) (t : Fin cfg0.N) :
    (policyDat V c).Φ t.castSucc = carriedInv V c t.val (Nat.le_of_lt t.isLt) := by
  dsimp only [policyDat]; simp only [Fin.coe_castSucc]

theorem before_h (c : Dev nD) (t : Fin cfg0.N) (d) : (policyDat V c).before 0 t d = blockAt V c 0 t :=
  found_h V (policyDat V c) (policyDat_A V c 0) (after_h V c) t d
theorem before_w (c : Dev nD) (t : Fin cfg0.N) (d) : (policyDat V c).before 1 t d = blockAt V c 1 t :=
  found_w V (policyDat V c) (policyDat_A V c 1) (after_w V c) t d
theorem before_y (c : Dev nD) (t : Fin cfg0.N) (d) : (policyDat V c).before 2 t d = blockAt V c 2 t :=
  found_y V (policyDat V c) (policyDat_A V c 2) (after_y V c) t d

/-! ## The body's obligation -/

/-- What the body is called with at point `t`, the windows one by one, -/
def bodyPre (c : Dev nD) (t : Fin cfg0.N) : sProp 𝕄 :=
  iprop((policyDat V c).Φ t.castSucc ∗ (policyDat V c).owesAt () t.castSucc
    ∗ (∃ d, owns (c : Thread nD τ) (hMem t) fullShare ((policyDat V c).before 0 t d))
    ∗ (∃ d, owns (c : Thread nD τ) (wMem t) fullShare ((policyDat V c).before 1 t d))
    ∗ (∃ d, owns (c : Thread nD τ) (yMem t) fullShare ((policyDat V c).before 2 t d))
    ∗ (∃ d, owns (c : Thread nD τ) (oMem t) fullShare ((policyDat V c).before 3 t d)))

/-- and what it returns. -/
def bodyPost (c : Dev nD) (t : Fin cfg0.N) : sProp 𝕄 :=
  iprop((policyDat V c).Φ t.succ ∗ (policyDat V c).owesAt () t.succ
    ∗ (policyDat V c).leavesExact 0 t ∗ (policyDat V c).leavesExact 1 t
    ∗ (policyDat V c).leavesExact 2 t ∗ (policyDat V c).leavesExact 3 t)

set_option maxHeartbeats 4800000 in
/-- The body at any point. The inputs' memrefs hold their blocks; the closed forms say whether the point is a row
    tile's first vocabulary tile, its last, or neither, and the matching run applies: the invariant hands it the three
    columns (at anything at the call's very first point, else at what the point before left) and takes them back at this
    point's contents; the output's buffer is handed back untouched except at the last vocabulary tile, where it holds what the
    columns emit. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_h, before_w, before_y]
  rw [show (policyDat V c).owesAt () t.succ = (policyDat V c).owesAt () t.castSucc from rfl]
  rw [show (policyDat V c).Φ t.succ = carriedInv V c (t.val + 1) t.isLt from rfl, carriedInv_succ]
  have hN : t.val < 250 := lt_of_lt_of_eq t.isLt (show cfg0.N = 250 from N_0)
  rw [show (policyDat V c).leavesExact 0 t = owns (c : Thread nD τ) (hMem t) fullShare ((policyDat V c).after 0 t) from by
    unfold Dat.leavesExact; rw [live_h t], after_h]
  rw [show (policyDat V c).leavesExact 1 t = owns (c : Thread nD τ) (wMem t) fullShare ((policyDat V c).after 1 t) from by
    unfold Dat.leavesExact; rw [live_w t], after_w]
  rw [show (policyDat V c).leavesExact 2 t = owns (c : Thread nD τ) (yMem t) fullShare ((policyDat V c).after 2 t) from by
    unfold Dat.leavesExact; rw [live_y t], after_y]
  by_cases h0 : t.val % 125 = 0
  · -- a row tile's first vocabulary tile
    have hF : atFirstTile (grid0.coords t) := (atFirstTile_iff t).mpr h0
    have hL : ¬atLastTile (grid0.coords t) := fun h => by have := (atLastTile_iff t).mp h; omega
    rw [Dat.leavesExact_idle (policyDat V c) 3 t (idle_out t hL) (noFlush_out t hL)]
    rw [carryAt_first V c t h0]
    by_cases hz : t.val = 0
    · rw [inv_castSucc V c t, carriedInv_zero V c _ _ hz, entryInv_eq]

      iintro ⟨⟨⟨⟨⟨%dm, Hm⟩, ⟨%dl, Hl⟩, ⟨%da, Ha⟩⟩, Hother⟩, Hg⟩, Ho, ⟨%d0, H0⟩, ⟨%d1, H1⟩, ⟨%d2, H2⟩, ⟨%d3, H3⟩⟩
      iapply ((runFirst c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da).2.2.property _ Set.univ _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, ⟨%em, Hm⟩, ⟨%el, Hl⟩, ⟨%ea, Ha⟩⟩
      isplitl [Hm Hl Ha Hother Hg]
      · isplitr [Hg]
        · isplitr [Hother]
          · isplitl [Hm]
            · unfold owns; iexists _; isplitr
              swap; · iexact Hm
              ipureintro
              exact (View.read_writes_eq_canon _ _ _ (cover_first_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da)).trans
                (first_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da)
            isplitl [Hl]
            · unfold owns; iexists _; isplitr
              swap; · iexact Hl
              ipureintro
              exact (View.read_writes_eq_canon _ _ _ (cover_first_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da)).trans
                (first_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da)
            · unfold owns; iexists _; isplitr
              swap; · iexact Ha
              ipureintro
              exact (View.read_writes_eq_canon _ _ _ (cover_first_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da)).trans
                (first_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) dm dl da)
          iexact Hother
        iexact Hg
      isplitl [Ho]; · iexact Ho
      isplitl [H0]; · iexact H0
      isplitl [H1]; · iexact H1
      isplitl [H2]; · iexact H2
      iexists _; iexact H3
    · rw [inv_castSucc V c t, carriedInv_pos V c _ _ hz]

      iintro ⟨⟨⟨⟨Hm, Hl, Ha⟩, Hother⟩, Hg⟩, Ho, ⟨%d0, H0⟩, ⟨%d1, H1⟩, ⟨%d2, H2⟩, ⟨%d3, H3⟩⟩
      iapply ((runFirst c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _).2.2.property _ Set.univ _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, ⟨%em, Hm⟩, ⟨%el, Hl⟩, ⟨%ea, Ha⟩⟩
      isplitl [Hm Hl Ha Hother Hg]
      · isplitr [Hg]
        · isplitr [Hother]
          · isplitl [Hm]
            · unfold owns; iexists _; isplitr
              swap; · iexact Hm
              ipureintro
              exact (View.read_writes_eq_canon _ _ _ (cover_first_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (first_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
            isplitl [Hl]
            · unfold owns; iexists _; isplitr
              swap; · iexact Hl
              ipureintro
              exact (View.read_writes_eq_canon _ _ _ (cover_first_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (first_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
            · unfold owns; iexists _; isplitr
              swap; · iexact Ha
              ipureintro
              exact (View.read_writes_eq_canon _ _ _ (cover_first_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (first_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
          iexact Hother
        iexact Hg
      isplitl [Ho]; · iexact Ho
      isplitl [H0]; · iexact H0
      isplitl [H1]; · iexact H1
      isplitl [H2]; · iexact H2
      iexists _; iexact H3
  · have hF : ¬atFirstTile (grid0.coords t) := fun h => h0 ((atFirstTile_iff t).mp h)
    have hz : t.val ≠ 0 := fun h => h0 (by rw [h])
    rw [carryAt_next V c t h0]
    rw [inv_castSucc V c t, carriedInv_pos V c _ _ hz]
    by_cases h1 : t.val % 125 = 124
    · -- its last vocabulary tile
      have hL : atLastTile (grid0.coords t) := (atLastTile_iff t).mpr h1
      rw [show (policyDat V c).leavesExact 3 t = owns (c : Thread nD τ) (oMem t) fullShare ((policyDat V c).after 3 t) from by
        unfold Dat.leavesExact; rw [live_out t hL], after_out, carryAt_next V c t h0]
      iintro ⟨⟨⟨⟨Hm, Hl, Ha⟩, Hother⟩, Hg⟩, Ho, ⟨%d0, H0⟩, ⟨%d1, H1⟩, ⟨%d2, H2⟩, ⟨%d3, H3⟩⟩
      iapply ((runLast c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _).2.2.2.property Set.univ _)
      isplitl [H0]; · iexact H0
      isplitl [H1]; · iexact H1
      isplitl [H2]; · iexact H2
      isplitl [H3]; · iexists _; iexact H3
      isplitl [Hm]; · iexact Hm
      isplitl [Hl]; · iexact Hl
      isplitl [Ha]; · iexact Ha
      iintro ⟨H0, H1, H2, ⟨%eo, H3⟩, ⟨%em, Hm⟩, ⟨%el, Hl⟩, ⟨%ea, Ha⟩⟩
      isplitl [Hm Hl Ha Hother Hg]
      · isplitr [Hg]
        · isplitr [Hother]
          · isplitl [Hm]
            · unfold owns; iexists _; isplitr
              swap; · iexact Hm
              ipureintro
              exact (View.read_writes_eq_canon _ _ _ (cover_last_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (last_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
            isplitl [Hl]
            · unfold owns; iexists _; isplitr
              swap; · iexact Hl
              ipureintro
              exact (View.read_writes_eq_canon _ _ _ (cover_last_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (last_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
            · unfold owns; iexists _; isplitr
              swap; · iexact Ha
              ipureintro
              exact (View.read_writes_eq_canon _ _ _ (cover_last_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (last_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
          iexact Hother
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (cover_last_out c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
        (last_out c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
    · -- neither
      have hL : ¬atLastTile (grid0.coords t) := fun h => h1 ((atLastTile_iff t).mp h)
      rw [Dat.leavesExact_idle (policyDat V c) 3 t (idle_out t hL) (noFlush_out t hL)]
      iintro ⟨⟨⟨⟨Hm, Hl, Ha⟩, Hother⟩, Hg⟩, Ho, ⟨%d0, H0⟩, ⟨%d1, H1⟩, ⟨%d2, H2⟩, ⟨%d3, H3⟩⟩
      iapply ((runMiddle c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _).2.2.property _ Set.univ _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, ⟨%em, Hm⟩, ⟨%el, Hl⟩, ⟨%ea, Ha⟩⟩
      isplitl [Hm Hl Ha Hother Hg]
      · isplitr [Hg]
        · isplitr [Hother]
          · isplitl [Hm]
            · unfold owns; iexists _; isplitr
              swap; · iexact Hm
              ipureintro
              exact (View.read_writes_eq_canon _ _ _ (cover_mid_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (mid_max c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
            isplitl [Hl]
            · unfold owns; iexists _; isplitr
              swap; · iexact Hl
              ipureintro
              exact (View.read_writes_eq_canon _ _ _ (cover_mid_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (mid_sum c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
            · unfold owns; iexists _; isplitr
              swap; · iexact Ha
              ipureintro
              exact (View.read_writes_eq_canon _ _ _ (cover_mid_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)).trans
                (mid_tgt c (grid0.coords t) (hMem t) (hMem_whole t) (wMem t) (wMem_whole t) (yMem t) (yMem_whole t) (oMem t) (oMem_whole t) maxMem (Memref.isWhole_whole _) sumMem (Memref.isWhole_whole _) tgtMem (Memref.isWhole_whole _) hF hL (hBlock V c t) (wBlock V c t) (yBlock V c t) _ _ _)
          iexact Hother
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (policyDat (F := F) V c) (defs₀ (F := F)) Variants.none () Set.univ := fun t => by
  rw [bigSep_W0, bigSep_W0]
  exact sound_body V c t

/-! ## The invariant at the call's two ends -/

/-- What the launch hands the call is the invariant before the first point. -/
theorem inv_entry (c : Dev nD) : Pipeline.ΦA spec0 c ⊢ (policyDat V c).Φ 0 := by
  rw [show (policyDat V c).Φ 0 = carriedInv V c 0 (Nat.zero_le _) from rfl, carriedInv_zero V c 0 _ rfl]
  try exact Idealize.SL.BI.Entails.refl _

/-- After the last point it gives the same back: the columns' contents are forgotten. -/
theorem inv_exit (c : Dev nD) : (policyDat V c).Φ (Fin.last cfg0.N) ⊢ Pipeline.ΦA spec0 c := by
  have hN : cfg0.N = 250 := N_0
  rw [show (policyDat V c).Φ (Fin.last cfg0.N) = carriedInv V c (Fin.last cfg0.N).val (Nat.le_of_lt_succ (Fin.last cfg0.N).isLt) from rfl,
    carriedInv_pos V c _ _ (by rw [Fin.val_last]; omega), entryInv_eq]
  iintro ⟨⟨⟨Hm, Hl, Ha⟩, Hother⟩, Hg⟩
  isplitr [Hg]
  · isplitr [Hother]
    · isplitl [Hm]; · iexists _; iexact Hm
      isplitl [Hl]; · iexists _; iexact Hl
      iexists _; iexact Ha
    iexact Hother
  iexact Hg

end Cert.KernelIdeal.Policy

end
-- ==== Proof.Calls.lean ====
/-
  The two calls in @main. Each call's proof data is stated at the contents the unscoped buffers hold when the call is
  entered: for the policy model's call what the host operations before it leave of the launch memory; for the frozen
  reference model's call the same carried through the host operations between the calls, the first call's result array
  holding what its write-backs left. The generated host side of @main takes, per call, a segment record entered from and
  left at its own valuations; here are the two records, and from them the program's run: it terminates, faults nowhere,
  leaves every argument as launched, and its result is the generated valuation after the last item read at the result
  buffer.
-/
import proofs.«410554_j45887430590963_2_alg».proof.Proof.Policy.Carried
import proofs.«410554_j45887430590963_2_alg».proof.Proof.Frozen.Carried
import proofs.«410554_j45887430590963_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents each call is entered at, and what it leaves -/

/-- The policy model's call is entered at what the host operations before it leave. -/
abbrev entry0 (c : Dev nD) (b : Ref sig .tc) : Buf (Elt F) ((c : Thread nD τ).loc b) := V3 m c b

/-- What it leaves in its result array: the write-backs of its output window folded over the grid. -/
def left0 (c : Dev nD) : Buf (Elt F) ((c : Thread nD τ).loc main_v4) := (Policy.policyDat (entry0 m) c).arrAt 3 cfg0.N

/-- The unscoped buffers when the frozen reference model's call is entered: the first call's result array at what it left,
    then the host operations between the calls. -/
def between (c : Dev nD) : Valuation τ sig (Elt F) :=
  StableHlo.after hostOps1_2 (StableHlo.after hostOps1_1 (StableHlo.after hostOps1 (Function.update (V3 m c) main_v4 (left0 m c))))

abbrev entry1 (c : Dev nD) (b : Ref sig .tc) : Buf (Elt F) ((c : Thread nD τ).loc b) := between m c b

/-- What the second call leaves in its result array. -/
def left1 (c : Dev nD) : Buf (Elt F) ((c : Thread nD τ).loc main_v20) := (Frozen.frozenDat (entry1 m) c).arrAt 3 cfg1.N

/-- What the calls leave, as the generated host side's unknowns: read only at the two result arrays. -/
def leftBy : Outs (F := F) := fun _ r c =>
  if h : r = main_v4 then h ▸ left0 m c else if h' : r = main_v20 then h' ▸ left1 m c else V3 m c r

theorem leftBy_first (c : Dev nD) : leftBy m 4 main_v4 c = left0 m c := by
  unfold leftBy; rw [dif_pos rfl]
theorem leftBy_second (c : Dev nD) : leftBy m 8 main_v20 c = left1 m c := by
  unfold leftBy; rw [dif_neg (by decide), dif_pos rfl]

/-- The generated valuation before the second call is the one its proof data is stated at. -/
theorem V7_eq (c : Dev nD) : V7 m (leftBy m) c = between m c := by
  show StableHlo.after hostOps1_2 (StableHlo.after hostOps1_1 (StableHlo.after hostOps1
    (Function.update (V3 m c) main_v4 (leftBy m 4 main_v4 c)))) = _
  rw [leftBy_first]; rfl

/-! ## The proof data of both calls, the thread state, the two records -/

/-- Every call's proof data, each at its entry contents (a literal match on the pipeline's index). -/
def pdats : (p : Fin 2) → (c : Dev nD) → Dat τ (Elt F) Unit ℕ (UR sig nD τ) ℕ (Pipeline.pin (pcfgs (F := F)) adm p) c
  | ⟨0, _⟩ => fun c => Policy.policyDat (entry0 m) c
  | ⟨1, _⟩ => fun c => Frozen.frozenDat (entry1 m) c

/-- No core owes another anything: no pair is recorded, no level assigned. -/
abbrev noPairs : GSem nD τ sig → Finset Unit := fun _ => ∅
abbrev noLevel : GSem nD τ sig → Unit → ℕ := fun _ _ => 0

/-- What rides beside the buffers through every item of @main: the core's generator register at some state and the core
    owing nothing. -/
abbrev riding (c : Dev nD) : sProp 𝕄 := iprop((∃ r, prngReg c r) ∗ ∃ W, owes (c : Thread nD τ) (0 : CellTallies nD τ sig Unit) W)

/-- After the policy model's call each of its arrays holds what the pipeline leaves: an input as entered, the result at
    `left0`. -/
theorem arrays_left0 (c : Dev nD) : ∀ w : Fin cfg0.W,
    (pdats m 0 c).arrAt w cfg0.N = V4 m (leftBy m) c (Pipeline.arrRef spec0 w)
  | ⟨0, _⟩ => ((Policy.policyDat (entry0 m) c).arrAt_in 0 rfl _).trans ((Policy.policyDat_A (entry0 m) c 0).trans (V4_of m (leftBy m) c main_v1 (by decide)).symm)
  | ⟨1, _⟩ => ((Policy.policyDat (entry0 m) c).arrAt_in 1 rfl _).trans ((Policy.policyDat_A (entry0 m) c 1).trans (V4_of m (leftBy m) c main_arg4 (by decide)).symm)
  | ⟨2, _⟩ => ((Policy.policyDat (entry0 m) c).arrAt_in 2 rfl _).trans ((Policy.policyDat_A (entry0 m) c 2).trans (V4_of m (leftBy m) c main_v3 (by decide)).symm)
  | ⟨3, _⟩ => by
    show left0 m c = Function.update (V3 m c) (Proc.devRef .tc main_v4) (leftBy m 4 main_v4 c) (Proc.devRef .tc main_v4)
    rw [Function.update_self, leftBy_first]
/-- Every other buffer is as entered. -/
theorem others_kept0 (c : Dev nD) : ∀ b, b ∉ Finset.univ.image (Pipeline.arrRef spec0) → V4 m (leftBy m) c b = entry0 m c b :=
  fun b hb => V4_of m (leftBy m) c b (fun hmem => hb (by
    rw [List.mem_singleton] at hmem; subst hmem
    exact Finset.mem_image.mpr ⟨3, Finset.mem_univ _, rfl⟩))

/-- The same for the second call, whose entry contents are the generated valuation before it (`V7_eq`). -/
theorem arrays_left1 (c : Dev nD) : ∀ w : Fin cfg1.W,
    (pdats m 1 c).arrAt w cfg1.N = V8 m (leftBy m) c (Pipeline.arrRef spec1 w)
  | ⟨0, _⟩ => ((Frozen.frozenDat (entry1 m) c).arrAt_in 0 rfl _).trans ((Frozen.frozenDat_A (entry1 m) c 0).trans ((V8_of m (leftBy m) c main_v17 (by decide)).trans (congrFun (V7_eq m c) _)).symm)
  | ⟨1, _⟩ => ((Frozen.frozenDat (entry1 m) c).arrAt_in 1 rfl _).trans ((Frozen.frozenDat_A (entry1 m) c 1).trans ((V8_of m (leftBy m) c main_arg5 (by decide)).trans (congrFun (V7_eq m c) _)).symm)
  | ⟨2, _⟩ => ((Frozen.frozenDat (entry1 m) c).arrAt_in 2 rfl _).trans ((Frozen.frozenDat_A (entry1 m) c 2).trans ((V8_of m (leftBy m) c main_v19 (by decide)).trans (congrFun (V7_eq m c) _)).symm)
  | ⟨3, _⟩ => by
    show left1 m c = Function.update (V7 m (leftBy m) c) (Proc.devRef .tc main_v20) (leftBy m 8 main_v20 c) (Proc.devRef .tc main_v20)
    rw [Function.update_self, leftBy_second]
theorem others_kept1 (c : Dev nD) : ∀ b, b ∉ Finset.univ.image (Pipeline.arrRef spec1) → V8 m (leftBy m) c b = entry1 m c b :=
  fun b hb => (V8_of m (leftBy m) c b (fun hmem => hb (by
    rw [List.mem_singleton] at hmem; subst hmem
    exact Finset.mem_image.mpr ⟨3, Finset.mem_univ _, rfl⟩))).trans (congrFun (V7_eq m c) _)

-- an entailment of the library stated over the pinned configuration unifies with the printed one only when unification may
-- unfold plain definitions in a metavariable's type
set_option backward.isDefEq.respectTransparency.types false in
/-- The policy model's call as a segment of @main: entered with every unscoped buffer at `V3 m`, left with
    them at `V4 m (leftBy m)` (the same but for the call's result array, which holds what its write-backs left). Its arrays are
    split out of the unscoped buffers at entry and put back at exit; the generator register goes into the carried
    invariant and comes back; nothing is owed; the kernel has no semaphore of its own. -/
def call0 : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (Policy.body_obligation (entry0 m) c).loose
  hwaits := Pipeline.hwaits_of_owed_zero _ _ _ _ noPairs noLevel 0 fun _ _ => rfl
  pre c := iprop(StableHlo.held (c : Thread nD τ) (Pipeline.ucRefs τ sig) (V3 m c) ∗ riding (F := F) c)
  post c := iprop(StableHlo.held (c : Thread nD τ) (Pipeline.ucRefs τ sig) (V4 m (leftBy m) c) ∗ riding (F := F) c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm 0).1
          ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h.trans (Policy.inv_entry (entry0 m) c)
  hout c := by
    have h : (Pipeline.ΦA spec0 c : sProp 𝕄)
        ⊢ iprop((∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec0 c) := by
      rw [Pipeline.ownSems0_none]; unfold Pipeline.ΦA
      iintro ⟨Hr, Hp⟩
      isplitl [Hp]; · iexact Hp
      isplitr; · iempintro
      iexact Hr
    exact (Policy.inv_exit (entry0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V4 m (leftBy m) c b) ((pdats m 0 c).arrAt · cfg0.N) (arrays_left0 m c) (others_kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment of the library stated over the pinned configuration unifies with the printed one only when unification may
-- unfold plain definitions in a metavariable's type
set_option backward.isDefEq.respectTransparency.types false in
/-- The frozen reference model's call as a segment of @main: entered with every unscoped buffer at `between m`, left with
    them at `V8 m (leftBy m)` (the same but for the call's result array, which holds what its write-backs left). Its arrays are
    split out of the unscoped buffers at entry and put back at exit; the generator register goes into the carried
    invariant and comes back; nothing is owed; the kernel has no semaphore of its own. -/
def call1 : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (Frozen.body_obligation (entry1 m) c).loose
  hwaits := Pipeline.hwaits_of_owed_zero _ _ _ _ noPairs noLevel 1 fun _ _ => rfl
  pre c := iprop(StableHlo.held (c : Thread nD τ) (Pipeline.ucRefs τ sig) (between m c) ∗ riding (F := F) c)
  post c := iprop(StableHlo.held (c : Thread nD τ) (Pipeline.ucRefs τ sig) (V8 m (leftBy m) c) ∗ riding (F := F) c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
          ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h.trans (Frozen.inv_entry (entry1 m) c)
  hout c := by
    have h : (Pipeline.ΦA spec1 c : sProp 𝕄)
        ⊢ iprop((∃ r, prngReg c r) ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec1 c) := by
      rw [Pipeline.ownSems0_none]; unfold Pipeline.ΦA
      iintro ⟨Hr, Hp⟩
      isplitl [Hp]; · iexact Hp
      isplitr; · iempintro
      iexact Hr
    exact (Frozen.inv_exit (entry1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V8 m (leftBy m) c b) ((pdats m 1 c).arrAt · cfg1.N) (arrays_left1 m c) (others_kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the host stretch before the second call leaves is the one the call is entered from. -/
theorem enter_second (c : Dev nD) :
    (iprop(StableHlo.held (c : Thread nD τ) (Pipeline.ucRefs τ sig) (V7 m (leftBy m) c) ∗ riding (F := F) c) : sProp 𝕄) ⊢ (call1 m).pre c := by
  show _ ⊢ (iprop(StableHlo.held (c : Thread nD τ) (Pipeline.ucRefs τ sig) (between m c) ∗ riding (F := F) c) : sProp 𝕄)
  rw [V7_eq]

/-! ## The program's run -/

-- the launch theorem's implicit arguments are found by unifying its conclusion with this one, which takes unfolding plain
-- definitions in a metavariable's type
set_option backward.isDefEq.respectTransparency.types false in
/-- From any memory with zero counters every weakly fair execution of @main terminates, nothing faulting; every argument
    array ends as launched and the result buffer holds the generated valuation after the last item, read there: the
    host operations after the second call applied to what the two calls left. (The segments of the host stretches and
    their chaining are the generated host side's; the two records are the calls' above.) -/
theorem run_value (ρ : Dev nD → PrngReg) :
    θ_run defs (onTc (τ := τ) (main (F := F))) ⟨m, fun _ => 0, ρ⟩ (fun r => ∀ c : Dev nD,
      r.2.mem ((c.tc : Thread nD τ).loc main_v47) = V11 m (leftBy m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none noPairs noLevel m ρ main
    (segs m (leftBy m) Variants.none noPairs noLevel (fun _ c => riding (F := F) c) () (pdats m) (call0 m) (call1 m))
    (fun c Q => by
      rewrite [main_chain c, Seg.run_eq_chain,
        show (segs m (leftBy m) Variants.none noPairs noLevel (fun _ c => riding (F := F) c) () (pdats m) (call0 m) (call1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding (F := F) c))
    (Tₙ := fun c => StableHlo.held (c : Thread nD τ) (Pipeline.ucRefs τ sig) (V11 m (leftBy m) c))
    (hch := fun c => ⟨.rfl, .rfl, .rfl, .rfl, .rfl, .rfl, .rfl, enter_second m c, .rfl, .rfl, .rfl,
      sep_mono .rfl (by iintro ⟨-, H⟩; iexact H)⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v47) = V11 m (leftBy m) c main_v47
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  -- the end: the result and each argument read off the last valuation
  unfold StableHlo.held
  iintro ⟨Hh, HSI⟩
  ihave Hr := (pointsTo_read_all (Pipeline.ucRefs τ sig) (fun b => ((c : Thread nD τ).1, b)) (V11 m (leftBy m) c) s') $$ [Hh HSI]
  · isplitl [Hh] <;> iassumption
  icases Hr with ⟨%h, HSI⟩
  imodintro
  isplitr
  · ipureintro
    exact ⟨h (Proc.devRef .tc main_v47) (Finset.mem_filter.mpr ⟨StableHlo.devRef_mem_tcRefs main_v47, by decide⟩),
      (h (Proc.devRef .tc main_arg0) (Finset.mem_filter.mpr ⟨StableHlo.devRef_mem_tcRefs main_arg0, by decide⟩)).trans (V11_main_arg0 m (leftBy m) c),
      (h (Proc.devRef .tc main_arg1) (Finset.mem_filter.mpr ⟨StableHlo.devRef_mem_tcRefs main_arg1, by decide⟩)).trans (V11_main_arg1 m (leftBy m) c),
      (h (Proc.devRef .tc main_arg2) (Finset.mem_filter.mpr ⟨StableHlo.devRef_mem_tcRefs main_arg2, by decide⟩)).trans (V11_main_arg2 m (leftBy m) c),
      (h (Proc.devRef .tc main_arg3) (Finset.mem_filter.mpr ⟨StableHlo.devRef_mem_tcRefs main_arg3, by decide⟩)).trans (V11_main_arg3 m (leftBy m) c),
      (h (Proc.devRef .tc main_arg4) (Finset.mem_filter.mpr ⟨StableHlo.devRef_mem_tcRefs main_arg4, by decide⟩)).trans (V11_main_arg4 m (leftBy m) c),
      (h (Proc.devRef .tc main_arg5) (Finset.mem_filter.mpr ⟨StableHlo.devRef_mem_tcRefs main_arg5, by decide⟩)).trans (V11_main_arg5 m (leftBy m) c)⟩
  · iexact HSI

/-- The frame claim's post is the run's with the result dropped. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Calls

end
-- ==== Proof.Spec.lean ====
/-
  The mathematics both programs compute per token, over the reals. A row of activations `h` against the rows of a weight
  matrix `W` gives one logit per vocabulary entry; the token's log-probability of the target `y` is its logit minus
  the log of the sum of the exponentials of all logits (log-softmax at the target).
-/
import Idealize.ShloMosaic.PureOps.Ideal
import Idealize.ShloMosaic.Lib.ValueIdx

noncomputable section

namespace Cert.Spec

/-- The logit of vocabulary entry `v`: the inner product of the activation row with row `v` of the weights. -/
def logitR (h : Fin 4096 → ℝ) (W : Fin 32000 → Fin 4096 → ℝ) (v : Fin 32000) : ℝ := ∑ k : Fin 4096, h k * W v k

/-- The log-probability of the target under the softmax of the row's logits. -/
def tokLogpR (h : Fin 4096 → ℝ) (W : Fin 32000 → Fin 4096 → ℝ) (y : Fin 32000) : ℝ :=
  logitR h W y - Real.log (∑ v : Fin 32000, Real.exp (logitR h W v))

/-- Log-sum-exp does not depend on the shift: for any real `s`, `s + log Σ exp (z v - s) = log Σ exp (z v)`. -/
theorem shift_logsumexp {ι : Type} [Fintype ι] [Nonempty ι] (z : ι → ℝ) (s : ℝ) :
    s + Real.log (∑ v, Real.exp (z v - s)) = Real.log (∑ v, Real.exp (z v)) := by
  have hpos : 0 < ∑ v, Real.exp (z v - s) := Finset.sum_pos (fun v _ => Real.exp_pos _) Finset.univ_nonempty
  have h1 : ∑ v, Real.exp (z v) = Real.exp s * ∑ v, Real.exp (z v - s) := by
    rw [Finset.mul_sum]; refine Finset.sum_congr rfl fun v _ => ?_
    rw [← Real.exp_add]; congr 1; ring
  rw [h1, Real.log_mul (Real.exp_pos s).ne' hpos.ne', Real.log_exp]

open Idealize.ShloMosaic Idealize.ShloMosaic.ValueIdx

/-- A signed 32-bit target index clipped into `[0, 31999]`: the larger of 0 and the word, then the smaller of 31999 and
    that (both programs clip the targets this way before they use them). -/
def clipWord (w : BitVec 32) : BitVec 32 := IntOp.minsi 31999#32 (IntOp.maxsi 0#32 w)

/-- A clipped word, read unsigned, is a vocabulary index. -/
theorem clipWord_lt (w : BitVec 32) : (clipWord w).toNat < 32000 := by
  unfold clipWord IntOp.minsi IntOp.maxsi
  have hc := BitVec.toInt_eq_toNat_cond w
  have hlt := w.isLt
  have e0 : (0#32 : BitVec 32).toInt = 0 := by decide
  have e1 : (31999#32 : BitVec 32).toInt = 31999 := by decide
  repeat' split
  all_goals first
    | decide
    | (simp only [BitVec.slt, decide_eq_true_eq, not_lt, e0, e1] at *; split at hc <;> omega)

/-- The token's log-probability from the arrays: batch `b`, position `t`, the activation row of `x`, all rows of `W`,
    the clipped target; the arrays' entries read as reals. -/
def tokAt (x : (⟨3, ![2, 1024, 4096]⟩ : Shape).Idx → EReal) (W : (⟨2, ![32000, 4096]⟩ : Shape).Idx → EReal)
    (y : (⟨2, ![2, 1024]⟩ : Shape).Idx → BitVec 32) (b : Fin 2) (t : Fin 1024) : EReal :=
  ((tokLogpR (fun k => (x (ix3 b t k)).toReal) (fun v k => (W (ix2 v k)).toReal)
      ⟨(clipWord (y (ix2 b t))).toNat, clipWord_lt _⟩ : ℝ) : EReal)

/-- The array of token log-probabilities, `[2, 1024]`. -/
def tokArr (x : (⟨3, ![2, 1024, 4096]⟩ : Shape).Idx → EReal) (W : (⟨2, ![32000, 4096]⟩ : Shape).Idx → EReal)
    (y : (⟨2, ![2, 1024]⟩ : Shape).Idx → BitVec 32) : (⟨2, ![2, 1024]⟩ : Shape).Idx → EReal :=
  fun i => tokAt x W y (i 0) (i 1)

theorem tokArr_apply (x : (⟨3, ![2, 1024, 4096]⟩ : Shape).Idx → EReal) (W : (⟨2, ![32000, 4096]⟩ : Shape).Idx → EReal)
    (y : (⟨2, ![2, 1024]⟩ : Shape).Idx → BitVec 32) (b : Fin 2) (t : Fin 1024) :
    tokArr x W y (ix2 b t) = tokAt x W y b t := rfl

end Cert.Spec

end
-- ==== Proof.Policy.TileMath.lean ====
/-
  The policy model's kernel along one row tile, read at the extended reals: after all 125 vocabulary tiles the emitted
  column holds, per row, the log-softmax of the row's logits at the row's target.
-/
import proofs.«410554_j45887430590963_2_alg».proof.Proof.Policy.Tiles
import proofs.«410554_j45887430590963_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Policy

open Cert.KernelIdeal Cert.KernelIdeal.Gen Cert.Spec
open Idealize.ShloMosaic Idealize.ShloMosaic.ValueIdx

/-! ## The kernel's vector operations read at an index -/

/- The matrix product's operand indices, coordinate by coordinate: at output (r, j) and contraction coordinate q the
   activations are read at (r, q) and the weight block at (j, q). -/
theorem dot_lhs_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem dot_lhs_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
theorem dot_rhs_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem dot_rhs_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The tile's logits: entry (r, j) is the inner product of row r of the activations with row j of the weight block. -/
theorem pay7_apply (h : Vec Ideal S1024x4096 .bf16) (w : Vec Ideal S256x4096 .f32) (r : Fin 1024) (j : Fin 256) :
    k0_pay7 (F := Ideal) h w (ix2 r j) = ∑ k : Fin 4096, h (ix2 r k) * w (ix2 j k) := by
  unfold k0_pay7
  simp only [matmul]
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r j) ((contrEquiv1 dot_S1024x4096_S256x4096_S1024x256_1_1_0_0_n_n 4096 rfl rfl).symm k) = ix2 r k := funext fun a => Fin.ext (by
    match a with
    | ⟨0, _⟩ => exact dot_lhs_0 _ _
    | ⟨1, _⟩ => exact (dot_lhs_1 _ _).trans hk)
  have er : dot_S1024x4096_S256x4096_S1024x256_1_1_0_0_n_n.rhsIdx (ix2 r j) ((contrEquiv1 dot_S1024x4096_S256x4096_S1024x256_1_1_0_0_n_n 4096 rfl rfl).symm k) = ix2 j k := funext fun a => Fin.ext (by
    match a with
    | ⟨0, _⟩ => exact dot_rhs_0 _ _
    | ⟨1, _⟩ => exact (dot_rhs_1 _ _).trans hk)
  rw [el, er, shapeCast_self]
  rfl

/-- The reduced row index r with lane k put back is (r, k). -/
theorem lift_row (h : S1024x256.Reduces [1] S1024) (r : Fin 1024) (k : Fin (S1024x256.size 1)) :
    h.lift (ix1 r) k = ix2 r (⟨k.val, k.isLt⟩ : Fin 256) := by
  funext c; apply Fin.ext
  fin_cases c <;> rfl

/-- A vector of 1024 row values cast to a column reads, at (r, 0), entry r. -/
theorem shapeCast_col_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu]; omega)

/-- A column broadcast along the 256 lanes reads, at (r, j), the column at (r, 0). -/
theorem broadcastTo_col_apply {α : Type} (v : S1024x1.Idx → α) (h : S1024x1.Broadcasts S1024x256) (r : Fin 1024) (j : Fin 256) :
    broadcastTo S1024x256 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The lane sum of a tile at row r. -/
theorem rowSum_apply (x : FVec Ideal S1024x256 .f32) (r : Fin 1024) :
    multiReduction (F := Ideal) .add [1] S1024 x 0x00000000#32 reduces_S1024x256_S1024 (.inl rfl) rfl (ix1 r)
      = ∑ j : Fin 256, x (ix2 r j) := by
  refine (Ideal.multiReduction_add_single x 0x00000000#32 reduces_S1024x256_S1024 (.inl rfl) rfl (ix1 r)).trans ?_
  exact Finset.sum_congr rfl fun k _ => congrArg x (lift_row _ r k)

/-- The lane maximum of a tile at row r, from minus infinity. -/
theorem rowMax_apply (x : FVec Ideal S1024x256 .f32) (r : Fin 1024) :
    multiReduction (F := Ideal) .maximumf [1] S1024 x 0xFF800000#32 reduces_S1024x256_S1024 (.inl rfl) rfl (ix1 r)
      = (Finset.univ : Finset (Fin 256)).fold max (⊥ : EReal) (fun j => x (ix2 r j)) := by
  refine (Ideal.multiReduction_maximumf_single x 0xFF800000#32 reduces_S1024x256_S1024 (.inl rfl) rfl (ix1 r)).trans ?_
  have hb : (FloatOps.ofBits (F := Ideal) .f32 0xFF800000#32) = (⊥ : EReal) := by simp [Ideal.ofBits, Ideal.ieee]
  have hf : (x ∘ reduces_S1024x256_S1024.lift (ix1 r)) = fun j : Fin 256 => x (ix2 r j) :=
    funext fun k => congrArg x (lift_row _ r k)
  rw [hb, hf]
  rfl

/-- The exponential and the logarithm of a vector, read at an index. -/
theorem vexp_apply {s : Shape} {φ : FTy} (a : FVec Ideal s φ) (i : s.Idx) : exp a i = Ideal.exp (a i) := rfl
theorem vlog_apply {s : Shape} {φ : FTy} (a : FVec Ideal s φ) (i : s.Idx) : log a i = Ideal.log (a i) := rfl

/-- A select on an equality test of two words is the if on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    rw [if_neg h]; simp [hb]

/-- The new running maximum at row r: the old one against the tile's row maximum. -/
theorem pay9_apply (h : Vec Ideal S1024x4096 .bf16) (w : Vec Ideal S256x4096 .f32) (m : Vec Ideal S1024x1 .f32) (r : Fin 1024) :
    k0_pay9 (F := Ideal) h w m (ix2 r (0 : Fin 1))
      = max (m (ix2 r (0 : Fin 1)))
          ((Finset.univ : Finset (Fin 256)).fold max (⊥ : EReal) (fun j => k0_pay7 (F := Ideal) h w (ix2 r j))) := by
  unfold k0_pay9
  rw [maximumf_apply, shapeCast_col_apply, rowMax_apply]

/-- The rescaling factor at row r. -/
theorem pay10_apply (h : Vec Ideal S1024x4096 .bf16) (w : Vec Ideal S256x4096 .f32) (m m' : Vec Ideal S1024x1 .f32) (r : Fin 1024) :
    k0_pay10 (F := Ideal) h w m m' (ix2 r (0 : Fin 1))
      = Ideal.exp (m' (ix2 r (0 : Fin 1)) - k0_pay9 (F := Ideal) h w m (ix2 r (0 : Fin 1))) := by
  unfold k0_pay10
  rfl

/-- The tile's shifted exponentials at (r, j). -/
theorem pay11_apply (h : Vec Ideal S1024x4096 .bf16) (w : Vec Ideal S256x4096 .f32) (m : Vec Ideal S1024x1 .f32) (r : Fin 1024) (j : Fin 256) :
    k0_pay11 (F := Ideal) h w m (ix2 r j)
      = Ideal.exp (k0_pay7 (F := Ideal) h w (ix2 r j) - k0_pay9 (F := Ideal) h w m (ix2 r (0 : Fin 1))) := by
  unfold k0_pay11
  rw [vexp_apply, subf_apply, broadcastTo_col_apply]

/-- The new running sum at row r. -/
theorem pay1_apply (a : FVec Ideal S1024x1 .f32) (E : FVec Ideal S1024x256 .f32) (s : Vec Ideal S1024x1 .f32) (r : Fin 1024) :
    k0_pay1 (F := Ideal) a E s (ix2 r (0 : Fin 1))
      = a (ix2 r (0 : Fin 1)) * s (ix2 r (0 : Fin 1)) + ∑ j : Fin 256, E (ix2 r j) := by
  unfold k0_pay1
  rw [shapeCast_self, addf_apply, mulf_apply, shapeCast_col_apply, rowSum_apply]

/-- The stored maximum is the maximum. -/
theorem pay2_eq (v : FVec Ideal S1024x1 .f32) : k0_pay2 (F := Ideal) v = v := by
  unfold k0_pay2
  exact shapeCast_self _ _

/-- What is emitted at row r. -/
theorem pay3_apply (t m s : Vec Ideal S1024x1 .f32) (r : Fin 1024) :
    k0_pay3 (F := Ideal) t m s (ix2 r (0 : Fin 1))
      = t (ix2 r (0 : Fin 1)) - (m (ix2 r (0 : Fin 1)) + Ideal.log (s (ix2 r (0 : Fin 1)))) := by
  unfold k0_pay3
  rfl

/-- The reset values at row r. -/
theorem pay4_apply (r : Fin 1024) : k0_pay4 (F := Ideal) (ix2 r (0 : Fin 1)) = Ideal.ofBits .f32 0xFF333332#32 := by
  unfold k0_pay4
  rw [shapeCast_self]
  rfl
theorem pay5_apply (r : Fin 1024) : k0_pay5 (F := Ideal) (ix2 r (0 : Fin 1)) = 0 := by
  unfold k0_pay5
  rw [shapeCast_self]
  exact Ideal.ofBits_zero_f32
theorem pay6_apply (r : Fin 1024) : k0_pay6 (F := Ideal) (ix2 r (0 : Fin 1)) = 0 := by
  unfold k0_pay6
  rw [shapeCast_self]
  exact Ideal.ofBits_zero_f32

/-- The new target logit at row r: the old one plus the tile's logit where the column's word is the target's. -/
theorem pay8_apply (i : grid0.Coords) (h : Vec Ideal S1024x4096 .bf16) (w : Vec Ideal S256x4096 .f32) (y : Vec Ideal S1024x1 .i32)
    (t : Vec Ideal S1024x1 .f32) (r : Fin 1024) :
    k0_pay8 (F := Ideal) i h w y t (ix2 r (0 : Fin 1))
      = t (ix2 r (0 : Fin 1)) + ∑ j : Fin 256,
          (if BitVec.ofNat 32 j.val + BitVec.ofNat 32 (i 1).val * 256#32 = y (ix2 r (0 : Fin 1))
            then k0_pay7 (F := Ideal) h w (ix2 r j) else 0) := by
  unfold k0_pay8
  rw [shapeCast_self, addf_apply, shapeCast_col_apply, rowSum_apply]
  congr 1
  refine Finset.sum_congr rfl fun j _ => ?_
  rw [select_apply]
  show Scalar.select (IntOp.cmpi .eq (IntOp.addi (iota .tc S1024x256 32 [1] iota_S1024x256_d1_w32 (ix2 r j)) _) (broadcastTo S1024x256 _ _ (ix2 r j))) _ _ = _
  rw [iota_single_apply, broadcastTo_col_apply, shapeCast_self, select_cmpi_eq]
  exact if_congr Iff.rfl rfl Ideal.ofBits_zero_f32

/-! ## The mathematics over the reals -/

/-- A real sum coerced to the extended reals is the sum of the coerced terms. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A function on the vocabulary read at a natural number: zero off the vocabulary. -/
def vext (f : Fin 32000 → ℝ) (n : ℕ) : ℝ := if h : n < 32000 then f ⟨n, h⟩ else 0

/-- The sum over the first k + 1 tiles is the sum over the first k plus the sum over tile k. -/
theorem sum_vext_step (f : Fin 32000 → ℝ) (k : ℕ) (hk : k < 125) :
    ∑ n ∈ Finset.range (256 * (k + 1)), vext f n
      = ∑ n ∈ Finset.range (256 * k), vext f n + ∑ j : Fin 256, f ⟨256 * k + j.val, by omega⟩ := by
  rw [show 256 * (k + 1) = 256 * k + 256 by ring, Finset.sum_range_add]
  congr 1
  rw [Finset.sum_range]
  refine Finset.sum_congr rfl fun j _ => ?_
  unfold vext
  rw [dif_pos]

/-- The 125 tiles cover the vocabulary. -/
theorem sum_vext_all (f : Fin 32000 → ℝ) : ∑ n ∈ Finset.range (256 * 125), vext f n = ∑ v : Fin 32000, f v := by
  rw [show 256 * 125 = 32000 by norm_num, Finset.sum_range]
  refine Finset.sum_congr rfl fun v _ => ?_
  unfold vext
  rw [dif_pos v.isLt]

/-- Moving the shift from M to M' multiplies every shifted exponential by exp (M - M'). -/
theorem rescale (z : Fin 32000 → ℝ) (M M' : ℝ) (n : ℕ) :
    Real.exp (M - M') * vext (fun v => Real.exp (z v - M)) n = vext (fun v => Real.exp (z v - M')) n := by
  unfold vext
  split
  · rw [← Real.exp_add]; congr 1; ring
  · rw [mul_zero]

/-- A real number against the maximum, from minus infinity, of finitely many real numbers is a real number. -/
theorem max_fold_real (M : ℝ) (s : Finset (Fin 256)) (f : Fin 256 → ℝ) :
    ∃ R : ℝ, max (M : EReal) (s.fold max (⊥ : EReal) (fun j => (f j : EReal))) = (R : EReal) := by
  classical
  induction s using Finset.induction_on with
  | empty => exact ⟨M, by simp⟩
  | insert a s ha ih =>
    obtain ⟨R, hR⟩ := ih
    refine ⟨max (f a) R, ?_⟩
    rw [Finset.fold_insert ha, max_left_comm, hR]
    exact (EReal.coe_strictMono.monotone.map_max).symm

/-- What the three carried columns hold at one row after the first k tiles, for the row's logits z and target Y: for some
    real shift M, the shift itself, the sum of exp (z v - M) over the columns seen, and the logit at Y if seen, else 0. -/
def RowInv (z : Fin 32000 → ℝ) (Y k : ℕ) (m s t : EReal) : Prop :=
  ∃ M : ℝ, m = (M : EReal)
    ∧ s = ((∑ n ∈ Finset.range (256 * k), vext (fun v => Real.exp (z v - M)) n : ℝ) : EReal)
    ∧ t = ((∑ n ∈ Finset.range (256 * k), vext (fun v => if v.val = Y then z v else 0) n : ℝ) : EReal)

/-- One tile: with the tile's logits L and the tile's target test c, the new columns satisfy the invariant at k + 1. -/
theorem rowInv_step (z : Fin 32000 → ℝ) (Y k : ℕ) (hk : k < 125) (m s t : EReal) (hinv : RowInv z Y k m s t)
    (L : Fin 256 → EReal) (hL : ∀ j : Fin 256, L j = ((z ⟨256 * k + j.val, by omega⟩ : ℝ) : EReal))
    (c : Fin 256 → Prop) [DecidablePred c] (hc : ∀ j : Fin 256, c j ↔ 256 * k + j.val = Y) :
    RowInv z Y (k + 1) (max m ((Finset.univ : Finset (Fin 256)).fold max ⊥ L))
      (Ideal.exp (m - max m ((Finset.univ : Finset (Fin 256)).fold max ⊥ L)) * s
        + ∑ j : Fin 256, Ideal.exp (L j - max m ((Finset.univ : Finset (Fin 256)).fold max ⊥ L)))
      (t + ∑ j : Fin 256, if c j then L j else 0) := by
  obtain ⟨M, rfl, rfl, rfl⟩ := hinv
  obtain rfl : L = fun j : Fin 256 => ((z ⟨256 * k + j.val, by omega⟩ : ℝ) : EReal) := funext hL
  obtain ⟨M', hM'⟩ := max_fold_real M Finset.univ (fun j : Fin 256 => z ⟨256 * k + j.val, by omega⟩)
  rw [hM']
  refine ⟨M', rfl, ?_, ?_⟩
  · have e1 : Ideal.exp ((M : EReal) - (M' : EReal)) = ((Real.exp (M - M') : ℝ) : EReal) := by
      rw [← EReal.coe_sub, Ideal.exp_coe]
    have e2 : (∑ j : Fin 256, Ideal.exp ((fun j : Fin 256 => ((z ⟨256 * k + j.val, by omega⟩ : ℝ) : EReal)) j - (M' : EReal)))
        = ((∑ j : Fin 256, Real.exp (z ⟨256 * k + j.val, by omega⟩ - M') : ℝ) : EReal) := by
      rw [coe_finset_sum]
      refine Finset.sum_congr rfl fun j _ => ?_
      dsimp only
      rw [← EReal.coe_sub, Ideal.exp_coe]
    rw [e1, e2, ← EReal.coe_mul, ← EReal.coe_add]
    refine congrArg Real.toEReal ?_
    refine Eq.trans ?_ (sum_vext_step (fun v => Real.exp (z v - M')) k hk).symm
    refine congrArg₂ (· + ·) ?_ rfl
    rw [Finset.mul_sum]
    exact Finset.sum_congr rfl fun n _ => rescale z M M' n
  · have e3 : (∑ j : Fin 256, if c j then (fun j : Fin 256 => ((z ⟨256 * k + j.val, by omega⟩ : ℝ) : EReal)) j else 0)
        = ((∑ j : Fin 256, if 256 * k + j.val = Y then z ⟨256 * k + j.val, by omega⟩ else 0 : ℝ) : EReal) := by
      rw [coe_finset_sum]
      refine Finset.sum_congr rfl fun j _ => ?_
      dsimp only
      by_cases hj : c j
      · rw [if_pos hj, if_pos ((hc j).mp hj)]
      · rw [if_neg hj, if_neg (fun e => hj ((hc j).mpr e)), EReal.coe_zero]
    rw [e3, ← EReal.coe_add]
    refine congrArg Real.toEReal ?_
    exact (sum_vext_step (fun v => if v.val = Y then z v else 0) k hk).symm

/-- After all 125 tiles: target logit - (shift + log sum) is the log-probability, whatever the shift. -/
theorem rowInv_final (z : Fin 32000 → ℝ) (Y : ℕ) (hY : Y < 32000) (m s t : EReal) (hinv : RowInv z Y 125 m s t) :
    t - (m + Ideal.log s) = ((z ⟨Y, hY⟩ - Real.log (∑ v : Fin 32000, Real.exp (z v)) : ℝ) : EReal) := by
  obtain ⟨M, rfl, rfl, rfl⟩ := hinv
  haveI : Nonempty (Fin 32000) := ⟨⟨0, by norm_num⟩⟩
  rw [sum_vext_all, sum_vext_all]
  have hpos : 0 < ∑ v : Fin 32000, Real.exp (z v - M) :=
    Finset.sum_pos (fun v _ => Real.exp_pos _) Finset.univ_nonempty
  rw [Ideal.log_coe, if_neg (not_le.mpr hpos), ← EReal.coe_add, ← EReal.coe_sub]
  refine congrArg Real.toEReal ?_
  have hy : (∑ v : Fin 32000, if v.val = Y then z v else 0) = z ⟨Y, hY⟩ := by
    rw [Finset.sum_eq_single (⟨Y, hY⟩ : Fin 32000)]
    · rw [if_pos rfl]
    · intro b _ hb; rw [if_neg (fun e => hb (Fin.ext e))]
    · intro hn; exact absurd (Finset.mem_univ _) hn
  rw [hy, ← shift_logsumexp z M]

/-- The word of column j of tile k is the target's word exactly when 256 k + j is the target's index. -/
theorem word_col (k j : ℕ) (hk : k < 125) (hj : j < 256) (yw : BitVec 32) :
    BitVec.ofNat 32 j + BitVec.ofNat 32 k * 256#32 = yw ↔ 256 * k + j = yw.toNat := by
  constructor
  · intro e
    rw [← e]
    simp only [BitVec.toNat_add, BitVec.toNat_mul, BitVec.toNat_ofNat]
    omega
  · intro e
    apply BitVec.eq_of_toNat_eq
    simp only [BitVec.toNat_add, BitVec.toNat_mul, BitVec.toNat_ofNat]
    omega

/-! ## The invariant along the tiles -/

/-- The word the running maximum is reset to denotes a real number. -/
theorem reset_real : ∃ N : ℝ, Ideal.ofBits .f32 0xFF333332#32 = (N : EReal) := by
  refine ⟨-(11744050 * 2 ^ 104), ?_⟩
  simp [Ideal.ofBits, Ideal.ieee]

/-- Before any tile the reset columns satisfy the invariant: a real shift, two empty sums. -/
theorem rowInv_reset (z : Fin 32000 → ℝ) (Y : ℕ) (r : Fin 1024) :
    RowInv z Y 0 ((carryReset (F := Ideal)).1 (ix2 r (0 : Fin 1))) ((carryReset (F := Ideal)).2.1 (ix2 r (0 : Fin 1)))
      ((carryReset (F := Ideal)).2.2 (ix2 r (0 : Fin 1))) := by
  obtain ⟨N, hN⟩ := reset_real
  refine ⟨N, ?_, ?_, ?_⟩
  · show k0_pay4 (F := Ideal) (ix2 r (0 : Fin 1)) = _
    rw [pay4_apply, hN]
  · show k0_pay5 (F := Ideal) (ix2 r (0 : Fin 1)) = _
    rw [pay5_apply]; simp
  · show k0_pay6 (F := Ideal) (ix2 r (0 : Fin 1)) = _
    rw [pay6_apply]; simp

/-- One tile of the kernel keeps the invariant at row r. -/
theorem rowInv_carryStep (coords : Fin 125 → grid0.Coords) (hcoords : ∀ k : Fin 125, ((coords k) 1).val = k.val)
    (h : Vec Ideal S1024x4096 .bf16) (wB : Fin 125 → Vec Ideal S256x4096 .f32) (y : Vec Ideal S1024x1 .i32)
    (hR : Fin 1024 → Fin 4096 → ℝ) (WR : Fin 32000 → Fin 4096 → ℝ)
    (hh : ∀ (r : Fin 1024) (k : Fin 4096), h (ix2 r k) = ((hR r k : ℝ) : EReal))
    (hw : ∀ (t : Fin 125) (j : Fin 256) (k : Fin 4096), wB t (ix2 j k) = ((WR ⟨256 * t.val + j.val, by omega⟩ k : ℝ) : EReal))
    (r : Fin 1024) (k : Fin 125) (s : Carry Ideal)
    (hinv : RowInv (logitR (hR r) WR) (y (ix2 r (0 : Fin 1))).toNat k.val (s.1 (ix2 r (0 : Fin 1))) (s.2.1 (ix2 r (0 : Fin 1)))
      (s.2.2 (ix2 r (0 : Fin 1)))) :
    RowInv (logitR (hR r) WR) (y (ix2 r (0 : Fin 1))).toNat (k.val + 1)
      ((carryStep (coords k) h (wB k) y s).1 (ix2 r (0 : Fin 1)))
      ((carryStep (coords k) h (wB k) y s).2.1 (ix2 r (0 : Fin 1)))
      ((carryStep (coords k) h (wB k) y s).2.2 (ix2 r (0 : Fin 1))) := by
  have hL : ∀ j : Fin 256, k0_pay7 (F := Ideal) h (wB k) (ix2 r j)
      = ((logitR (hR r) WR ⟨256 * k.val + j.val, by omega⟩ : ℝ) : EReal) := by
    intro j
    rw [pay7_apply]
    unfold logitR
    rw [coe_finset_sum]
    refine Finset.sum_congr rfl fun q _ => ?_
    rw [hh, hw, EReal.coe_mul]
  have hc : ∀ j : Fin 256, (BitVec.ofNat 32 j.val + BitVec.ofNat 32 ((coords k) 1).val * 256#32 = y (ix2 r (0 : Fin 1)))
      ↔ 256 * k.val + j.val = (y (ix2 r (0 : Fin 1))).toNat := by
    intro j
    rw [hcoords k]
    exact word_col k.val j.val k.isLt j.isLt _
  have h1 : (carryStep (coords k) h (wB k) y s).1 (ix2 r (0 : Fin 1))
      = max (s.1 (ix2 r (0 : Fin 1)))
          ((Finset.univ : Finset (Fin 256)).fold max (⊥ : EReal) (fun j => k0_pay7 (F := Ideal) h (wB k) (ix2 r j))) := by
    show k0_pay2 (F := Ideal) (k0_pay9 h (wB k) s.1) (ix2 r (0 : Fin 1)) = _
    rw [pay2_eq, pay9_apply]
  have h2 : (carryStep (coords k) h (wB k) y s).2.1 (ix2 r (0 : Fin 1))
      = Ideal.exp (s.1 (ix2 r (0 : Fin 1)) - max (s.1 (ix2 r (0 : Fin 1)))
            ((Finset.univ : Finset (Fin 256)).fold max (⊥ : EReal) (fun j => k0_pay7 (F := Ideal) h (wB k) (ix2 r j))))
          * s.2.1 (ix2 r (0 : Fin 1))
        + ∑ j : Fin 256, Ideal.exp (k0_pay7 (F := Ideal) h (wB k) (ix2 r j) - max (s.1 (ix2 r (0 : Fin 1)))
            ((Finset.univ : Finset (Fin 256)).fold max (⊥ : EReal) (fun j => k0_pay7 (F := Ideal) h (wB k) (ix2 r j)))) := by
    show k0_pay1 (F := Ideal) (k0_pay10 h (wB k) s.1 s.1) (k0_pay11 h (wB k) s.1) s.2.1 (ix2 r (0 : Fin 1)) = _
    rw [pay1_apply, pay10_apply, pay9_apply]
    refine congrArg₂ (· + ·) rfl ?_
    refine Finset.sum_congr rfl fun j _ => ?_
    rw [pay11_apply, pay9_apply]
  have h3 : (carryStep (coords k) h (wB k) y s).2.2 (ix2 r (0 : Fin 1))
      = s.2.2 (ix2 r (0 : Fin 1)) + ∑ j : Fin 256,
          (if BitVec.ofNat 32 j.val + BitVec.ofNat 32 ((coords k) 1).val * 256#32 = y (ix2 r (0 : Fin 1))
            then k0_pay7 (F := Ideal) h (wB k) (ix2 r j) else 0) :=
    pay8_apply (coords k) h (wB k) y s.2.2 r
  rw [h1, h2, h3]
  exact rowInv_step (logitR (hR r) WR) (y (ix2 r (0 : Fin 1))).toNat k.val k.isLt _ _ _ hinv
    (fun j => k0_pay7 (F := Ideal) h (wB k) (ix2 r j)) hL
    (fun j => BitVec.ofNat 32 j.val + BitVec.ofNat 32 ((coords k) 1).val * 256#32 = y (ix2 r (0 : Fin 1))) hc

/-- After tiles 0 … n the carried columns satisfy the invariant at n + 1, at every row. -/
theorem rowInv_carryFold (coords : Fin 125 → grid0.Coords) (hcoords : ∀ k : Fin 125, ((coords k) 1).val = k.val)
    (h : Vec Ideal S1024x4096 .bf16) (wB : Fin 125 → Vec Ideal S256x4096 .f32) (y : Vec Ideal S1024x1 .i32)
    (hR : Fin 1024 → Fin 4096 → ℝ) (WR : Fin 32000 → Fin 4096 → ℝ)
    (hh : ∀ (r : Fin 1024) (k : Fin 4096), h (ix2 r k) = ((hR r k : ℝ) : EReal))
    (hw : ∀ (t : Fin 125) (j : Fin 256) (k : Fin 4096), wB t (ix2 j k) = ((WR ⟨256 * t.val + j.val, by omega⟩ k : ℝ) : EReal))
    (r : Fin 1024) : ∀ (n : ℕ) (hn : n < 125),
    RowInv (logitR (hR r) WR) (y (ix2 r (0 : Fin 1))).toNat (n + 1)
      ((carryFold (F := Ideal) coords h wB y n hn).1 (ix2 r (0 : Fin 1)))
      ((carryFold (F := Ideal) coords h wB y n hn).2.1 (ix2 r (0 : Fin 1)))
      ((carryFold (F := Ideal) coords h wB y n hn).2.2 (ix2 r (0 : Fin 1))) := by
  intro n
  induction n with
  | zero =>
    intro hn
    exact rowInv_carryStep coords hcoords h wB y hR WR hh hw r ⟨0, hn⟩ carryReset (rowInv_reset _ _ r)
  | succ n ih =>
    intro hn
    exact rowInv_carryStep coords hcoords h wB y hR WR hh hw r ⟨n + 1, hn⟩ _ (ih (Nat.lt_of_succ_lt hn))

/-- After the 125 vocabulary tiles of a row tile, row `r` of the emitted column is the log-probability of the row's
    target: the activations `h` and the weight blocks `wB` hold real numbers (`hR`, `WR`: block `t` of the weights is rows
    `256 t … 256 t + 255`), tile `k`'s grid point has vocabulary coordinate `k`, and each target index is below 32000. -/
theorem emitted_carryFold (coords : Fin 125 → grid0.Coords) (hcoords : ∀ k : Fin 125, ((coords k) 1).val = k.val)
    (h : Vec Ideal S1024x4096 .bf16) (wB : Fin 125 → Vec Ideal S256x4096 .f32) (y : Vec Ideal S1024x1 .i32)
    (hR : Fin 1024 → Fin 4096 → ℝ) (WR : Fin 32000 → Fin 4096 → ℝ)
    (hh : ∀ (r : Fin 1024) (k : Fin 4096), h (ix2 r k) = ((hR r k : ℝ) : EReal))
    (hw : ∀ (t : Fin 125) (j : Fin 256) (k : Fin 4096), wB t (ix2 j k) = ((WR ⟨256 * t.val + j.val, by omega⟩ k : ℝ) : EReal))
    (hy : ∀ r : Fin 1024, (y (ix2 r (0 : Fin 1))).toNat < 32000) (r : Fin 1024) :
    emitted (F := Ideal) (carryFold coords h wB y 124 (by decide)) (ix2 r (0 : Fin 1))
      = ((tokLogpR (hR r) WR ⟨(y (ix2 r (0 : Fin 1))).toNat, hy r⟩ : ℝ) : EReal) := by
  have hinv := rowInv_carryFold coords hcoords h wB y hR WR hh hw r 124 (by decide)
  have hfin := rowInv_final (logitR (hR r) WR) (y (ix2 r (0 : Fin 1))).toNat (hy r) _ _ _ hinv
  show k0_pay3 (F := Ideal) _ _ _ (ix2 r (0 : Fin 1)) = _
  rw [pay3_apply]
  exact hfin

end Cert.KernelIdeal.Policy

end
-- ==== Proof.Policy.Result.lean ====
/-
  What the policy model's call leaves in its output array. The grid is 2 row tiles by 125 vocabulary tiles, point
  t = 125 p + k: the activations' and the targets' blocks at t are rows 1024 p … of their arrays (they do not move along
  a row tile), the weights' block is rows 256 k … of the weight matrix; along a row tile the carried columns are the
  fold of the step over the 125 vocabulary tiles; block p of the output, rows 1024 p …, is written back once, after
  vocabulary tile 124, with what the fold's columns emit. Read at the extended reals, row r of the output is the
  log-probability of row r's target.
-/
import proofs.«410554_j45887430590963_2_alg».proof.Proof.Policy.Carried
import proofs.«410554_j45887430590963_2_alg».proof.Proof.Policy.Tiles
import proofs.«410554_j45887430590963_2_alg».proof.Proof.Policy.TileMath
import Idealize.ShloMosaic.Lib.Pipeline.Value
import Idealize.ShloMosaic.Lib.ValueIdx

set_option maxRecDepth 16384

noncomputable section

namespace Cert.KernelIdeal.Policy

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The grid and the windows' index maps in closed form -/

/-- Point `t` is vocabulary tile `t % 125` of row tile `t / 125`. -/
theorem coords_closed : ∀ t : Fin cfg0.N, ((grid0.coords t) 1).val = t.val % 125 ∧ ((grid0.coords t) 0).val = t.val / 125 :=
  (by decide +kernel : ∀ t : Fin grid0.N, ((grid0.coords t) 1).val = t.val % 125 ∧ ((grid0.coords t) 0).val = t.val / 125)

/-- The activations', the targets' and the output's blocks move with the row tile, the weights' with the vocabulary tile;
    no window moves along its second axis. -/
theorem index_closed : ∀ t : Fin cfg0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val / 125 ∧ win0_3.index t (1 : Fin 2) = 0 :=
  (by decide +kernel : ∀ t : Fin grid0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val / 125 ∧ win0_3.index t (1 : Fin 2) = 0)

theorem point_lt (t : Fin cfg0.N) : t.val < 250 := lt_of_lt_of_eq t.isLt (show cfg0.N = 250 from N_0)
theorem row_lt (t : Fin cfg0.N) (r : Fin 1024) : 1024 * (t.val / 125) + r.val < 2048 := by
  have := point_lt t; have := r.isLt; omega
theorem voc_lt (t : Fin cfg0.N) (j : Fin 256) : 256 * (t.val % 125) + j.val < 32000 := by
  have := j.isLt; omega
theorem tile_lt (p : Fin 2) (k : Fin 125) : 125 * p.val + k.val < cfg0.N := by
  rw [show cfg0.N = 250 from N_0]; have := p.isLt; have := k.isLt; omega
theorem tile0_lt (p : Fin 2) : 125 * p.val < cfg0.N := by
  rw [show cfg0.N = 250 from N_0]; have := p.isLt; omega

variable {F : FTy → Type} [FloatOps F]

section Blocks

variable (V : (c : Dev nD) → (b : Ref sig .tc) → Buf (Elt F) ((c : Thread nD τ).loc b))

/-! ## The blocks read, entry by entry -/

/-- Row `r` of the activations' block at point `t` is row `1024 (t / 125) + r` of the activations. -/
theorem hBlock_apply (c : Dev nD) (t : Fin cfg0.N) (r : Fin 1024) (k : Fin 4096) :
    hBlock V c t (ix2 r k) = (V c main_v1 : S2048x4096.Idx → Elt F .bf16) (ix2 ⟨1024 * (t.val / 125) + r.val, row_lt t r⟩ k) := by
  obtain ⟨e0, e1, -⟩ := index_closed t
  unfold hBlock blockAt
  rw [View.read_apply]
  show (V c main_v1 : S2048x4096.Idx → Elt F .bf16) (((cfg0.win 0).blk t).view.emb (ix2 r k)) = _
  congr 1
  funext a
  apply Fin.ext
  match a with
  | ⟨0, _⟩ => show win0_0.index t (0 : Fin 2) * 1024 + 1 * r.val = 1024 * (t.val / 125) + r.val; omega
  | ⟨1, _⟩ => show win0_0.index t (1 : Fin 2) * 4096 + 1 * k.val = k.val; omega

/-- Row `j` of the weights' block at point `t` is row `256 (t % 125) + j` of the weight matrix. -/
theorem wBlock_apply (c : Dev nD) (t : Fin cfg0.N) (j : Fin 256) (k : Fin 4096) :
    wBlock V c t (ix2 j k) = (V c main_arg4 : S32000x4096.Idx → Elt F .f32) (ix2 ⟨256 * (t.val % 125) + j.val, voc_lt t j⟩ k) := by
  obtain ⟨-, -, e0, e1, -⟩ := index_closed t
  unfold wBlock blockAt
  rw [View.read_apply]
  show (V c main_arg4 : S32000x4096.Idx → Elt F .f32) (((cfg0.win 1).blk t).view.emb (ix2 j k)) = _
  congr 1
  funext a
  apply Fin.ext
  match a with
  | ⟨0, _⟩ => show win0_1.index t (0 : Fin 2) * 256 + 1 * j.val = 256 * (t.val % 125) + j.val; omega
  | ⟨1, _⟩ => show win0_1.index t (1 : Fin 2) * 4096 + 1 * k.val = k.val; omega

/-- Row `r` of the targets' block at point `t` is row `1024 (t / 125) + r` of the targets. -/
theorem yBlock_apply (c : Dev nD) (t : Fin cfg0.N) (r : Fin 1024) :
    yBlock V c t (ix2 r (0 : Fin 1)) = (V c main_v3 : S2048x1.Idx → Elt F .i32) (ix2 ⟨1024 * (t.val / 125) + r.val, row_lt t r⟩ (0 : Fin 1)) := by
  obtain ⟨-, -, -, -, e0, e1, -⟩ := index_closed t
  unfold yBlock blockAt
  rw [View.read_apply]
  show (V c main_v3 : S2048x1.Idx → Elt F .i32) (((cfg0.win 2).blk t).view.emb (ix2 r (0 : Fin 1))) = _
  congr 1
  funext a
  apply Fin.ext
  match a with
  | ⟨0, _⟩ => show win0_2.index t (0 : Fin 2) * 1024 + 1 * r.val = 1024 * (t.val / 125) + r.val; omega
  | ⟨1, _⟩ => show win0_2.index t (1 : Fin 2) * 1 + 1 * 0 = 0; omega

/-- The activations' block does not move along a row tile, -/
theorem hBlock_rowTile (c : Dev nD) (t t' : Fin cfg0.N) (h : t.val / 125 = t'.val / 125) : hBlock V c t = hBlock V c t' := by
  funext j
  obtain ⟨r, k, rfl⟩ : ∃ (r : Fin 1024) (k : Fin 4096), j = ix2 r k := ⟨j 0, j 1, eq_ix2 j⟩
  rw [hBlock_apply, hBlock_apply]
  congr 2
  exact Fin.ext (by show 1024 * (t.val / 125) + r.val = 1024 * (t'.val / 125) + r.val; rw [h])

/-- nor the targets'. -/
theorem yBlock_rowTile (c : Dev nD) (t t' : Fin cfg0.N) (h : t.val / 125 = t'.val / 125) : yBlock V c t = yBlock V c t' := by
  funext j
  obtain ⟨r, rfl⟩ : ∃ r : Fin 1024, j = ix2 r (0 : Fin 1) :=
    ⟨j 0, Shape.idx_ext₂ rfl (by have : (j 1).val < 1 := (j 1).isLt; show (j 1).val = 0; omega)⟩
  rw [yBlock_apply, yBlock_apply]
  congr 2
  exact Fin.ext (by show 1024 * (t.val / 125) + r.val = 1024 * (t'.val / 125) + r.val; rw [h])

/-! ## Along a row tile the columns are the fold -/

theorem carryAt_congr (c : Dev nD) {n n' : ℕ} (hn : n < cfg0.N) (hn' : n' < cfg0.N) (h : n = n') :
    carryAt V c n hn = carryAt V c n' hn' := by subst h; rfl

/-- After vocabulary tile `n` of row tile `p` the carried columns are the fold of the step over tiles `0 … n`. -/
theorem carryAt_fold_aux (c : Dev nD) (p : Fin 2) : ∀ (n : ℕ) (hn : n < 125),
    carryAt V c (125 * p.val + n) (tile_lt p ⟨n, hn⟩)
      = carryFold (fun k' => grid0.coords ⟨125 * p.val + k'.val, tile_lt p k'⟩) (hBlock V c ⟨125 * p.val, tile0_lt p⟩)
          (fun k' => wBlock V c ⟨125 * p.val + k'.val, tile_lt p k'⟩) (yBlock V c ⟨125 * p.val, tile0_lt p⟩) n hn
  | 0, hn => by
    refine (carryAt_first V c ⟨125 * p.val + 0, tile_lt p ⟨0, hn⟩⟩ (by show (125 * p.val + 0) % 125 = 0; omega)).trans ?_
    rfl
  | n + 1, hn => by
    have hp := p.isLt
    refine (carryAt_next V c ⟨125 * p.val + (n + 1), tile_lt p ⟨n + 1, hn⟩⟩ (by show ¬(125 * p.val + (n + 1)) % 125 = 0; omega)).trans ?_
    rw [hBlock_rowTile V c ⟨125 * p.val + (n + 1), tile_lt p ⟨n + 1, hn⟩⟩ ⟨125 * p.val, tile0_lt p⟩ (by show (125 * p.val + (n + 1)) / 125 = 125 * p.val / 125; omega),
      yBlock_rowTile V c ⟨125 * p.val + (n + 1), tile_lt p ⟨n + 1, hn⟩⟩ ⟨125 * p.val, tile0_lt p⟩ (by show (125 * p.val + (n + 1)) / 125 = 125 * p.val / 125; omega),
      carryAt_congr V c _ (tile_lt p ⟨n, Nat.lt_of_succ_lt hn⟩) (show 125 * p.val + (n + 1) - 1 = 125 * p.val + n from rfl),
      carryAt_fold_aux c p n (Nat.lt_of_succ_lt hn)]
    rfl

/-- After vocabulary tile `k` of row tile `p` the carried columns are the fold of the step over tiles `0 … k`, on the row
    tile's activations and targets and the tiles' weight blocks. -/
theorem carryAt_eq_carryFold (c : Dev nD) (p : Fin 2) (k : Fin 125) :
    carryAt V c (125 * p.val + k.val) (tile_lt p k)
      = carryFold (fun k' => grid0.coords ⟨125 * p.val + k'.val, tile_lt p k'⟩) (hBlock V c ⟨125 * p.val, tile0_lt p⟩)
          (fun k' => wBlock V c ⟨125 * p.val + k'.val, tile_lt p k'⟩) (yBlock V c ⟨125 * p.val, tile0_lt p⟩) k.val k.isLt :=
  carryAt_fold_aux V c p k.val k.isLt

/-! ## The output array after the call -/

theorem lastTile_lt (i : S2048x1.Idx) : 125 * ((i 0).val / 1024) + 124 < cfg0.N := by
  rw [show cfg0.N = 250 from N_0]; have : (i 0).val < 2048 := (i 0).isLt; omega

/-- What the output array holds after the call: row `i` is row `i % 1024` of what the columns emit after the last
    vocabulary tile of row tile `i / 1024`. -/
def outArr (c : Dev nD) : S2048x1.Idx → Elt F .f32 := fun i =>
  emitted (carryAt V c (125 * ((i 0).val / 1024) + 124) (lastTile_lt i)) (ix2 ⟨(i 0).val % 1024, Nat.mod_lt _ (by decide)⟩ (0 : Fin 1))

theorem emitted_carryAt_congr (c : Dev nD) {n n' : ℕ} (hn : n < cfg0.N) (hn' : n' < cfg0.N) (h : n = n') {j j' : S1024x1.Idx} (hj : j = j') :
    emitted (carryAt V c n hn) j = emitted (carryAt V c n' hn') j' := by subst h; subst hj; rfl

/-- The one write-back of a row tile, after its last vocabulary tile, writes the row tile's block of `outArr`. -/
theorem flushed_out (c : Dev nD) (t : Fin cfg0.N) (hf : (cfg0.win 3).flush t = true) :
    (policyDat V c).flushed 3 t = ((cfg0.win 3).blk t).view.read (Elt F) (outArr V c) := by
  have h124 : t.val % 125 = 124 := (flush0_3 t).mp hf
  obtain ⟨-, -, -, -, -, -, e0, e1⟩ := index_closed t
  show (cfg0.win 3).cut (grid0.coords t) ((policyDat V c).after 3 t) = _
  rw [after_out]
  funext y
  rw [View.read_apply]
  have hy0 : (y 0).val < 1024 := (y 0).isLt
  have hy1 : (y 1).val < 1 := (y 1).isLt
  have hemb : ((((cfg0.win 3).blk t).view.emb y) 0).val = win0_3.index t (0 : Fin 2) * 1024 + 1 * (y 0).val := rfl
  show emitted (carryAt V c t.val t.isLt) ((cfg0.win 3).xinj (grid0.coords t) y) = outArr V c (((cfg0.win 3).blk t).view.emb y)
  unfold outArr
  refine emitted_carryAt_congr V c _ _ (by rw [hemb]; omega) (Shape.idx_ext₂ ?_ ?_)
  · show (y 0).val = ((((cfg0.win 3).blk t).view.emb y) 0).val % 1024
    rw [hemb]; omega
  · show (y 1).val = 0
    omega

/-- An index of the output array is in point `t`'s block when its row is one of the block's 1024 rows. -/
theorem mem_blk_out (t : Fin cfg0.N) (i : S2048x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4).slice (win0_3.rect t)).set ↔ _
  rw [View.set_slice_whole, Rect.mem_set_unit]
  exact Iff.rfl

/-- The two write-backs cover the output array: row `i` is in the block written back after the last vocabulary tile of row
    tile `i / 1024`. -/
theorem cover_out (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  refine ⟨⟨125 * ((i 0).val / 1024) + 124, lastTile_lt i⟩, (flush0_3 _).mpr (by show (125 * ((i 0).val / 1024) + 124) % 125 = 124; omega), ?_⟩
  obtain ⟨-, -, -, -, -, -, e0, e1⟩ := index_closed ⟨125 * ((i 0).val / 1024) + 124, lastTile_lt i⟩
  have e0' : win0_3.index ⟨125 * ((i 0).val / 1024) + 124, lastTile_lt i⟩ (0 : Fin 2) = (125 * ((i 0).val / 1024) + 124) / 125 := e0
  rw [mem_blk_out]
  intro a
  match a with
  | ⟨0, _⟩ =>
    show win0_3.index ⟨125 * ((i 0).val / 1024) + 124, lastTile_lt i⟩ (0 : Fin 2) * 1024 ≤ (i 0).val
      ∧ (i 0).val < win0_3.index ⟨125 * ((i 0).val / 1024) + 124, lastTile_lt i⟩ (0 : Fin 2) * 1024 + 1024
    omega
  | ⟨1, _⟩ =>
    show win0_3.index ⟨125 * ((i 0).val / 1024) + 124, lastTile_lt i⟩ (1 : Fin 2) * 1 ≤ (i 1).val
      ∧ (i 1).val < win0_3.index ⟨125 * ((i 0).val / 1024) + 124, lastTile_lt i⟩ (1 : Fin 2) * 1 + 1
    omega

/-- So the output array after the call is `outArr`. -/
theorem arrAt_out (c : Dev nD) : (policyDat V c).arrAt 3 cfg0.N = outArr V c :=
  (policyDat V c).arrAt_eq_of_cover 3 (outArr V c) (fun t hf => flushed_out V c t hf) cover_out

end Blocks

/-! ## At the extended reals: the token log-probabilities -/

/-- When the activations and the weights hold real numbers and every target is a vocabulary index, row `r` of the output
    array after the call is the log-probability of row `r`'s target under the softmax of row `r`'s logits. -/
theorem arrAt_out_tokLogp (V : (c : Dev nD) → (b : Ref sig .tc) → Buf (Elt Ideal) ((c : Thread nD τ).loc b)) (c : Dev nD)
    (hx : ∀ i : S2048x4096.Idx, (V c main_v1 : S2048x4096.Idx → EReal) i = (((V c main_v1 : S2048x4096.Idx → EReal) i).toReal : EReal))
    (hw : ∀ i : S32000x4096.Idx, (V c main_arg4 : S32000x4096.Idx → EReal) i = (((V c main_arg4 : S32000x4096.Idx → EReal) i).toReal : EReal))
    (hy : ∀ r : Fin 2048, ((V c main_v3 : S2048x1.Idx → BitVec 32) (ix2 r (0 : Fin 1))).toNat < 32000) (r : Fin 2048) :
    ((policyDat V c).arrAt 3 cfg0.N : S2048x1.Idx → EReal) (ix2 r (0 : Fin 1))
      = ((Cert.Spec.tokLogpR (fun k => ((V c main_v1 : S2048x4096.Idx → EReal) (ix2 r k)).toReal)
          (fun v k => ((V c main_arg4 : S32000x4096.Idx → EReal) (ix2 v k)).toReal)
          ⟨((V c main_v3 : S2048x1.Idx → BitVec 32) (ix2 r (0 : Fin 1))).toNat, hy r⟩ : ℝ) : EReal) := by
  have hr := r.isLt
  obtain ⟨p, hp⟩ : ∃ p : Fin 2, p.val = r.val / 1024 := ⟨⟨r.val / 1024, by omega⟩, rfl⟩
  obtain ⟨q, hq⟩ : ∃ q : Fin 1024, q.val = r.val % 1024 := ⟨⟨r.val % 1024, Nat.mod_lt _ (by decide)⟩, rfl⟩
  -- the row of the arrays that row q of row tile p's blocks is
  have er : (⟨1024 * ((125 * p.val) / 125) + q.val, row_lt ⟨125 * p.val, tile0_lt p⟩ q⟩ : Fin 2048) = r :=
    Fin.ext (by show 1024 * ((125 * p.val) / 125) + q.val = r.val; omega)
  rw [arrAt_out V c]
  show emitted (carryAt V c (125 * (r.val / 1024) + 124) _) (ix2 ⟨r.val % 1024, _⟩ (0 : Fin 1)) = _
  refine (emitted_carryAt_congr V c _ (tile_lt p ⟨124, by decide⟩) (show 125 * (r.val / 1024) + 124 = 125 * p.val + 124 by rw [hp])
    (show ix2 ⟨r.val % 1024, _⟩ (0 : Fin 1) = ix2 q (0 : Fin 1) from by congr 1; exact Fin.ext hq.symm)).trans ?_
  rw [carryAt_eq_carryFold V c p ⟨124, by decide⟩]
  refine (emitted_carryFold (fun k' => grid0.coords ⟨125 * p.val + k'.val, tile_lt p k'⟩)
    (fun k' => by
      have hk := k'.isLt
      rw [(coords_closed ⟨125 * p.val + k'.val, tile_lt p k'⟩).1]
      show (125 * p.val + k'.val) % 125 = k'.val
      omega)
    (hBlock V c ⟨125 * p.val, tile0_lt p⟩) (fun k' => wBlock V c ⟨125 * p.val + k'.val, tile_lt p k'⟩) (yBlock V c ⟨125 * p.val, tile0_lt p⟩)
    (fun q' k => ((V c main_v1 : S2048x4096.Idx → EReal) (ix2 ⟨1024 * ((125 * p.val) / 125) + q'.val, row_lt ⟨125 * p.val, tile0_lt p⟩ q'⟩ k)).toReal)
    (fun v k => ((V c main_arg4 : S32000x4096.Idx → EReal) (ix2 v k)).toReal)
    (fun q' k => (hBlock_apply V c ⟨125 * p.val, tile0_lt p⟩ q' k).trans (hx _))
    (fun t j k => by
      have ht := t.isLt
      rw [wBlock_apply V c ⟨125 * p.val + t.val, tile_lt p t⟩ j k,
        show (⟨256 * ((125 * p.val + t.val) % 125) + j.val, voc_lt ⟨125 * p.val + t.val, tile_lt p t⟩ j⟩ : Fin 32000) = ⟨256 * t.val + j.val, by omega⟩ from
          Fin.ext (by show 256 * ((125 * p.val + t.val) % 125) + j.val = 256 * t.val + j.val; omega)]
      exact hw _)
    (fun q' => by rw [yBlock_apply V c ⟨125 * p.val, tile0_lt p⟩ q']; exact hy _)
    q).trans ?_
  have e2 : (yBlock V c ⟨125 * p.val, tile0_lt p⟩ (ix2 q (0 : Fin 1)) : BitVec 32) = (V c main_v3 : S2048x1.Idx → BitVec 32) (ix2 r (0 : Fin 1)) := by
    rw [yBlock_apply V c ⟨125 * p.val, tile0_lt p⟩ q, er]
  congr 2
  · funext k
    show ((V c main_v1 : S2048x4096.Idx → EReal) (ix2 ⟨1024 * ((125 * p.val) / 125) + q.val, _⟩ k)).toReal = _
    rw [er]
  · exact Fin.ext (congrArg BitVec.toNat e2)

end Cert.KernelIdeal.Policy

end
-- ==== Proof.Loss.lean ====
/-
  What both programs compute from the two arrays of per-token log-probabilities: per sequence the mean over the
  positions whose target is not the ignore word -100 (the denominator at least 1), then from the two means and the
  labels the loss  (1/2) Σ_b (1 - 1 / (1 + exp (-(0.1 (a_b - b_b)) s_b))),  s_b = 1 where the label is set, -1 where not.
  Written as the operations in the order both programs apply them, over literal shapes, every side condition an argument.
-/
import Idealize.ShloMosaic.PureOps

noncomputable section

namespace Cert.Loss

open Idealize.ShloMosaic

abbrev T2x1024 : Shape := ⟨2, ![2, 1024]⟩
abbrev T2 : Shape := ⟨1, ![2]⟩
abbrev T_ : Shape := ⟨0, ![]⟩

variable {F : FTy → Type} [FloatOps F]

/-- The mask: 1 where the target word differs from -100 (the word 4294967196), 0 where it equals it. -/
def mask (hb : T_.BroadcastsInDim T2x1024 (![] : Fin 0 → Fin T2x1024.rank)) (y : IVec T2x1024 32) : FVec F T2x1024 .f32 :=
  uitofp .f32 (cmpi .ne y (broadcastInDim T2x1024 ![] hb (constantI T_ 32 4294967196#32)))

/-- The masked mean over each sequence: (Σ_t tok(b,t) mask(b,t)) / max (Σ_t mask(b,t)) 1. -/
def seqMean (hb : T_.BroadcastsInDim T2x1024 (![] : Fin 0 → Fin T2x1024.rank)) (hr : T2x1024.ReducesTo [1] T2)
    (h0 : 0 < T_.numel) (hb2 : T_.BroadcastsInDim T2 (![] : Fin 0 → Fin T2.rank))
    (tok : FVec F T2x1024 .f32) (y : IVec T2x1024 32) : FVec F T2 .f32 :=
  Host.divf
    (Host.reduceAdd (mulf tok (mask (F := F) hb y)) (constant (F := F) T_ .f32 0x00000000#32) hr h0)
    (maximumf (Host.reduceAdd (mask (F := F) hb y) (constant (F := F) T_ .f32 0x00000000#32) hr h0)
      (broadcastInDim T2 ![] hb2 (constant (F := F) T_ .f32 0x3F800000#32)))

/-- The sign per sequence: 1 where the label is set, -1 where it is not. -/
def sign (hb2 : T_.BroadcastsInDim T2 (![] : Fin 0 → Fin T2.rank)) (lab : IVec T2 1) : FVec F T2 .f32 :=
  select lab (broadcastInDim T2 ![] hb2 (constant (F := F) T_ .f32 0x3F800000#32))
    (broadcastInDim T2 ![] hb2 (constant (F := F) T_ .f32 0xBF800000#32))

/-- The loss: half the sum over the two sequences of 1 - 1 / (1 + exp (-((0.1 (a - b)) sign))). -/
def loss (hb2 : T_.BroadcastsInDim T2 (![] : Fin 0 → Fin T2.rank)) (hr0 : T2.ReducesTo [0] T_) (h0 : 0 < T_.numel)
    (a b : FVec F T2 .f32) (lab : IVec T2 1) : FVec F T_ .f32 :=
  Host.divf
    (Host.reduceAdd
      (subf (broadcastInDim T2 ![] hb2 (constant (F := F) T_ .f32 0x3F800000#32))
        (Host.divf (broadcastInDim T2 ![] hb2 (constant (F := F) T_ .f32 0x3F800000#32))
          (addf (broadcastInDim T2 ![] hb2 (constant (F := F) T_ .f32 0x3F800000#32))
            (Host.exp (Host.negf
              (mulf (mulf (broadcastInDim T2 ![] hb2 (constant (F := F) T_ .f32 0x3DCCCCCD#32)) (subf a b))
                (sign (F := F) hb2 lab)))))))
      (constant (F := F) T_ .f32 0x00000000#32) hr0 h0)
    (constant (F := F) T_ .f32 0x40000000#32)

end Cert.Loss

end
-- ==== Proof.HostSide.lean ====
/-
  The host operations around the two calls, read back. Before each call: the weights are as launched, the activations
  are the [2, 1024, 4096] array read as 2048 rows (row r is entry (r / 1024, r % 1024); the narrowing of the format is the
  identity over the extended reals), and the targets are the clipped words as a column of 2048 rows. After the last
  operation: the result is the loss of the two masked means of the calls' outputs (each output column read back as the
  [2, 1024] array, entry (b, t) being row 1024 b + t).
-/
import proofs.«410554_j45887430590963_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import proofs.«410554_j45887430590963_2_alg».proof.Proof.Spec
import proofs.«410554_j45887430590963_2_alg».proof.Proof.Loss

noncomputable section

namespace Cert.KernelIdeal.HostSide

open Idealize.ShloMosaic Idealize.ShloMosaic.TcCoe Idealize.ShloMosaic.ValueIdx
open Idealize.SL.Sem
open Cert.KernelIdeal Cert.KernelIdeal.Gen

variable {F : FTy → Type} [FloatOps F]

variable (m : (ℓ : Loc nD τ sig) → Buf (Elt F) ℓ) (outs : Outs (F := F)) (c : Dev nD)

/-! ## The two reshapes between a call's result and the array of per-token values -/

/-- A call's result, a column of 2048 rows, as the [2, 1024] array: the column read as a vector, the vector cut in two rows. -/
def tokOf (o : FVec F ⟨2, ![2048, 1]⟩ .f32) : FVec F ⟨2, ![2, 1024]⟩ .f32 :=
  shapeCast S2x1024 (shapeCast S2048 o shapeCasts_S2048x1_S2048) shapeCasts_S2048_S2x1024

/-- Entry (b, t) of the array is row 1024 b + t of the column. -/
theorem tokOf_apply (o : FVec F ⟨2, ![2048, 1]⟩ .f32) (b : Fin 2) (t : Fin 1024) :
    tokOf o (ix2 b t) = o (ix2 (⟨1024 * b.val + t.val, by have := b.isLt; have := t.isLt; omega⟩ : Fin 2048) (0 : Fin 1)) := by
  unfold tokOf
  refine (shapeCast_apply _ shapeCasts_S2048_S2x1024 (ix2 b t)
    (ix1 (⟨1024 * b.val + t.val, by have := b.isLt; have := t.isLt; omega⟩ : Fin 2048)) ?_).trans
    (shapeCast_apply o shapeCasts_S2048x1_S2048 _ _ ?_)
  · rw [Shape.rowMajor_val_one, Shape.rowMajor_val_two]
    show 1024 * b.val + t.val = b.val * 1024 + t.val
    omega
  · rw [Shape.rowMajor_val_two, Shape.rowMajor_val_one]
    show (1024 * b.val + t.val) * 1 + 0 = 1024 * b.val + t.val
    omega

/-! ## What the first call's windows find (the buffers before item 3) -/

theorem V3_arg4 : V3 m c main_arg4 = m ((c : Thread nD τ).loc main_arg4) :=
  (V3_of m c main_arg4 (by decide)).trans <| (V2_of m c main_arg4 (by decide)).trans <| (V1_of m c main_arg4 (by decide)).trans rfl

theorem V3_v1_eq : (V3 m c main_v1 : FVec F S2048x4096 .bf16) =
    truncf .bf16 (shapeCast S2048x4096 (m ((c : Thread nD τ).loc main_arg0) : FVec F S2x1024x4096 .f32) shapeCasts_S2x1024x4096_S2048x4096) bitsLt_bf16_f32 := by
  show StableHlo.after hostOps0_2 (StableHlo.after hostOps0_1 (StableHlo.after hostOps0 (V0 m c))) (Proc.devRef .tc main_v1) = _
  after_results
  rfl

theorem V3_v3_eq : (V3 m c main_v3 : IVec S2048x1 32) =
    shapeCast S2048x1 (minsi (broadcastInDim S2x1024 ![] bcast_S_S2x1024 (constantI S_ 32 31999#32))
      (maxsi (broadcastInDim S2x1024 ![] bcast_S_S2x1024 (constantI S_ 32 0#32)) (m ((c : Thread nD τ).loc main_arg2) : IVec S2x1024 32))) shapeCasts_S2x1024_S2048x1 := by
  show StableHlo.after hostOps0_2 (StableHlo.after hostOps0_1 (StableHlo.after hostOps0 (V0 m c))) (Proc.devRef .tc main_v3) = _
  after_results
  rfl

/-- The clipped targets as the column the calls read: row r is the clipped word at (r / 1024, r % 1024). -/
theorem clipCol_apply (y : IVec S2x1024 32) (r : Fin 2048) :
    shapeCast S2048x1 (minsi (broadcastInDim S2x1024 ![] bcast_S_S2x1024 (constantI S_ 32 31999#32))
      (maxsi (broadcastInDim S2x1024 ![] bcast_S_S2x1024 (constantI S_ 32 0#32)) y)) shapeCasts_S2x1024_S2048x1 (ix2 r (0 : Fin 1))
    = Cert.Spec.clipWord (y (ix2 (⟨r.val / 1024, by have := r.isLt; omega⟩ : Fin 2) (⟨r.val % 1024, Nat.mod_lt _ (by decide)⟩ : Fin 1024))) := by
  refine (shapeCast_apply _ shapeCasts_S2x1024_S2048x1 (ix2 r (0 : Fin 1))
    (ix2 (⟨r.val / 1024, by have := r.isLt; omega⟩ : Fin 2) (⟨r.val % 1024, Nat.mod_lt _ (by decide)⟩ : Fin 1024)) ?_).trans rfl
  rw [Shape.rowMajor_val_two, Shape.rowMajor_val_two]
  show r.val / 1024 * 1024 + r.val % 1024 = r.val * 1 + 0
  omega

theorem V3_v3_apply (r : Fin 2048) :
    (V3 m c main_v3 : IVec S2048x1 32) (ix2 r (0 : Fin 1))
    = Cert.Spec.clipWord ((m ((c : Thread nD τ).loc main_arg2) : IVec S2x1024 32)
        (ix2 (⟨r.val / 1024, by have := r.isLt; omega⟩ : Fin 2) (⟨r.val % 1024, Nat.mod_lt _ (by decide)⟩ : Fin 1024))) := by
  rw [V3_v3_eq]; exact clipCol_apply _ r

/-- The activations as the rows the calls read: row r, column k is entry (r / 1024, r % 1024, k). -/
theorem rows_apply {α : Type} (x : S2x1024x4096.Idx → α) (r : Fin 2048) (k : Fin 4096) :
    shapeCast S2048x4096 x shapeCasts_S2x1024x4096_S2048x4096 (ix2 r k)
    = x (ix3 (⟨r.val / 1024, by have := r.isLt; omega⟩ : Fin 2) (⟨r.val % 1024, Nat.mod_lt _ (by decide)⟩ : Fin 1024) k) := by
  refine shapeCast_apply x shapeCasts_S2x1024x4096_S2048x4096 (ix2 r k) _ ?_
  rw [Shape.rowMajor_val_three, Shape.rowMajor_val_two]
  show (r.val / 1024 * 1024 + r.val % 1024) * 4096 + k.val = r.val * 4096 + k.val
  omega

theorem V3_v1_apply (m : (ℓ : Loc nD τ sig) → Buf (Elt Ideal) ℓ) (c : Dev nD) (r : Fin 2048) (k : Fin 4096) :
    (V3 (F := Ideal) m c main_v1 : FVec Ideal S2048x4096 .bf16) (ix2 r k)
    = (m ((c : Thread nD τ).loc main_arg0) : FVec Ideal S2x1024x4096 .f32)
        (ix3 (⟨r.val / 1024, by have := r.isLt; omega⟩ : Fin 2) (⟨r.val % 1024, Nat.mod_lt _ (by decide)⟩ : Fin 1024) k) := by
  rw [V3_v1_eq]; exact rows_apply _ r k

/-! ## What the second call's windows find (the buffers before item 7) -/

/-- The operations between the calls, from any contents W: the second activations as rows. -/
theorem mid_v17 (W : Valuation τ sig (Elt F)) : (StableHlo.after hostOps1 W (Proc.devRef .tc main_v17) : FVec F S2048x4096 .bf16) =
    truncf .bf16 (shapeCast S2048x4096 (W (Proc.devRef .tc main_arg1) : FVec F S2x1024x4096 .f32) shapeCasts_S2x1024x4096_S2048x4096) bitsLt_bf16_f32 := by
  after_results
  rfl

/-- The operations between the calls, from any contents W: the clipped targets as a column, again. -/
theorem mid_v19 (W : Valuation τ sig (Elt F)) :
    (StableHlo.after hostOps1_2 (StableHlo.after hostOps1_1 (StableHlo.after hostOps1 W)) (Proc.devRef .tc main_v19) : IVec S2048x1 32) =
    shapeCast S2048x1 (minsi (broadcastInDim S2x1024 ![] bcast_S_S2x1024 (constantI S_ 32 31999#32))
      (maxsi (broadcastInDim S2x1024 ![] bcast_S_S2x1024 (constantI S_ 32 0#32)) (W (Proc.devRef .tc main_arg2) : IVec S2x1024 32))) shapeCasts_S2x1024_S2048x1 := by
  after_results
  rfl

theorem V7_arg5 : V7 m outs c main_arg5 = m ((c : Thread nD τ).loc main_arg5) :=
  (V7_of m outs c main_arg5 (by decide)).trans <| (V6_of m outs c main_arg5 (by decide)).trans <| (V5_of m outs c main_arg5 (by decide)).trans <|
    (V4_of m outs c main_arg5 (by decide)).trans <| (V3_of m c main_arg5 (by decide)).trans <| (V2_of m c main_arg5 (by decide)).trans <| (V1_of m c main_arg5 (by decide)).trans rfl

theorem V4_arg1 : V4 m outs c main_arg1 = m ((c : Thread nD τ).loc main_arg1) :=
  (V4_of m outs c main_arg1 (by decide)).trans <| (V3_of m c main_arg1 (by decide)).trans <| (V2_of m c main_arg1 (by decide)).trans <| (V1_of m c main_arg1 (by decide)).trans rfl

theorem V4_arg2 : V4 m outs c main_arg2 = m ((c : Thread nD τ).loc main_arg2) :=
  (V4_of m outs c main_arg2 (by decide)).trans <| (V3_of m c main_arg2 (by decide)).trans <| (V2_of m c main_arg2 (by decide)).trans <| (V1_of m c main_arg2 (by decide)).trans rfl

theorem V7_v17_eq : (V7 m outs c main_v17 : FVec F S2048x4096 .bf16) =
    truncf .bf16 (shapeCast S2048x4096 (m ((c : Thread nD τ).loc main_arg1) : FVec F S2x1024x4096 .f32) shapeCasts_S2x1024x4096_S2048x4096) bitsLt_bf16_f32 := by
  have e1 : V7 m outs c main_v17 = V5 m outs c main_v17 := (V7_of m outs c main_v17 (by decide)).trans (V6_of m outs c main_v17 (by decide))
  rw [e1]
  refine (mid_v17 (V4 m outs c)).trans ?_
  rw [V4_arg1]

theorem V7_v17_apply (m : (ℓ : Loc nD τ sig) → Buf (Elt Ideal) ℓ) (outs : Outs (F := Ideal)) (c : Dev nD) (r : Fin 2048) (k : Fin 4096) :
    (V7 (F := Ideal) m outs c main_v17 : FVec Ideal S2048x4096 .bf16) (ix2 r k)
    = (m ((c : Thread nD τ).loc main_arg1) : FVec Ideal S2x1024x4096 .f32)
        (ix3 (⟨r.val / 1024, by have := r.isLt; omega⟩ : Fin 2) (⟨r.val % 1024, Nat.mod_lt _ (by decide)⟩ : Fin 1024) k) := by
  rw [V7_v17_eq]; exact rows_apply _ r k

theorem V7_v19_eq : (V7 m outs c main_v19 : IVec S2048x1 32) =
    shapeCast S2048x1 (minsi (broadcastInDim S2x1024 ![] bcast_S_S2x1024 (constantI S_ 32 31999#32))
      (maxsi (broadcastInDim S2x1024 ![] bcast_S_S2x1024 (constantI S_ 32 0#32)) (m ((c : Thread nD τ).loc main_arg2) : IVec S2x1024 32))) shapeCasts_S2x1024_S2048x1 := by
  refine (mid_v19 (V4 m outs c)).trans ?_
  rw [V4_arg2]

theorem V7_v19_apply (r : Fin 2048) :
    (V7 m outs c main_v19 : IVec S2048x1 32) (ix2 r (0 : Fin 1))
    = Cert.Spec.clipWord ((m ((c : Thread nD τ).loc main_arg2) : IVec S2x1024 32)
        (ix2 (⟨r.val / 1024, by have := r.isLt; omega⟩ : Fin 2) (⟨r.val % 1024, Nat.mod_lt _ (by decide)⟩ : Fin 1024))) := by
  rw [V7_v19_eq]; exact clipCol_apply _ r

/-! ## The result (the buffers after the last item) -/

/-- The operations between the calls, from any contents W: the first masked mean. -/
theorem mid_v15 (W : Valuation τ sig (Elt F)) : (StableHlo.after hostOps1 W (Proc.devRef .tc main_v15) : FVec F S2 .f32) =
    Cert.Loss.seqMean bcast_S_S2x1024 reducesTo_S2x1024_S2_d1 h_S_ bcast_S_S2
      (tokOf (W (Proc.devRef .tc main_v4) : FVec F S2048x1 .f32)) (W (Proc.devRef .tc main_arg2) : IVec S2x1024 32) := by
  after_results
  rfl

/-- The operations after the second call, from any contents W: the loss of the first mean and the second masked mean. -/
theorem tail_v47 (W : Valuation τ sig (Elt F)) :
    (StableHlo.after hostOps2_2 (StableHlo.after hostOps2_1 (StableHlo.after hostOps2 W)) (Proc.devRef .tc main_v47) : FVec F S_ .f32) =
    Cert.Loss.loss bcast_S_S2 reducesTo_S2_S_d0 h_S_ (W (Proc.devRef .tc main_v15) : FVec F S2 .f32)
      (Cert.Loss.seqMean bcast_S_S2x1024 reducesTo_S2x1024_S2_d1 h_S_ bcast_S_S2
        (tokOf (W (Proc.devRef .tc main_v20) : FVec F S2048x1 .f32)) (W (Proc.devRef .tc main_arg2) : IVec S2x1024 32))
      (W (Proc.devRef .tc main_arg3) : IVec S2 1) := by
  after_results_simp
  rfl

theorem V8_v20 : V8 m outs c main_v20 = outs 8 main_v20 c := by
  simp only [V8, Function.update_self]

theorem V4_v4 : V4 m outs c main_v4 = outs 4 main_v4 c := by
  simp only [V4, Function.update_self]

theorem V8_v15 : V8 m outs c main_v15 = V5 m outs c main_v15 :=
  (V8_of m outs c main_v15 (by decide)).trans <| (V7_of m outs c main_v15 (by decide)).trans (V6_of m outs c main_v15 (by decide))

theorem V8_arg2 : V8 m outs c main_arg2 = m ((c : Thread nD τ).loc main_arg2) :=
  (V8_of m outs c main_arg2 (by decide)).trans <| (V7_of m outs c main_arg2 (by decide)).trans <| (V6_of m outs c main_arg2 (by decide)).trans <|
    (V5_of m outs c main_arg2 (by decide)).trans (V4_arg2 m outs c)

theorem V8_arg3 : V8 m outs c main_arg3 = m ((c : Thread nD τ).loc main_arg3) :=
  (V8_of m outs c main_arg3 (by decide)).trans <| (V7_of m outs c main_arg3 (by decide)).trans <| (V6_of m outs c main_arg3 (by decide)).trans <|
    (V5_of m outs c main_arg3 (by decide)).trans <| (V4_of m outs c main_arg3 (by decide)).trans <| (V3_of m c main_arg3 (by decide)).trans <|
    (V2_of m c main_arg3 (by decide)).trans <| (V1_of m c main_arg3 (by decide)).trans rfl

/-- The result: the loss of the two masked means of the calls' outputs. -/
theorem V11_v47 : (V11 m outs c main_v47 : FVec F S_ .f32) =
    Cert.Loss.loss bcast_S_S2 reducesTo_S2_S_d0 h_S_
      (Cert.Loss.seqMean bcast_S_S2x1024 reducesTo_S2x1024_S2_d1 h_S_ bcast_S_S2 (tokOf (outs 4 main_v4 c : FVec F S2048x1 .f32)) (m ((c : Thread nD τ).loc main_arg2) : IVec S2x1024 32))
      (Cert.Loss.seqMean bcast_S_S2x1024 reducesTo_S2x1024_S2_d1 h_S_ bcast_S_S2 (tokOf (outs 8 main_v20 c : FVec F S2048x1 .f32)) (m ((c : Thread nD τ).loc main_arg2) : IVec S2x1024 32))
      (m ((c : Thread nD τ).loc main_arg3) : IVec S2 1) := by
  refine (tail_v47 (V8 m outs c)).trans ?_
  rw [V8_v20, V8_arg2, V8_arg3, V8_v15]
  refine congrArg (fun a => Cert.Loss.loss bcast_S_S2 reducesTo_S2_S_d0 h_S_ a _ _) ?_
  refine (mid_v15 (V4 m outs c)).trans ?_
  rw [V4_v4, V4_arg2]

end Cert.KernelIdeal.HostSide

end
-- ==== Proof.SpecRows.lean ====
/-
  The token's log-probability read through the row number: the [2, 1024] positions of a batch are the 2048 rows
  r = 1024 b + t, row r being position (r / 1024, r % 1024).
-/
import proofs.«410554_j45887430590963_2_alg».proof.Proof.Spec

noncomputable section

namespace Cert.Spec

open Idealize.ShloMosaic Idealize.ShloMosaic.ValueIdx

/-- Row 1024 b + t lies in batch b … -/
theorem row_div (b : Fin 2) (t : Fin 1024) : (1024 * b.val + t.val) / 1024 = b.val := by omega

/-- … at position t … -/
theorem row_mod (b : Fin 2) (t : Fin 1024) : (1024 * b.val + t.val) % 1024 = t.val := by omega

/-- … and is one of the 2048 rows. -/
theorem row_lt (b : Fin 2) (t : Fin 1024) : 1024 * b.val + t.val < 2048 := by omega

/-- The batch of row 1024 b + t, as an index, is b, whatever the proof of its bound. -/
theorem rowBatch_eq (b : Fin 2) (t : Fin 1024) (h : (1024 * b.val + t.val) / 1024 < 2) :
    (⟨(1024 * b.val + t.val) / 1024, h⟩ : Fin 2) = b := Fin.ext (row_div b t)

/-- The position of row 1024 b + t, as an index, is t, whatever the proof of its bound. -/
theorem rowPos_eq (b : Fin 2) (t : Fin 1024) (h : (1024 * b.val + t.val) % 1024 < 1024) :
    (⟨(1024 * b.val + t.val) % 1024, h⟩ : Fin 1024) = t := Fin.ext (row_mod b t)

/-- The same two facts for a row number given with equations for its quotient and remainder. -/
theorem rowBatch_eq_of (b : Fin 2) (n : ℕ) (hr : n / 1024 = b.val) (h : n / 1024 < 2) : (⟨n / 1024, h⟩ : Fin 2) = b :=
  Fin.ext hr
theorem rowPos_eq_of (t : Fin 1024) (n : ℕ) (hm : n % 1024 = t.val) (h : n % 1024 < 1024) : (⟨n % 1024, h⟩ : Fin 1024) = t :=
  Fin.ext hm

/-- The token's log-probability at the position of row r, written over the row's own entries: the activation row
    (r / 1024, r % 1024, ·), all rows of the weights, the clipped target at (r / 1024, r % 1024). -/
theorem tokAt_row (x : (⟨3, ![2, 1024, 4096]⟩ : Shape).Idx → EReal) (W : (⟨2, ![32000, 4096]⟩ : Shape).Idx → EReal)
    (y : (⟨2, ![2, 1024]⟩ : Shape).Idx → BitVec 32) (r : Fin 2048) :
    tokAt x W y (⟨r.val / 1024, by have := r.isLt; omega⟩ : Fin 2) (⟨r.val % 1024, Nat.mod_lt _ (by decide)⟩ : Fin 1024)
      = ((tokLogpR
          (fun k => (x (ix3 (⟨r.val / 1024, by have := r.isLt; omega⟩ : Fin 2) (⟨r.val % 1024, Nat.mod_lt _ (by decide)⟩ : Fin 1024) k)).toReal)
          (fun v k => (W (ix2 v k)).toReal)
          ⟨(clipWord (y (ix2 (⟨r.val / 1024, by have := r.isLt; omega⟩ : Fin 2) (⟨r.val % 1024, Nat.mod_lt _ (by decide)⟩ : Fin 1024)))).toNat,
            clipWord_lt _⟩ : ℝ) : EReal) := rfl

/-- The token's log-probability at (b, t) is the one at the position of row 1024 b + t. -/
theorem tokAt_eq_row (x : (⟨3, ![2, 1024, 4096]⟩ : Shape).Idx → EReal) (W : (⟨2, ![32000, 4096]⟩ : Shape).Idx → EReal)
    (y : (⟨2, ![2, 1024]⟩ : Shape).Idx → BitVec 32) (b : Fin 2) (t : Fin 1024) :
    tokAt x W y b t
      = tokAt x W y (⟨(1024 * b.val + t.val) / 1024, by omega⟩ : Fin 2)
          (⟨(1024 * b.val + t.val) % 1024, Nat.mod_lt _ (by decide)⟩ : Fin 1024) := by
  rw [rowBatch_eq, rowPos_eq]

/-- So the token's log-probability at (b, t) is the log-probability written over the entries of row 1024 b + t. -/
theorem tokAt_of_row (x : (⟨3, ![2, 1024, 4096]⟩ : Shape).Idx → EReal) (W : (⟨2, ![32000, 4096]⟩ : Shape).Idx → EReal)
    (y : (⟨2, ![2, 1024]⟩ : Shape).Idx → BitVec 32) (b : Fin 2) (t : Fin 1024) :
    tokAt x W y b t
      = ((tokLogpR
          (fun k => (x (ix3 (⟨(1024 * b.val + t.val) / 1024, by omega⟩ : Fin 2)
            (⟨(1024 * b.val + t.val) % 1024, Nat.mod_lt _ (by decide)⟩ : Fin 1024) k)).toReal)
          (fun v k => (W (ix2 v k)).toReal)
          ⟨(clipWord (y (ix2 (⟨(1024 * b.val + t.val) / 1024, by omega⟩ : Fin 2)
            (⟨(1024 * b.val + t.val) % 1024, Nat.mod_lt _ (by decide)⟩ : Fin 1024)))).toNat, clipWord_lt _⟩ : ℝ) : EReal) :=
  (tokAt_eq_row x W y b t).trans (tokAt_row x W y ⟨1024 * b.val + t.val, row_lt b t⟩)

end Cert.Spec

end
-- ==== Proof.Bridge.lean ====
/-
  The kernel program's result as mathematics. Each call's result array, row by row, holds the token's log-probability of
  the clipped target (the fold of the 125 vocabulary tiles read at the extended reals, the blocks read off the arrays the
  host operations prepared: the activations re-laid as 2048 rows and carried through a change of format that is the
  identity here, the weights as launched, the targets clipped and re-laid as a column); re-laid as [2, 1024] it is the array
  `tokArr`; and the host operations after the second call are the masked means and the loss of those two arrays.
-/
import proofs.«410554_j45887430590963_2_alg».proof.Proof.Calls
import proofs.«410554_j45887430590963_2_alg».proof.Proof.Policy.Result
import proofs.«410554_j45887430590963_2_alg».proof.Proof.Frozen.Result
import proofs.«410554_j45887430590963_2_alg».proof.Proof.HostSide
import proofs.«410554_j45887430590963_2_alg».proof.Proof.SpecRows

noncomputable section

namespace Cert.KernelIdeal.Bridge

open Cert.KernelIdeal Cert.KernelIdeal.Gen Cert.KernelIdeal.Calls Cert.KernelIdeal.HostSide Cert.Spec
open Idealize.ShloMosaic Idealize.ShloMosaic.TcCoe Idealize.ShloMosaic.ValueIdx Idealize.SL.Sem

variable (m : (ℓ : Loc nD τ sig) → Buf (Elt Ideal) ℓ) (c : Dev nD)

/-- The token log-probability depends on its target only through the target's number. -/
theorem tokLogpR_congr {h h' : Fin 4096 → ℝ} {W W' : Fin 32000 → Fin 4096 → ℝ} {n n' : ℕ} (hn : n < 32000) (hn' : n' < 32000)
    (eh : h = h') (eW : W = W') (ey : n = n') : tokLogpR h W ⟨n, hn⟩ = tokLogpR h' W' ⟨n', hn'⟩ := by
  subst eh; subst eW; subst ey; rfl

/-- What the policy model's call leaves, re-laid as [2, 1024], is the array of token log-probabilities of the policy model. -/
theorem first_tok
    (h0 : ∀ i, (m ((c : Thread nD τ).loc main_arg0) : FVec Ideal S2x1024x4096 .f32) i
      = ((((m ((c : Thread nD τ).loc main_arg0) : FVec Ideal S2x1024x4096 .f32) i : EReal).toReal : ℝ) : EReal))
    (h4 : ∀ i, (m ((c : Thread nD τ).loc main_arg4) : FVec Ideal S32000x4096 .f32) i
      = ((((m ((c : Thread nD τ).loc main_arg4) : FVec Ideal S32000x4096 .f32) i : EReal).toReal : ℝ) : EReal)) :
    tokOf (F := Ideal) (left0 m c : FVec Ideal S2048x1 .f32)
      = (tokArr (m ((c : Thread nD τ).loc main_arg0)) (m ((c : Thread nD τ).loc main_arg4)) (m ((c : Thread nD τ).loc main_arg2)) : FVec Ideal S2x1024 .f32) := by
  funext i
  obtain ⟨b, t, rfl⟩ : ∃ (b : Fin 2) (t : Fin 1024), i = ix2 b t := ⟨i 0, i 1, eq_ix2 i⟩
  rw [tokOf_apply, tokArr_apply, tokAt_of_row]
  have eAct : ∀ (r : Fin 2048) (k : Fin 4096), (entry0 m c main_v1 : S2048x4096.Idx → EReal) (ix2 r k)
      = (m ((c : Thread nD τ).loc main_arg0) : FVec Ideal S2x1024x4096 .f32)
          (ix3 (⟨r.val / 1024, by have := r.isLt; omega⟩ : Fin 2) (⟨r.val % 1024, Nat.mod_lt _ (by decide)⟩ : Fin 1024) k) := fun r k => by
    exact V3_v1_apply m c r k
  have eW : (entry0 m c main_arg4 : S32000x4096.Idx → EReal) = m ((c : Thread nD τ).loc main_arg4) := by
    exact V3_arg4 m c
  have eY : ∀ r : Fin 2048, (entry0 m c main_v3 : S2048x1.Idx → BitVec 32) (ix2 r (0 : Fin 1))
      = clipWord ((m ((c : Thread nD τ).loc main_arg2) : IVec S2x1024 32)
          (ix2 (⟨r.val / 1024, by have := r.isLt; omega⟩ : Fin 2) (⟨r.val % 1024, Nat.mod_lt _ (by decide)⟩ : Fin 1024))) := fun r => by
    exact V3_v3_apply m c r
  have hx : ∀ i : S2048x4096.Idx, (entry0 m c main_v1 : S2048x4096.Idx → EReal) i
      = ((((entry0 m c main_v1 : S2048x4096.Idx → EReal) i).toReal : ℝ) : EReal) := fun i => by
    obtain ⟨r, k, rfl⟩ : ∃ (r : Fin 2048) (k : Fin 4096), i = ix2 r k := ⟨i 0, i 1, eq_ix2 i⟩
    rw [eAct r k]; exact h0 _
  have hw : ∀ i : S32000x4096.Idx, (entry0 m c main_arg4 : S32000x4096.Idx → EReal) i
      = ((((entry0 m c main_arg4 : S32000x4096.Idx → EReal) i).toReal : ℝ) : EReal) := fun i => by
    rw [eW]; exact h4 i
  have hy : ∀ r : Fin 2048, ((entry0 m c main_v3 : S2048x1.Idx → BitVec 32) (ix2 r (0 : Fin 1))).toNat < 32000 := fun r => by
    rw [eY r]; exact clipWord_lt _
  have key := Policy.arrAt_out_tokLogp (entry0 m) c hx hw hy ⟨1024 * b.val + t.val, row_lt b t⟩
  unfold left0
  refine key.trans ?_
  refine congrArg (fun z : ℝ => (z : EReal)) (tokLogpR_congr _ _ (funext fun k => ?_) (funext fun v => funext fun k => ?_) ?_)
  · exact congrArg EReal.toReal (eAct ⟨1024 * b.val + t.val, row_lt b t⟩ k)
  · exact congrArg EReal.toReal (congrFun eW (ix2 v k))
  · exact congrArg BitVec.toNat (eY ⟨1024 * b.val + t.val, row_lt b t⟩)

/-- The same for the frozen reference model's call, whose entry contents are the generated valuation before it. -/
theorem second_tok
    (h1 : ∀ i, (m ((c : Thread nD τ).loc main_arg1) : FVec Ideal S2x1024x4096 .f32) i
      = ((((m ((c : Thread nD τ).loc main_arg1) : FVec Ideal S2x1024x4096 .f32) i : EReal).toReal : ℝ) : EReal))
    (h5 : ∀ i, (m ((c : Thread nD τ).loc main_arg5) : FVec Ideal S32000x4096 .f32) i
      = ((((m ((c : Thread nD τ).loc main_arg5) : FVec Ideal S32000x4096 .f32) i : EReal).toReal : ℝ) : EReal)) :
    tokOf (F := Ideal) (left1 m c : FVec Ideal S2048x1 .f32)
      = (tokArr (m ((c : Thread nD τ).loc main_arg1)) (m ((c : Thread nD τ).loc main_arg5)) (m ((c : Thread nD τ).loc main_arg2)) : FVec Ideal S2x1024 .f32) := by
  funext i
  obtain ⟨b, t, rfl⟩ : ∃ (b : Fin 2) (t : Fin 1024), i = ix2 b t := ⟨i 0, i 1, eq_ix2 i⟩
  rw [tokOf_apply, tokArr_apply, tokAt_of_row]
  have eAct : ∀ (r : Fin 2048) (k : Fin 4096), (entry1 m c main_v17 : S2048x4096.Idx → EReal) (ix2 r k)
      = (m ((c : Thread nD τ).loc main_arg1) : FVec Ideal S2x1024x4096 .f32)
          (ix3 (⟨r.val / 1024, by have := r.isLt; omega⟩ : Fin 2) (⟨r.val % 1024, Nat.mod_lt _ (by decide)⟩ : Fin 1024) k) := fun r k => by
    show (between m c main_v17 : S2048x4096.Idx → EReal) (ix2 r k) = _
    rw [← V7_eq m c]; exact V7_v17_apply m (leftBy m) c r k
  have eW : (entry1 m c main_arg5 : S32000x4096.Idx → EReal) = m ((c : Thread nD τ).loc main_arg5) := by
    show (between m c main_arg5 : S32000x4096.Idx → EReal) = _
    rw [← V7_eq m c]; exact V7_arg5 m (leftBy m) c
  have eY : ∀ r : Fin 2048, (entry1 m c main_v19 : S2048x1.Idx → BitVec 32) (ix2 r (0 : Fin 1))
      = clipWord ((m ((c : Thread nD τ).loc main_arg2) : IVec S2x1024 32)
          (ix2 (⟨r.val / 1024, by have := r.isLt; omega⟩ : Fin 2) (⟨r.val % 1024, Nat.mod_lt _ (by decide)⟩ : Fin 1024))) := fun r => by
    show (between m c main_v19 : S2048x1.Idx → BitVec 32) (ix2 r (0 : Fin 1)) = _
    rw [← V7_eq m c]; exact V7_v19_apply m (leftBy m) c r
  have hx : ∀ i : S2048x4096.Idx, (entry1 m c main_v17 : S2048x4096.Idx → EReal) i
      = ((((entry1 m c main_v17 : S2048x4096.Idx → EReal) i).toReal : ℝ) : EReal) := fun i => by
    obtain ⟨r, k, rfl⟩ : ∃ (r : Fin 2048) (k : Fin 4096), i = ix2 r k := ⟨i 0, i 1, eq_ix2 i⟩
    rw [eAct r k]; exact h1 _
  have hw : ∀ i : S32000x4096.Idx, (entry1 m c main_arg5 : S32000x4096.Idx → EReal) i
      = ((((entry1 m c main_arg5 : S32000x4096.Idx → EReal) i).toReal : ℝ) : EReal) := fun i => by
    rw [eW]; exact h5 i
  have hy : ∀ r : Fin 2048, ((entry1 m c main_v19 : S2048x1.Idx → BitVec 32) (ix2 r (0 : Fin 1))).toNat < 32000 := fun r => by
    rw [eY r]; exact clipWord_lt _
  have key := Frozen.arrAt_out_tokLogp (entry1 m) c hx hw hy ⟨1024 * b.val + t.val, row_lt b t⟩
  unfold left1
  refine key.trans ?_
  refine congrArg (fun z : ℝ => (z : EReal)) (tokLogpR_congr _ _ (funext fun k => ?_) (funext fun v => funext fun k => ?_) ?_)
  · exact congrArg EReal.toReal (eAct ⟨1024 * b.val + t.val, row_lt b t⟩ k)
  · exact congrArg EReal.toReal (congrFun eW (ix2 v k))
  · exact congrArg BitVec.toNat (eY ⟨1024 * b.val + t.val, row_lt b t⟩)

/-- The program's result: the loss of the two masked means of the token log-probabilities. -/
theorem result
    (h0 : ∀ i, (m ((c : Thread nD τ).loc main_arg0) : FVec Ideal S2x1024x4096 .f32) i
      = ((((m ((c : Thread nD τ).loc main_arg0) : FVec Ideal S2x1024x4096 .f32) i : EReal).toReal : ℝ) : EReal))
    (h1 : ∀ i, (m ((c : Thread nD τ).loc main_arg1) : FVec Ideal S2x1024x4096 .f32) i
      = ((((m ((c : Thread nD τ).loc main_arg1) : FVec Ideal S2x1024x4096 .f32) i : EReal).toReal : ℝ) : EReal))
    (h4 : ∀ i, (m ((c : Thread nD τ).loc main_arg4) : FVec Ideal S32000x4096 .f32) i
      = ((((m ((c : Thread nD τ).loc main_arg4) : FVec Ideal S32000x4096 .f32) i : EReal).toReal : ℝ) : EReal))
    (h5 : ∀ i, (m ((c : Thread nD τ).loc main_arg5) : FVec Ideal S32000x4096 .f32) i
      = ((((m ((c : Thread nD τ).loc main_arg5) : FVec Ideal S32000x4096 .f32) i : EReal).toReal : ℝ) : EReal)) :
    (V11 m (leftBy m) c main_v47 : FVec Ideal S_ .f32)
      = Cert.Loss.loss (F := Ideal) bcast_S_S2 reducesTo_S2_S_d0 h_S_
          (Cert.Loss.seqMean (F := Ideal) bcast_S_S2x1024 reducesTo_S2x1024_S2_d1 h_S_ bcast_S_S2
            (tokArr (m ((c : Thread nD τ).loc main_arg0)) (m ((c : Thread nD τ).loc main_arg4)) (m ((c : Thread nD τ).loc main_arg2)))
            (m ((c : Thread nD τ).loc main_arg2) : IVec S2x1024 32))
          (Cert.Loss.seqMean (F := Ideal) bcast_S_S2x1024 reducesTo_S2x1024_S2_d1 h_S_ bcast_S_S2
            (tokArr (m ((c : Thread nD τ).loc main_arg1)) (m ((c : Thread nD τ).loc main_arg5)) (m ((c : Thread nD τ).loc main_arg2)))
            (m ((c : Thread nD τ).loc main_arg2) : IVec S2x1024 32))
          (m ((c : Thread nD τ).loc main_arg3) : IVec S2 1) := by
  rw [V11_v47, leftBy_first, leftBy_second, first_tok m c h0 h4, second_tok m c h1 h5]

end Cert.KernelIdeal.Bridge

end
-- ==== Proof.Finite.lean ====
/-
  What the precondition says: every entry of the four float arguments is a real number (neither infinity).
-/
import proofs.«410554_j45887430590963_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic

/-- The scalar shape has exactly one index. -/
instance : Subsingleton Cert.Pre_finite_inputs.S_.Idx := ⟨fun a b => funext fun d => d.elim0⟩

/-- The word 0x7F800000 denotes +infinity. -/
theorem inf_word : Ideal.ofBits .f32 0x7F800000#32 = (⊤ : EReal) := by simp [Ideal.ofBits, Ideal.ieee]

/-- An extended real x with max x (-x) < +infinity is neither infinity, hence the coercion of a real. -/
theorem real_of_abs_lt (x : Ideal .f32)
    (hx : FloatOps.cmpf (F := Ideal) .olt (FloatOps.hostAbsf x) (FloatOps.ofBits .f32 0x7F800000#32) = 1#1) :
    x = (((x : EReal).toReal : ℝ) : EReal) := by
  change Ideal.cmp .olt (max (x : EReal) (-x)) (Ideal.ofBits .f32 0x7F800000#32) = 1#1 at hx
  rw [inf_word] at hx
  have hlt : max (x : EReal) (-x) < ⊤ := by
    by_contra hn
    simp [Ideal.cmp, hn] at hx
  have h1 : (x : EReal) ≠ ⊤ := fun e => by rw [e] at hlt; simp at hlt
  have h2 : (x : EReal) ≠ ⊥ := fun e => by rw [e] at hlt; simp at hlt
  exact (EReal.coe_toReal h1 h2).symm

/-- If the printed predicate "all four float arrays are entrywise of absolute value below +infinity" evaluates to true,
    then every entry of each of them is (the coercion of) a real number. -/
theorem entries_real [Cert.Pre_finite_inputs.Facts]
    (a0 a1 : FVec Ideal Cert.Pre_finite_inputs.S2x1024x4096 .f32) (a2 : IVec Cert.Pre_finite_inputs.S2x1024 32)
    (a3 : IVec Cert.Pre_finite_inputs.S2 1) (a4 a5 : FVec Ideal Cert.Pre_finite_inputs.S32000x4096 .f32)
    (h : Cert.Pre_finite_inputs.fn (F := Ideal) a0 a1 a2 a3 a4 a5 = fun _ => 1#1) :
    (∀ i, a0 i = (((a0 i).toReal : ℝ) : EReal)) ∧ (∀ i, a1 i = (((a1 i).toReal : ℝ) : EReal))
      ∧ (∀ i, a4 i = (((a4 i).toReal : ℝ) : EReal)) ∧ (∀ i, a5 i = (((a5 i).toReal : ℝ) : EReal)) := by
  -- the value of the predicate at its one index is a conjunction of four "all entries" reductions
  have h0 := congrFun h ValueIdx.ix0
  dsimp only [Cert.Pre_finite_inputs.fn, Cert.Pre_finite_inputs.fn_part1] at h0
  change IntOp.andi (IntOp.andi (IntOp.andi _ _) _) _ = 1#1 at h0
  obtain ⟨h0, e5⟩ := IntOp.andi_eq_one.1 h0
  obtain ⟨h0, e4⟩ := IntOp.andi_eq_one.1 h0
  obtain ⟨e0, e1⟩ := IntOp.andi_eq_one.1 h0
  -- each reduction by "and" that is 1 had a 1 at every entry, i.e. |x| < +infinity there
  refine ⟨fun i => ?_, fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e4 i)
  · exact real_of_abs_lt _ (Host.reduce_andi_all _ _ _ _ _ e5 i)

end Cert.Finite

end
-- ==== Proof.RefRun.lean ====
/-
  The reference program is host operations only. Its @main is the list of its 148 operations, in order, a called
  function's operations standing in its call's place: `opsT` spells a called function's operations with the builders over
  typed references, as @main's text does (`main_eqT`), and `ops` spells every operation with the plain builders at the
  literal buffers; the two lists are equal operation by operation (`opsT_eq`: a typed reference's transport of a value
  along the equation between the buffer's type and the value's is the identity at a literal buffer), so @main is the
  sequence of `ops` (`main_eq`). Every weakly fair execution terminates with each buffer at the fold of the operations'
  results over the launch memory; the result buffer's fold is the composed term `res_main_v45` of the arguments' launch
  contents (`res_out0` by its position among the results), and the arguments are unchanged (`run`).
-/
import proofs.«410554_j45887430590963_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 148 operations, in order, a called function's operations (in its call's place) over typed references. -/
abbrev opsT : List (HloOp τ sig (Elt F)) :=
  [ binary main_arg0 main_arg4 main_v0 ((fun l r => Host.dotGeneral dot_S2x1024x4096_S32000x4096_S2x1024x32000_2_1_01_0_n_n none l r) : (⟨S2x1024x4096, .f32⟩ : BufTy).Contents (Elt F) → (⟨S32000x4096, .f32⟩ : BufTy).Contents (Elt F) → (⟨S2x1024x32000, .f32⟩ : BufTy).Contents (Elt F)),
    TRef.nullary (TRef.of (T := ⟨S_, .f32⟩) main_call0_cst) (constant S_ .f32 0xFF800000#32),
    TRef.binary (TRef.of (T := ⟨S2x1024x32000, .f32⟩) main_v0) (TRef.of (T := ⟨S_, .f32⟩) main_call0_cst) (TRef.of (T := ⟨S2x1024, .f32⟩) main_call0_v0) (fun x v => Host.reduce FloatOps.maximumf x v reducesTo_S2x1024x32000_S2x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2x1024, .f32⟩) main_call0_v1) (broadcastInDim S2x1024 ![] bcast_S_S2x1024),
    TRef.binary (TRef.of (T := ⟨S2x1024, .f32⟩) main_call0_v1) (TRef.of (T := ⟨S2x1024, .f32⟩) main_call0_v0) (TRef.of (T := ⟨S2x1024, .f32⟩) main_call0_v2) maximumf,
    TRef.unary (TRef.of (T := ⟨S2x1024, .f32⟩) main_call0_v2) (TRef.of (T := ⟨S2x1024x1, .f32⟩) main_call0_v3) (broadcastInDim S2x1024x1 ![0, 1] bcast_S2x1024_S2x1024x1_0_1),
    TRef.unary (TRef.of (T := ⟨S2x1024x1, .f32⟩) main_call0_v3) (TRef.of (T := ⟨S2x1024x32000, .f32⟩) main_call0_v4) (broadcastInDim S2x1024x32000 ![0, 1, 2] bcast_S2x1024x1_S2x1024x32000_0_1_2),
    TRef.binary (TRef.of (T := ⟨S2x1024x32000, .f32⟩) main_v0) (TRef.of (T := ⟨S2x1024x32000, .f32⟩) main_call0_v4) (TRef.of (T := ⟨S2x1024x32000, .f32⟩) main_call0_v5) subf,
    TRef.unary (TRef.of (T := ⟨S2x1024x32000, .f32⟩) main_call0_v5) (TRef.of (T := ⟨S2x1024x32000, .f32⟩) main_call0_v6) Host.exp,
    TRef.nullary (TRef.of (T := ⟨S_, .f32⟩) main_call0_cst_1) (constant S_ .f32 0x00000000#32),
    TRef.binary (TRef.of (T := ⟨S2x1024x32000, .f32⟩) main_call0_v6) (TRef.of (T := ⟨S_, .f32⟩) main_call0_cst_1) (TRef.of (T := ⟨S2x1024, .f32⟩) main_call0_v7) (fun x v => Host.reduceAdd x v reducesTo_S2x1024x32000_S2x1024_d2 h_S_),
    TRef.unary (TRef.of (T := ⟨S2x1024, .f32⟩) main_call0_v7) (TRef.of (T := ⟨S2x1024x1, .f32⟩) main_call0_v8) (broadcastInDim S2x1024x1 ![0, 1] bcast_S2x1024_S2x1024x1_0_1),
    TRef.unary (TRef.of (T := ⟨S2x1024x1, .f32⟩) main_call0_v8) (TRef.of (T := ⟨S2x1024x1, .f32⟩) main_call0_v9) Host.log,
    TRef.unary (TRef.of (T := ⟨S2x1024x1, .f32⟩) main_call0_v9) (TRef.of (T := ⟨S2x1024x32000, .f32⟩) main_call0_v10) (broadcastInDim S2x1024x32000 ![0, 1, 2] bcast_S2x1024x1_S2x1024x32000_0_1_2),
    TRef.binary (TRef.of (T := ⟨S2x1024x32000, .f32⟩) main_call0_v5) (TRef.of (T := ⟨S2x1024x32000, .f32⟩) main_call0_v10) (TRef.of (T := ⟨S2x1024x32000, .f32⟩) main_v1) subf,
    nullary main_c (constantI S_ 32 0#32),
    nullary main_c_0 (constantI S_ 32 31999#32),
    TRef.unary (TRef.of (T := ⟨S_, .i32⟩) main_c) (TRef.of (T := ⟨S_, .i32⟩) main_call1_v0) id,
    TRef.unary (TRef.of (T := ⟨S_, .i32⟩) main_call1_v0) (TRef.of (T := ⟨S2x1024, .i32⟩) main_call1_v1) (broadcastInDim S2x1024 ![] bcast_S_S2x1024),
    TRef.binary (TRef.of (T := ⟨S2x1024, .i32⟩) main_call1_v1) (TRef.of (T := ⟨S2x1024, .i32⟩) main_arg2) (TRef.of (T := ⟨S2x1024, .i32⟩) main_call1_v2) maxsi,
    TRef.unary (TRef.of (T := ⟨S_, .i32⟩) main_c_0) (TRef.of (T := ⟨S_, .i32⟩) main_call1_v3) id,
    TRef.unary (TRef.of (T := ⟨S_, .i32⟩) main_call1_v3) (TRef.of (T := ⟨S2x1024, .i32⟩) main_call1_v4) (broadcastInDim S2x1024 ![] bcast_S_S2x1024),
    TRef.binary (TRef.of (T := ⟨S2x1024, .i32⟩) main_call1_v4) (TRef.of (T := ⟨S2x1024, .i32⟩) main_call1_v2) (TRef.of (T := ⟨S2x1024, .i32⟩) main_v2) minsi,
    unary main_v2 main_v3 (broadcastInDim S2x1024x1 ![0, 1] bcast_S2x1024_S2x1024x1_0_1 : (⟨S2x1024, .i32⟩ : BufTy).Contents (Elt F) → (⟨S2x1024x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2x1024x1, .i32⟩) main_call2_v0) (broadcastInDim S2x1024x1 ![] bcast_S_S2x1024x1),
    TRef.binary (TRef.of (T := ⟨S2x1024x1, .i32⟩) main_v3) (TRef.of (T := ⟨S2x1024x1, .i32⟩) main_call2_v0) (TRef.of (T := ⟨S2x1024x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S2x1024x1, .i32⟩) main_call2_v2) (broadcastInDim S2x1024x1 ![] bcast_S_S2x1024x1),
    TRef.binary (TRef.of (T := ⟨S2x1024x1, .i32⟩) main_v3) (TRef.of (T := ⟨S2x1024x1, .i32⟩) main_call2_v2) (TRef.of (T := ⟨S2x1024x1, .i32⟩) main_call2_v3) addi,
    TRef.ternary (TRef.of (T := ⟨S2x1024x1, .i1⟩) main_call2_v1) (TRef.of (T := ⟨S2x1024x1, .i32⟩) main_call2_v3) (TRef.of (T := ⟨S2x1024x1, .i32⟩) main_v3) (TRef.of (T := ⟨S2x1024x1, .i32⟩) main_call2_v4) select,
    TRef.reshape (TRef.of (T := ⟨S2x1024x1, .i32⟩) main_call2_v4) (TRef.of (T := ⟨S2x1024x1x1, .i32⟩) main_call2_v5) rfl shapeCasts_S2x1024x1_S2x1024x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S2x1024x1x1, .i32⟩) main_call2_v6) (broadcastInDim S2x1024x1x1 ![] bcast_S_S2x1024x1x1),
    TRef.binary (TRef.of (T := ⟨S2x1024x1x1, .i32⟩) main_call2_v5) (TRef.of (T := ⟨S2x1024x1x1, .i32⟩) main_call2_v6) (TRef.of (T := ⟨S2x1024x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S2x1024x1x1, .i32⟩) main_call2_v9) (broadcastInDim S2x1024x1x1 ![0, 1, 2, 3] bcast_S1x1x1x1_S2x1024x1x1_0_1_2_3),
    TRef.binary (TRef.of (T := ⟨S2x1024x1x1, .i32⟩) main_call2_v5) (TRef.of (T := ⟨S2x1024x1x1, .i32⟩) main_call2_v9) (TRef.of (T := ⟨S2x1024x1x1, .i1⟩) main_call2_v10) (cmpi .sle),
    TRef.binary (TRef.of (T := ⟨S2x1024x1x1, .i1⟩) main_call2_v7) (TRef.of (T := ⟨S2x1024x1x1, .i1⟩) main_call2_v10) (TRef.of (T := ⟨S2x1024x1x1, .i1⟩) main_call2_v11) andi,
    TRef.nullary (TRef.of (T := ⟨S_, .i1⟩) main_call2_c_3) (constantI S_ 1 1#1),
    TRef.binary (TRef.of (T := ⟨S2x1024x1x1, .i1⟩) main_call2_v11) (TRef.of (T := ⟨S_, .i1⟩) main_call2_c_3) (TRef.of (T := ⟨S2x1024x1, .i1⟩) main_call2_v12) (fun x v => Host.reduce IntOp.andi x v reducesTo_S2x1024x1x1_S2x1024x1_d3 h_S_),
    TRef.binary (TRef.of (T := ⟨S2x1024x32000, .f32⟩) main_v1) (TRef.of (T := ⟨S2x1024x1x1, .i32⟩) main_call2_v5) (TRef.of (T := ⟨S2x1024x1, .f32⟩) main_call2_v13) (fun x i => Host.gather gather_S2x1024x32000_S2x1024x1x1_S2x1024x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S2x1024x1, .f32⟩) main_call2_v14) (broadcastInDim S2x1024x1 ![] bcast_S_S2x1024x1),
    TRef.ternary (TRef.of (T := ⟨S2x1024x1, .i1⟩) main_call2_v12) (TRef.of (T := ⟨S2x1024x1, .f32⟩) main_call2_v13) (TRef.of (T := ⟨S2x1024x1, .f32⟩) main_call2_v14) (TRef.of (T := ⟨S2x1024x1, .f32⟩) main_v4) select,
    reshape main_v4 main_v5 rfl shapeCasts_S2x1024x1_S2x1024,
    nullary main_c_1 (constantI S_ 32 4294967196#32),
    unary main_c_1 main_v6 (broadcastInDim S2x1024 ![] bcast_S_S2x1024 : (⟨S_, .i32⟩ : BufTy).Contents (Elt F) → (⟨S2x1024, .i32⟩ : BufTy).Contents (Elt F)),
    binary main_arg2 main_v6 main_v7 (cmpi .ne : (⟨S2x1024, .i32⟩ : BufTy).Contents (Elt F) → (⟨S2x1024, .i32⟩ : BufTy).Contents (Elt F) → (⟨S2x1024, .i1⟩ : BufTy).Contents (Elt F)),
    unary main_v7 main_v8 (uitofp .f32 : (⟨S2x1024, .i1⟩ : BufTy).Contents (Elt F) → (⟨S2x1024, .f32⟩ : BufTy).Contents (Elt F)),
    binary main_v5 main_v8 main_v9 (mulf : (⟨S2x1024, .f32⟩ : BufTy).Contents (Elt F) → (⟨S2x1024, .f32⟩ : BufTy).Contents (Elt F) → (⟨S2x1024, .f32⟩ : BufTy).Contents (Elt F)),
    nullary main_cst (constant S_ .f32 0x00000000#32),
    binary main_v9 main_cst main_v10 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_2 (constant S_ .f32 0x00000000#32),
    binary main_v8 main_cst_2 main_v11 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_3 (constant S_ .f32 0x3F800000#32),
    unary main_cst_3 main_v12 (broadcastInDim S2 ![] bcast_S_S2 : (⟨S_, .f32⟩ : BufTy).Contents (Elt F) → (⟨S2, .f32⟩ : BufTy).Contents (Elt F)),
    binary main_v11 main_v12 main_v13 (maximumf : (⟨S2, .f32⟩ : BufTy).Contents (Elt F) → (⟨S2, .f32⟩ : BufTy).Contents (Elt F) → (⟨S2, .f32⟩ : BufTy).Contents (Elt F)),
    binary main_v10 main_v13 main_v14 (Host.divf : (⟨S2, .f32⟩ : BufTy).Contents (Elt F) → (⟨S2, .f32⟩ : BufTy).Contents (Elt F) → (⟨S2, .f32⟩ : BufTy).Contents (Elt F)),
    binary main_arg1 main_arg5 main_v15 ((fun l r => Host.dotGeneral dot_S2x1024x4096_S32000x4096_S2x1024x32000_2_1_01_0_n_n none l r) : (⟨S2x1024x4096, .f32⟩ : BufTy).Contents (Elt F) → (⟨S32000x4096, .f32⟩ : BufTy).Contents (Elt F) → (⟨S2x1024x32000, .f32⟩ : BufTy).Contents (Elt F)),
    TRef.nullary (TRef.of (T := ⟨S_, .f32⟩) main_call3_cst) (constant S_ .f32 0xFF800000#32),
    TRef.binary (TRef.of (T := ⟨S2x1024x32000, .f32⟩) main_v15) (TRef.of (T := ⟨S_, .f32⟩) main_call3_cst) (TRef.of (T := ⟨S2x1024, .f32⟩) main_call3_v0) (fun x v => Host.reduce FloatOps.maximumf x v reducesTo_S2x1024x32000_S2x1024_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S2x1024, .f32⟩) main_call3_v1) (broadcastInDim S2x1024 ![] bcast_S_S2x1024),
    TRef.binary (TRef.of (T := ⟨S2x1024, .f32⟩) main_call3_v1) (TRef.of (T := ⟨S2x1024, .f32⟩) main_call3_v0) (TRef.of (T := ⟨S2x1024, .f32⟩) main_call3_v2) maximumf,
    TRef.unary (TRef.of (T := ⟨S2x1024, .f32⟩) main_call3_v2) (TRef.of (T := ⟨S2x1024x1, .f32⟩) main_call3_v3) (broadcastInDim S2x1024x1 ![0, 1] bcast_S2x1024_S2x1024x1_0_1),
    TRef.unary (TRef.of (T := ⟨S2x1024x1, .f32⟩) main_call3_v3) (TRef.of (T := ⟨S2x1024x32000, .f32⟩) main_call3_v4) (broadcastInDim S2x1024x32000 ![0, 1, 2] bcast_S2x1024x1_S2x1024x32000_0_1_2),
    TRef.binary (TRef.of (T := ⟨S2x1024x32000, .f32⟩) main_v15) (TRef.of (T := ⟨S2x1024x32000, .f32⟩) main_call3_v4) (TRef.of (T := ⟨S2x1024x32000, .f32⟩) main_call3_v5) subf,
    TRef.unary (TRef.of (T := ⟨S2x1024x32000, .f32⟩) main_call3_v5) (TRef.of (T := ⟨S2x1024x32000, .f32⟩) main_call3_v6) Host.exp,
    TRef.nullary (TRef.of (T := ⟨S_, .f32⟩) main_call3_cst_1) (constant S_ .f32 0x00000000#32),
    TRef.binary (TRef.of (T := ⟨S2x1024x32000, .f32⟩) main_call3_v6) (TRef.of (T := ⟨S_, .f32⟩) main_call3_cst_1) (TRef.of (T := ⟨S2x1024, .f32⟩) main_call3_v7) (fun x v => Host.reduceAdd x v reducesTo_S2x1024x32000_S2x1024_d2 h_S_),
    TRef.unary (TRef.of (T := ⟨S2x1024, .f32⟩) main_call3_v7) (TRef.of (T := ⟨S2x1024x1, .f32⟩) main_call3_v8) (broadcastInDim S2x1024x1 ![0, 1] bcast_S2x1024_S2x1024x1_0_1),
    TRef.unary (TRef.of (T := ⟨S2x1024x1, .f32⟩) main_call3_v8) (TRef.of (T := ⟨S2x1024x1, .f32⟩) main_call3_v9) Host.log,
    TRef.unary (TRef.of (T := ⟨S2x1024x1, .f32⟩) main_call3_v9) (TRef.of (T := ⟨S2x1024x32000, .f32⟩) main_call3_v10) (broadcastInDim S2x1024x32000 ![0, 1, 2] bcast_S2x1024x1_S2x1024x32000_0_1_2),
    TRef.binary (TRef.of (T := ⟨S2x1024x32000, .f32⟩) main_call3_v5) (TRef.of (T := ⟨S2x1024x32000, .f32⟩) main_call3_v10) (TRef.of (T := ⟨S2x1024x32000, .f32⟩) main_v16) subf,
    nullary main_c_4 (constantI S_ 32 0#32),
    nullary main_c_5 (constantI S_ 32 31999#32),
    TRef.unary (TRef.of (T := ⟨S_, .i32⟩) main_c_4) (TRef.of (T := ⟨S_, .i32⟩) main_call4_v0) id,
    TRef.unary (TRef.of (T := ⟨S_, .i32⟩) main_call4_v0) (TRef.of (T := ⟨S2x1024, .i32⟩) main_call4_v1) (broadcastInDim S2x1024 ![] bcast_S_S2x1024),
    TRef.binary (TRef.of (T := ⟨S2x1024, .i32⟩) main_call4_v1) (TRef.of (T := ⟨S2x1024, .i32⟩) main_arg2) (TRef.of (T := ⟨S2x1024, .i32⟩) main_call4_v2) maxsi,
    TRef.unary (TRef.of (T := ⟨S_, .i32⟩) main_c_5) (TRef.of (T := ⟨S_, .i32⟩) main_call4_v3) id,
    TRef.unary (TRef.of (T := ⟨S_, .i32⟩) main_call4_v3) (TRef.of (T := ⟨S2x1024, .i32⟩) main_call4_v4) (broadcastInDim S2x1024 ![] bcast_S_S2x1024),
    TRef.binary (TRef.of (T := ⟨S2x1024, .i32⟩) main_call4_v4) (TRef.of (T := ⟨S2x1024, .i32⟩) main_call4_v2) (TRef.of (T := ⟨S2x1024, .i32⟩) main_v17) minsi,
    unary main_v17 main_v18 (broadcastInDim S2x1024x1 ![0, 1] bcast_S2x1024_S2x1024x1_0_1 : (⟨S2x1024, .i32⟩ : BufTy).Contents (Elt F) → (⟨S2x1024x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S2x1024x1, .i32⟩) main_call5_v0) (broadcastInDim S2x1024x1 ![] bcast_S_S2x1024x1),
    TRef.binary (TRef.of (T := ⟨S2x1024x1, .i32⟩) main_v18) (TRef.of (T := ⟨S2x1024x1, .i32⟩) main_call5_v0) (TRef.of (T := ⟨S2x1024x1, .i1⟩) main_call5_v1) (cmpi .slt),
    TRef.nullary (TRef.of (T := ⟨S_, .i32⟩) main_call5_c_0) (constantI S_ 32 32000#32),
    TRef.unary (TRef.of (T := ⟨S_, .i32⟩) main_call5_c_0) (TRef.of (T := ⟨S2x1024x1, .i32⟩) main_call5_v2) (broadcastInDim S2x1024x1 ![] bcast_S_S2x1024x1),
    TRef.binary (TRef.of (T := ⟨S2x1024x1, .i32⟩) main_v18) (TRef.of (T := ⟨S2x1024x1, .i32⟩) main_call5_v2) (TRef.of (T := ⟨S2x1024x1, .i32⟩) main_call5_v3) addi,
    TRef.ternary (TRef.of (T := ⟨S2x1024x1, .i1⟩) main_call5_v1) (TRef.of (T := ⟨S2x1024x1, .i32⟩) main_call5_v3) (TRef.of (T := ⟨S2x1024x1, .i32⟩) main_v18) (TRef.of (T := ⟨S2x1024x1, .i32⟩) main_call5_v4) select,
    TRef.reshape (TRef.of (T := ⟨S2x1024x1, .i32⟩) main_call5_v4) (TRef.of (T := ⟨S2x1024x1x1, .i32⟩) main_call5_v5) rfl shapeCasts_S2x1024x1_S2x1024x1x1,
    TRef.nullary (TRef.of (T := ⟨S1, .i32⟩) main_call5_c_1) (constantI S1 32 31999#32),
    TRef.nullary (TRef.of (T := ⟨S_, .i32⟩) main_call5_c_2) (constantI S_ 32 0#32),
    TRef.unary (TRef.of (T := ⟨S_, .i32⟩) main_call5_c_2) (TRef.of (T := ⟨S2x1024x1x1, .i32⟩) main_call5_v6) (broadcastInDim S2x1024x1x1 ![] bcast_S_S2x1024x1x1),
    TRef.binary (TRef.of (T := ⟨S2x1024x1x1, .i32⟩) main_call5_v5) (TRef.of (T := ⟨S2x1024x1x1, .i32⟩) main_call5_v6) (TRef.of (T := ⟨S2x1024x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S2x1024x1x1, .i32⟩) main_call5_v9) (broadcastInDim S2x1024x1x1 ![0, 1, 2, 3] bcast_S1x1x1x1_S2x1024x1x1_0_1_2_3),
    TRef.binary (TRef.of (T := ⟨S2x1024x1x1, .i32⟩) main_call5_v5) (TRef.of (T := ⟨S2x1024x1x1, .i32⟩) main_call5_v9) (TRef.of (T := ⟨S2x1024x1x1, .i1⟩) main_call5_v10) (cmpi .sle),
    TRef.binary (TRef.of (T := ⟨S2x1024x1x1, .i1⟩) main_call5_v7) (TRef.of (T := ⟨S2x1024x1x1, .i1⟩) main_call5_v10) (TRef.of (T := ⟨S2x1024x1x1, .i1⟩) main_call5_v11) andi,
    TRef.nullary (TRef.of (T := ⟨S_, .i1⟩) main_call5_c_3) (constantI S_ 1 1#1),
    TRef.binary (TRef.of (T := ⟨S2x1024x1x1, .i1⟩) main_call5_v11) (TRef.of (T := ⟨S_, .i1⟩) main_call5_c_3) (TRef.of (T := ⟨S2x1024x1, .i1⟩) main_call5_v12) (fun x v => Host.reduce IntOp.andi x v reducesTo_S2x1024x1x1_S2x1024x1_d3 h_S_),
    TRef.binary (TRef.of (T := ⟨S2x1024x32000, .f32⟩) main_v16) (TRef.of (T := ⟨S2x1024x1x1, .i32⟩) main_call5_v5) (TRef.of (T := ⟨S2x1024x1, .f32⟩) main_call5_v13) (fun x i => Host.gather gather_S2x1024x32000_S2x1024x1x1_S2x1024x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S2x1024x1, .f32⟩) main_call5_v14) (broadcastInDim S2x1024x1 ![] bcast_S_S2x1024x1),
    TRef.ternary (TRef.of (T := ⟨S2x1024x1, .i1⟩) main_call5_v12) (TRef.of (T := ⟨S2x1024x1, .f32⟩) main_call5_v13) (TRef.of (T := ⟨S2x1024x1, .f32⟩) main_call5_v14) (TRef.of (T := ⟨S2x1024x1, .f32⟩) main_v19) select,
    reshape main_v19 main_v20 rfl shapeCasts_S2x1024x1_S2x1024,
    nullary main_c_6 (constantI S_ 32 4294967196#32),
    unary main_c_6 main_v21 (broadcastInDim S2x1024 ![] bcast_S_S2x1024 : (⟨S_, .i32⟩ : BufTy).Contents (Elt F) → (⟨S2x1024, .i32⟩ : BufTy).Contents (Elt F)),
    binary main_arg2 main_v21 main_v22 (cmpi .ne : (⟨S2x1024, .i32⟩ : BufTy).Contents (Elt F) → (⟨S2x1024, .i32⟩ : BufTy).Contents (Elt F) → (⟨S2x1024, .i1⟩ : BufTy).Contents (Elt F)),
    unary main_v22 main_v23 (uitofp .f32 : (⟨S2x1024, .i1⟩ : BufTy).Contents (Elt F) → (⟨S2x1024, .f32⟩ : BufTy).Contents (Elt F)),
    binary main_v20 main_v23 main_v24 (mulf : (⟨S2x1024, .f32⟩ : BufTy).Contents (Elt F) → (⟨S2x1024, .f32⟩ : BufTy).Contents (Elt F) → (⟨S2x1024, .f32⟩ : BufTy).Contents (Elt F)),
    nullary main_cst_7 (constant S_ .f32 0x00000000#32),
    binary main_v24 main_cst_7 main_v25 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_8 (constant S_ .f32 0x00000000#32),
    binary main_v23 main_cst_8 main_v26 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_9 (constant S_ .f32 0x3F800000#32),
    unary main_cst_9 main_v27 (broadcastInDim S2 ![] bcast_S_S2 : (⟨S_, .f32⟩ : BufTy).Contents (Elt F) → (⟨S2, .f32⟩ : BufTy).Contents (Elt F)),
    binary main_v26 main_v27 main_v28 (maximumf : (⟨S2, .f32⟩ : BufTy).Contents (Elt F) → (⟨S2, .f32⟩ : BufTy).Contents (Elt F) → (⟨S2, .f32⟩ : BufTy).Contents (Elt F)),
    binary main_v25 main_v28 main_v29 (Host.divf : (⟨S2, .f32⟩ : BufTy).Contents (Elt F) → (⟨S2, .f32⟩ : BufTy).Contents (Elt F) → (⟨S2, .f32⟩ : BufTy).Contents (Elt F)),
    binary main_v14 main_v29 main_v30 (subf : (⟨S2, .f32⟩ : BufTy).Contents (Elt F) → (⟨S2, .f32⟩ : BufTy).Contents (Elt F) → (⟨S2, .f32⟩ : BufTy).Contents (Elt F)),
    nullary main_cst_10 (constant S_ .f32 0x3F800000#32),
    nullary main_cst_11 (constant S_ .f32 0xBF800000#32),
    TRef.unary (TRef.of (T := ⟨S_, .f32⟩) main_cst_10) (TRef.of (T := ⟨S2, .f32⟩) main_call6_v0) (broadcastInDim S2 ![] bcast_S_S2),
    TRef.unary (TRef.of (T := ⟨S_, .f32⟩) main_cst_11) (TRef.of (T := ⟨S2, .f32⟩) main_call6_v1) (broadcastInDim S2 ![] bcast_S_S2),
    TRef.ternary (TRef.of (T := ⟨S2, .i1⟩) main_arg3) (TRef.of (T := ⟨S2, .f32⟩) main_call6_v0) (TRef.of (T := ⟨S2, .f32⟩) main_call6_v1) (TRef.of (T := ⟨S2, .f32⟩) main_v31) select,
    nullary main_cst_12 (constant S_ .f32 0x3DCCCCCD#32),
    unary main_cst_12 main_v32 (broadcastInDim S2 ![] bcast_S_S2 : (⟨S_, .f32⟩ : BufTy).Contents (Elt F) → (⟨S2, .f32⟩ : BufTy).Contents (Elt F)),
    binary main_v32 main_v30 main_v33 (mulf : (⟨S2, .f32⟩ : BufTy).Contents (Elt F) → (⟨S2, .f32⟩ : BufTy).Contents (Elt F) → (⟨S2, .f32⟩ : BufTy).Contents (Elt F)),
    unary main_v31 main_v34 (id : (⟨S2, .f32⟩ : BufTy).Contents (Elt F) → (⟨S2, .f32⟩ : BufTy).Contents (Elt F)),
    binary main_v33 main_v34 main_v35 (mulf : (⟨S2, .f32⟩ : BufTy).Contents (Elt F) → (⟨S2, .f32⟩ : BufTy).Contents (Elt F) → (⟨S2, .f32⟩ : BufTy).Contents (Elt F)),
    unary main_v35 main_v36 (Host.negf : (⟨S2, .f32⟩ : BufTy).Contents (Elt F) → (⟨S2, .f32⟩ : BufTy).Contents (Elt F)),
    unary main_v36 main_v37 (Host.exp : (⟨S2, .f32⟩ : BufTy).Contents (Elt F) → (⟨S2, .f32⟩ : BufTy).Contents (Elt F)),
    nullary main_cst_13 (constant S_ .f32 0x3F800000#32),
    unary main_cst_13 main_v38 (broadcastInDim S2 ![] bcast_S_S2 : (⟨S_, .f32⟩ : BufTy).Contents (Elt F) → (⟨S2, .f32⟩ : BufTy).Contents (Elt F)),
    binary main_v38 main_v37 main_v39 (addf : (⟨S2, .f32⟩ : BufTy).Contents (Elt F) → (⟨S2, .f32⟩ : BufTy).Contents (Elt F) → (⟨S2, .f32⟩ : BufTy).Contents (Elt F)),
    nullary main_cst_14 (constant S_ .f32 0x3F800000#32),
    unary main_cst_14 main_v40 (broadcastInDim S2 ![] bcast_S_S2 : (⟨S_, .f32⟩ : BufTy).Contents (Elt F) → (⟨S2, .f32⟩ : BufTy).Contents (Elt F)),
    binary main_v40 main_v39 main_v41 (Host.divf : (⟨S2, .f32⟩ : BufTy).Contents (Elt F) → (⟨S2, .f32⟩ : BufTy).Contents (Elt F) → (⟨S2, .f32⟩ : BufTy).Contents (Elt F)),
    nullary main_cst_15 (constant S_ .f32 0x3F800000#32),
    unary main_cst_15 main_v42 (broadcastInDim S2 ![] bcast_S_S2 : (⟨S_, .f32⟩ : BufTy).Contents (Elt F) → (⟨S2, .f32⟩ : BufTy).Contents (Elt F)),
    binary main_v42 main_v41 main_v43 (subf : (⟨S2, .f32⟩ : BufTy).Contents (Elt F) → (⟨S2, .f32⟩ : BufTy).Contents (Elt F) → (⟨S2, .f32⟩ : BufTy).Contents (Elt F)),
    nullary main_cst_16 (constant S_ .f32 0x00000000#32),
    binary main_v43 main_cst_16 main_v44 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_17 (constant S_ .f32 0x40000000#32),
    binary main_v44 main_cst_17 main_v45 (Host.divf : (⟨S_, .f32⟩ : BufTy).Contents (Elt F) → (⟨S_, .f32⟩ : BufTy).Contents (Elt F) → (⟨S_, .f32⟩ : BufTy).Contents (Elt F)) ]

/-- The same 148 operations, every one with the plain builders at the literal buffers. -/
abbrev ops : List (HloOp τ sig (Elt F)) :=
  [ binary main_arg0 main_arg4 main_v0 ((fun l r => Host.dotGeneral dot_S2x1024x4096_S32000x4096_S2x1024x32000_2_1_01_0_n_n none l r) : (⟨S2x1024x4096, .f32⟩ : BufTy).Contents (Elt F) → (⟨S32000x4096, .f32⟩ : BufTy).Contents (Elt F) → (⟨S2x1024x32000, .f32⟩ : BufTy).Contents (Elt F)),
    nullary main_call0_cst ((constant S_ .f32 0xFF800000#32) : (⟨S_, .f32⟩ : BufTy).Contents (Elt F)),
    binary main_v0 main_call0_cst main_call0_v0 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    nullary main_call0_cst_0 ((constant S_ .f32 0xFF800000#32) : (⟨S_, .f32⟩ : BufTy).Contents (Elt F)),
    unary main_call0_cst_0 main_call0_v1 ((broadcastInDim S2x1024 ![] bcast_S_S2x1024) : (⟨S_, .f32⟩ : BufTy).Contents (Elt F) → (⟨S2x1024, .f32⟩ : BufTy).Contents (Elt F)),
    binary main_call0_v1 main_call0_v0 main_call0_v2 (maximumf : (⟨S2x1024, .f32⟩ : BufTy).Contents (Elt F) → (⟨S2x1024, .f32⟩ : BufTy).Contents (Elt F) → (⟨S2x1024, .f32⟩ : BufTy).Contents (Elt F)),
    unary main_call0_v2 main_call0_v3 ((broadcastInDim S2x1024x1 ![0, 1] bcast_S2x1024_S2x1024x1_0_1) : (⟨S2x1024, .f32⟩ : BufTy).Contents (Elt F) → (⟨S2x1024x1, .f32⟩ : BufTy).Contents (Elt F)),
    unary main_call0_v3 main_call0_v4 ((broadcastInDim S2x1024x32000 ![0, 1, 2] bcast_S2x1024x1_S2x1024x32000_0_1_2) : (⟨S2x1024x1, .f32⟩ : BufTy).Contents (Elt F) → (⟨S2x1024x32000, .f32⟩ : BufTy).Contents (Elt F)),
    binary main_v0 main_call0_v4 main_call0_v5 (subf : (⟨S2x1024x32000, .f32⟩ : BufTy).Contents (Elt F) → (⟨S2x1024x32000, .f32⟩ : BufTy).Contents (Elt F) → (⟨S2x1024x32000, .f32⟩ : BufTy).Contents (Elt F)),
    unary main_call0_v5 main_call0_v6 (Host.exp : (⟨S2x1024x32000, .f32⟩ : BufTy).Contents (Elt F) → (⟨S2x1024x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_call0_v7 main_call0_v8 ((broadcastInDim S2x1024x1 ![0, 1] bcast_S2x1024_S2x1024x1_0_1) : (⟨S2x1024, .f32⟩ : BufTy).Contents (Elt F) → (⟨S2x1024x1, .f32⟩ : BufTy).Contents (Elt F)),
    unary main_call0_v8 main_call0_v9 (Host.log : (⟨S2x1024x1, .f32⟩ : BufTy).Contents (Elt F) → (⟨S2x1024x1, .f32⟩ : BufTy).Contents (Elt F)),
    unary main_call0_v9 main_call0_v10 ((broadcastInDim S2x1024x32000 ![0, 1, 2] bcast_S2x1024x1_S2x1024x32000_0_1_2) : (⟨S2x1024x1, .f32⟩ : BufTy).Contents (Elt F) → (⟨S2x1024x32000, .f32⟩ : BufTy).Contents (Elt F)),
    binary main_call0_v5 main_call0_v10 main_v1 (subf : (⟨S2x1024x32000, .f32⟩ : BufTy).Contents (Elt F) → (⟨S2x1024x32000, .f32⟩ : BufTy).Contents (Elt F) → (⟨S2x1024x32000, .f32⟩ : BufTy).Contents (Elt F)),
    nullary main_c (constantI S_ 32 0#32),
    nullary main_c_0 (constantI S_ 32 31999#32),
    unary main_c main_call1_v0 (id : (⟨S_, .i32⟩ : BufTy).Contents (Elt F) → (⟨S_, .i32⟩ : BufTy).Contents (Elt F)),
    unary main_call1_v0 main_call1_v1 ((broadcastInDim S2x1024 ![] bcast_S_S2x1024) : (⟨S_, .i32⟩ : BufTy).Contents (Elt F) → (⟨S2x1024, .i32⟩ : BufTy).Contents (Elt F)),
    binary main_call1_v1 main_arg2 main_call1_v2 (maxsi : (⟨S2x1024, .i32⟩ : BufTy).Contents (Elt F) → (⟨S2x1024, .i32⟩ : BufTy).Contents (Elt F) → (⟨S2x1024, .i32⟩ : BufTy).Contents (Elt F)),
    unary main_c_0 main_call1_v3 (id : (⟨S_, .i32⟩ : BufTy).Contents (Elt F) → (⟨S_, .i32⟩ : BufTy).Contents (Elt F)),
    unary main_call1_v3 main_call1_v4 ((broadcastInDim S2x1024 ![] bcast_S_S2x1024) : (⟨S_, .i32⟩ : BufTy).Contents (Elt F) → (⟨S2x1024, .i32⟩ : BufTy).Contents (Elt F)),
    binary main_call1_v4 main_call1_v2 main_v2 (minsi : (⟨S2x1024, .i32⟩ : BufTy).Contents (Elt F) → (⟨S2x1024, .i32⟩ : BufTy).Contents (Elt F) → (⟨S2x1024, .i32⟩ : BufTy).Contents (Elt F)),
    unary main_v2 main_v3 (broadcastInDim S2x1024x1 ![0, 1] bcast_S2x1024_S2x1024x1_0_1 : (⟨S2x1024, .i32⟩ : BufTy).Contents (Elt F) → (⟨S2x1024x1, .i32⟩ : BufTy).Contents (Elt F)),
    nullary main_call2_c ((constantI S_ 32 0#32) : (⟨S_, .i32⟩ : BufTy).Contents (Elt F)),
    unary main_call2_c main_call2_v0 ((broadcastInDim S2x1024x1 ![] bcast_S_S2x1024x1) : (⟨S_, .i32⟩ : BufTy).Contents (Elt F) → (⟨S2x1024x1, .i32⟩ : BufTy).Contents (Elt F)),
    binary main_v3 main_call2_v0 main_call2_v1 ((cmpi .slt) : (⟨S2x1024x1, .i32⟩ : BufTy).Contents (Elt F) → (⟨S2x1024x1, .i32⟩ : BufTy).Contents (Elt F) → (⟨S2x1024x1, .i1⟩ : BufTy).Contents (Elt F)),
    nullary main_call2_c_0 ((constantI S_ 32 32000#32) : (⟨S_, .i32⟩ : BufTy).Contents (Elt F)),
    unary main_call2_c_0 main_call2_v2 ((broadcastInDim S2x1024x1 ![] bcast_S_S2x1024x1) : (⟨S_, .i32⟩ : BufTy).Contents (Elt F) → (⟨S2x1024x1, .i32⟩ : BufTy).Contents (Elt F)),
    binary main_v3 main_call2_v2 main_call2_v3 (addi : (⟨S2x1024x1, .i32⟩ : BufTy).Contents (Elt F) → (⟨S2x1024x1, .i32⟩ : BufTy).Contents (Elt F) → (⟨S2x1024x1, .i32⟩ : BufTy).Contents (Elt F)),
    ternary main_call2_v1 main_call2_v3 main_v3 main_call2_v4 (select : (⟨S2x1024x1, .i1⟩ : BufTy).Contents (Elt F) → (⟨S2x1024x1, .i32⟩ : BufTy).Contents (Elt F) → (⟨S2x1024x1, .i32⟩ : BufTy).Contents (Elt F) → (⟨S2x1024x1, .i32⟩ : BufTy).Contents (Elt F)),
    reshape main_call2_v4 main_call2_v5 rfl shapeCasts_S2x1024x1_S2x1024x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S2x1024x1x1 ![] bcast_S_S2x1024x1x1) : (⟨S_, .i32⟩ : BufTy).Contents (Elt F) → (⟨S2x1024x1x1, .i32⟩ : BufTy).Contents (Elt F)),
    binary main_call2_v5 main_call2_v6 main_call2_v7 ((cmpi .sge) : (⟨S2x1024x1x1, .i32⟩ : BufTy).Contents (Elt F) → (⟨S2x1024x1x1, .i32⟩ : BufTy).Contents (Elt F) → (⟨S2x1024x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S2x1024x1x1 ![0, 1, 2, 3] bcast_S1x1x1x1_S2x1024x1x1_0_1_2_3) : (⟨S1x1x1x1, .i32⟩ : BufTy).Contents (Elt F) → (⟨S2x1024x1x1, .i32⟩ : BufTy).Contents (Elt F)),
    binary main_call2_v5 main_call2_v9 main_call2_v10 ((cmpi .sle) : (⟨S2x1024x1x1, .i32⟩ : BufTy).Contents (Elt F) → (⟨S2x1024x1x1, .i32⟩ : BufTy).Contents (Elt F) → (⟨S2x1024x1x1, .i1⟩ : BufTy).Contents (Elt F)),
    binary main_call2_v7 main_call2_v10 main_call2_v11 (andi : (⟨S2x1024x1x1, .i1⟩ : BufTy).Contents (Elt F) → (⟨S2x1024x1x1, .i1⟩ : BufTy).Contents (Elt F) → (⟨S2x1024x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S2x1024x1x1_S2x1024x1_d3 h_S_) : (⟨S2x1024x1x1, .i1⟩ : BufTy).Contents (Elt F) → (⟨S_, .i1⟩ : BufTy).Contents (Elt F) → (⟨S2x1024x1, .i1⟩ : BufTy).Contents (Elt F)),
    binary main_v1 main_call2_v5 main_call2_v13 ((fun x i => Host.gather gather_S2x1024x32000_S2x1024x1x1_S2x1024x1_n_2_01_01_2_3_111 x i) : (⟨S2x1024x32000, .f32⟩ : BufTy).Contents (Elt F) → (⟨S2x1024x1x1, .i32⟩ : BufTy).Contents (Elt F) → (⟨S2x1024x1, .f32⟩ : BufTy).Contents (Elt F)),
    nullary main_call2_cst ((constant S_ .f32 0x7FC00000#32) : (⟨S_, .f32⟩ : BufTy).Contents (Elt F)),
    unary main_call2_cst main_call2_v14 ((broadcastInDim S2x1024x1 ![] bcast_S_S2x1024x1) : (⟨S_, .f32⟩ : BufTy).Contents (Elt F) → (⟨S2x1024x1, .f32⟩ : BufTy).Contents (Elt F)),
    ternary main_call2_v12 main_call2_v13 main_call2_v14 main_v4 (select : (⟨S2x1024x1, .i1⟩ : BufTy).Contents (Elt F) → (⟨S2x1024x1, .f32⟩ : BufTy).Contents (Elt F) → (⟨S2x1024x1, .f32⟩ : BufTy).Contents (Elt F) → (⟨S2x1024x1, .f32⟩ : BufTy).Contents (Elt F)),
    reshape main_v4 main_v5 rfl shapeCasts_S2x1024x1_S2x1024,
    nullary main_c_1 (constantI S_ 32 4294967196#32),
    unary main_c_1 main_v6 (broadcastInDim S2x1024 ![] bcast_S_S2x1024 : (⟨S_, .i32⟩ : BufTy).Contents (Elt F) → (⟨S2x1024, .i32⟩ : BufTy).Contents (Elt F)),
    binary main_arg2 main_v6 main_v7 (cmpi .ne : (⟨S2x1024, .i32⟩ : BufTy).Contents (Elt F) → (⟨S2x1024, .i32⟩ : BufTy).Contents (Elt F) → (⟨S2x1024, .i1⟩ : BufTy).Contents (Elt F)),
    unary main_v7 main_v8 (uitofp .f32 : (⟨S2x1024, .i1⟩ : BufTy).Contents (Elt F) → (⟨S2x1024, .f32⟩ : BufTy).Contents (Elt F)),
    binary main_v5 main_v8 main_v9 (mulf : (⟨S2x1024, .f32⟩ : BufTy).Contents (Elt F) → (⟨S2x1024, .f32⟩ : BufTy).Contents (Elt F) → (⟨S2x1024, .f32⟩ : BufTy).Contents (Elt F)),
    nullary main_cst (constant S_ .f32 0x00000000#32),
    binary main_v9 main_cst main_v10 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_2 (constant S_ .f32 0x00000000#32),
    binary main_v8 main_cst_2 main_v11 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_3 (constant S_ .f32 0x3F800000#32),
    unary main_cst_3 main_v12 (broadcastInDim S2 ![] bcast_S_S2 : (⟨S_, .f32⟩ : BufTy).Contents (Elt F) → (⟨S2, .f32⟩ : BufTy).Contents (Elt F)),
    binary main_v11 main_v12 main_v13 (maximumf : (⟨S2, .f32⟩ : BufTy).Contents (Elt F) → (⟨S2, .f32⟩ : BufTy).Contents (Elt F) → (⟨S2, .f32⟩ : BufTy).Contents (Elt F)),
    binary main_v10 main_v13 main_v14 (Host.divf : (⟨S2, .f32⟩ : BufTy).Contents (Elt F) → (⟨S2, .f32⟩ : BufTy).Contents (Elt F) → (⟨S2, .f32⟩ : BufTy).Contents (Elt F)),
    binary main_arg1 main_arg5 main_v15 ((fun l r => Host.dotGeneral dot_S2x1024x4096_S32000x4096_S2x1024x32000_2_1_01_0_n_n none l r) : (⟨S2x1024x4096, .f32⟩ : BufTy).Contents (Elt F) → (⟨S32000x4096, .f32⟩ : BufTy).Contents (Elt F) → (⟨S2x1024x32000, .f32⟩ : BufTy).Contents (Elt F)),
    nullary main_call3_cst ((constant S_ .f32 0xFF800000#32) : (⟨S_, .f32⟩ : BufTy).Contents (Elt F)),
    binary main_v15 main_call3_cst main_call3_v0 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    nullary main_call3_cst_0 ((constant S_ .f32 0xFF800000#32) : (⟨S_, .f32⟩ : BufTy).Contents (Elt F)),
    unary main_call3_cst_0 main_call3_v1 ((broadcastInDim S2x1024 ![] bcast_S_S2x1024) : (⟨S_, .f32⟩ : BufTy).Contents (Elt F) → (⟨S2x1024, .f32⟩ : BufTy).Contents (Elt F)),
    binary main_call3_v1 main_call3_v0 main_call3_v2 (maximumf : (⟨S2x1024, .f32⟩ : BufTy).Contents (Elt F) → (⟨S2x1024, .f32⟩ : BufTy).Contents (Elt F) → (⟨S2x1024, .f32⟩ : BufTy).Contents (Elt F)),
    unary main_call3_v2 main_call3_v3 ((broadcastInDim S2x1024x1 ![0, 1] bcast_S2x1024_S2x1024x1_0_1) : (⟨S2x1024, .f32⟩ : BufTy).Contents (Elt F) → (⟨S2x1024x1, .f32⟩ : BufTy).Contents (Elt F)),
    unary main_call3_v3 main_call3_v4 ((broadcastInDim S2x1024x32000 ![0, 1, 2] bcast_S2x1024x1_S2x1024x32000_0_1_2) : (⟨S2x1024x1, .f32⟩ : BufTy).Contents (Elt F) → (⟨S2x1024x32000, .f32⟩ : BufTy).Contents (Elt F)),
    binary main_v15 main_call3_v4 main_call3_v5 (subf : (⟨S2x1024x32000, .f32⟩ : BufTy).Contents (Elt F) → (⟨S2x1024x32000, .f32⟩ : BufTy).Contents (Elt F) → (⟨S2x1024x32000, .f32⟩ : BufTy).Contents (Elt F)),
    unary main_call3_v5 main_call3_v6 (Host.exp : (⟨S2x1024x32000, .f32⟩ : BufTy).Contents (Elt F) → (⟨S2x1024x32000, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_call3_v7 main_call3_v8 ((broadcastInDim S2x1024x1 ![0, 1] bcast_S2x1024_S2x1024x1_0_1) : (⟨S2x1024, .f32⟩ : BufTy).Contents (Elt F) → (⟨S2x1024x1, .f32⟩ : BufTy).Contents (Elt F)),
    unary main_call3_v8 main_call3_v9 (Host.log : (⟨S2x1024x1, .f32⟩ : BufTy).Contents (Elt F) → (⟨S2x1024x1, .f32⟩ : BufTy).Contents (Elt F)),
    unary main_call3_v9 main_call3_v10 ((broadcastInDim S2x1024x32000 ![0, 1, 2] bcast_S2x1024x1_S2x1024x32000_0_1_2) : (⟨S2x1024x1, .f32⟩ : BufTy).Contents (Elt F) → (⟨S2x1024x32000, .f32⟩ : BufTy).Contents (Elt F)),
    binary main_call3_v5 main_call3_v10 main_v16 (subf : (⟨S2x1024x32000, .f32⟩ : BufTy).Contents (Elt F) → (⟨S2x1024x32000, .f32⟩ : BufTy).Contents (Elt F) → (⟨S2x1024x32000, .f32⟩ : BufTy).Contents (Elt F)),
    nullary main_c_4 (constantI S_ 32 0#32),
    nullary main_c_5 (constantI S_ 32 31999#32),
    unary main_c_4 main_call4_v0 (id : (⟨S_, .i32⟩ : BufTy).Contents (Elt F) → (⟨S_, .i32⟩ : BufTy).Contents (Elt F)),
    unary main_call4_v0 main_call4_v1 ((broadcastInDim S2x1024 ![] bcast_S_S2x1024) : (⟨S_, .i32⟩ : BufTy).Contents (Elt F) → (⟨S2x1024, .i32⟩ : BufTy).Contents (Elt F)),
    binary main_call4_v1 main_arg2 main_call4_v2 (maxsi : (⟨S2x1024, .i32⟩ : BufTy).Contents (Elt F) → (⟨S2x1024, .i32⟩ : BufTy).Contents (Elt F) → (⟨S2x1024, .i32⟩ : BufTy).Contents (Elt F)),
    unary main_c_5 main_call4_v3 (id : (⟨S_, .i32⟩ : BufTy).Contents (Elt F) → (⟨S_, .i32⟩ : BufTy).Contents (Elt F)),
    unary main_call4_v3 main_call4_v4 ((broadcastInDim S2x1024 ![] bcast_S_S2x1024) : (⟨S_, .i32⟩ : BufTy).Contents (Elt F) → (⟨S2x1024, .i32⟩ : BufTy).Contents (Elt F)),
    binary main_call4_v4 main_call4_v2 main_v17 (minsi : (⟨S2x1024, .i32⟩ : BufTy).Contents (Elt F) → (⟨S2x1024, .i32⟩ : BufTy).Contents (Elt F) → (⟨S2x1024, .i32⟩ : BufTy).Contents (Elt F)),
    unary main_v17 main_v18 (broadcastInDim S2x1024x1 ![0, 1] bcast_S2x1024_S2x1024x1_0_1 : (⟨S2x1024, .i32⟩ : BufTy).Contents (Elt F) → (⟨S2x1024x1, .i32⟩ : BufTy).Contents (Elt F)),
    nullary main_call5_c ((constantI S_ 32 0#32) : (⟨S_, .i32⟩ : BufTy).Contents (Elt F)),
    unary main_call5_c main_call5_v0 ((broadcastInDim S2x1024x1 ![] bcast_S_S2x1024x1) : (⟨S_, .i32⟩ : BufTy).Contents (Elt F) → (⟨S2x1024x1, .i32⟩ : BufTy).Contents (Elt F)),
    binary main_v18 main_call5_v0 main_call5_v1 ((cmpi .slt) : (⟨S2x1024x1, .i32⟩ : BufTy).Contents (Elt F) → (⟨S2x1024x1, .i32⟩ : BufTy).Contents (Elt F) → (⟨S2x1024x1, .i1⟩ : BufTy).Contents (Elt F)),
    nullary main_call5_c_0 ((constantI S_ 32 32000#32) : (⟨S_, .i32⟩ : BufTy).Contents (Elt F)),
    unary main_call5_c_0 main_call5_v2 ((broadcastInDim S2x1024x1 ![] bcast_S_S2x1024x1) : (⟨S_, .i32⟩ : BufTy).Contents (Elt F) → (⟨S2x1024x1, .i32⟩ : BufTy).Contents (Elt F)),
    binary main_v18 main_call5_v2 main_call5_v3 (addi : (⟨S2x1024x1, .i32⟩ : BufTy).Contents (Elt F) → (⟨S2x1024x1, .i32⟩ : BufTy).Contents (Elt F) → (⟨S2x1024x1, .i32⟩ : BufTy).Contents (Elt F)),
    ternary main_call5_v1 main_call5_v3 main_v18 main_call5_v4 (select : (⟨S2x1024x1, .i1⟩ : BufTy).Contents (Elt F) → (⟨S2x1024x1, .i32⟩ : BufTy).Contents (Elt F) → (⟨S2x1024x1, .i32⟩ : BufTy).Contents (Elt F) → (⟨S2x1024x1, .i32⟩ : BufTy).Contents (Elt F)),
    reshape main_call5_v4 main_call5_v5 rfl shapeCasts_S2x1024x1_S2x1024x1x1,
    nullary main_call5_c_1 ((constantI S1 32 31999#32) : (⟨S1, .i32⟩ : BufTy).Contents (Elt F)),
    nullary main_call5_c_2 ((constantI S_ 32 0#32) : (⟨S_, .i32⟩ : BufTy).Contents (Elt F)),
    unary main_call5_c_2 main_call5_v6 ((broadcastInDim S2x1024x1x1 ![] bcast_S_S2x1024x1x1) : (⟨S_, .i32⟩ : BufTy).Contents (Elt F) → (⟨S2x1024x1x1, .i32⟩ : BufTy).Contents (Elt F)),
    binary main_call5_v5 main_call5_v6 main_call5_v7 ((cmpi .sge) : (⟨S2x1024x1x1, .i32⟩ : BufTy).Contents (Elt F) → (⟨S2x1024x1x1, .i32⟩ : BufTy).Contents (Elt F) → (⟨S2x1024x1x1, .i1⟩ : BufTy).Contents (Elt F)),
    unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    unary main_call5_v8 main_call5_v9 ((broadcastInDim S2x1024x1x1 ![0, 1, 2, 3] bcast_S1x1x1x1_S2x1024x1x1_0_1_2_3) : (⟨S1x1x1x1, .i32⟩ : BufTy).Contents (Elt F) → (⟨S2x1024x1x1, .i32⟩ : BufTy).Contents (Elt F)),
    binary main_call5_v5 main_call5_v9 main_call5_v10 ((cmpi .sle) : (⟨S2x1024x1x1, .i32⟩ : BufTy).Contents (Elt F) → (⟨S2x1024x1x1, .i32⟩ : BufTy).Contents (Elt F) → (⟨S2x1024x1x1, .i1⟩ : BufTy).Contents (Elt F)),
    binary main_call5_v7 main_call5_v10 main_call5_v11 (andi : (⟨S2x1024x1x1, .i1⟩ : BufTy).Contents (Elt F) → (⟨S2x1024x1x1, .i1⟩ : BufTy).Contents (Elt F) → (⟨S2x1024x1x1, .i1⟩ : BufTy).Contents (Elt F)),
    nullary main_call5_c_3 ((constantI S_ 1 1#1) : (⟨S_, .i1⟩ : BufTy).Contents (Elt F)),
    binary main_call5_v11 main_call5_c_3 main_call5_v12 ((fun x v => Host.reduce IntOp.andi x v reducesTo_S2x1024x1x1_S2x1024x1_d3 h_S_) : (⟨S2x1024x1x1, .i1⟩ : BufTy).Contents (Elt F) → (⟨S_, .i1⟩ : BufTy).Contents (Elt F) → (⟨S2x1024x1, .i1⟩ : BufTy).Contents (Elt F)),
    binary main_v16 main_call5_v5 main_call5_v13 ((fun x i => Host.gather gather_S2x1024x32000_S2x1024x1x1_S2x1024x1_n_2_01_01_2_3_111 x i) : (⟨S2x1024x32000, .f32⟩ : BufTy).Contents (Elt F) → (⟨S2x1024x1x1, .i32⟩ : BufTy).Contents (Elt F) → (⟨S2x1024x1, .f32⟩ : BufTy).Contents (Elt F)),
    nullary main_call5_cst ((constant S_ .f32 0x7FC00000#32) : (⟨S_, .f32⟩ : BufTy).Contents (Elt F)),
    unary main_call5_cst main_call5_v14 ((broadcastInDim S2x1024x1 ![] bcast_S_S2x1024x1) : (⟨S_, .f32⟩ : BufTy).Contents (Elt F) → (⟨S2x1024x1, .f32⟩ : BufTy).Contents (Elt F)),
    ternary main_call5_v12 main_call5_v13 main_call5_v14 main_v19 (select : (⟨S2x1024x1, .i1⟩ : BufTy).Contents (Elt F) → (⟨S2x1024x1, .f32⟩ : BufTy).Contents (Elt F) → (⟨S2x1024x1, .f32⟩ : BufTy).Contents (Elt F) → (⟨S2x1024x1, .f32⟩ : BufTy).Contents (Elt F)),
    reshape main_v19 main_v20 rfl shapeCasts_S2x1024x1_S2x1024,
    nullary main_c_6 (constantI S_ 32 4294967196#32),
    unary main_c_6 main_v21 (broadcastInDim S2x1024 ![] bcast_S_S2x1024 : (⟨S_, .i32⟩ : BufTy).Contents (Elt F) → (⟨S2x1024, .i32⟩ : BufTy).Contents (Elt F)),
    binary main_arg2 main_v21 main_v22 (cmpi .ne : (⟨S2x1024, .i32⟩ : BufTy).Contents (Elt F) → (⟨S2x1024, .i32⟩ : BufTy).Contents (Elt F) → (⟨S2x1024, .i1⟩ : BufTy).Contents (Elt F)),
    unary main_v22 main_v23 (uitofp .f32 : (⟨S2x1024, .i1⟩ : BufTy).Contents (Elt F) → (⟨S2x1024, .f32⟩ : BufTy).Contents (Elt F)),
    binary main_v20 main_v23 main_v24 (mulf : (⟨S2x1024, .f32⟩ : BufTy).Contents (Elt F) → (⟨S2x1024, .f32⟩ : BufTy).Contents (Elt F) → (⟨S2x1024, .f32⟩ : BufTy).Contents (Elt F)),
    nullary main_cst_7 (constant S_ .f32 0x00000000#32),
    binary main_v24 main_cst_7 main_v25 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_8 (constant S_ .f32 0x00000000#32),
    binary main_v23 main_cst_8 main_v26 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_9 (constant S_ .f32 0x3F800000#32),
    unary main_cst_9 main_v27 (broadcastInDim S2 ![] bcast_S_S2 : (⟨S_, .f32⟩ : BufTy).Contents (Elt F) → (⟨S2, .f32⟩ : BufTy).Contents (Elt F)),
    binary main_v26 main_v27 main_v28 (maximumf : (⟨S2, .f32⟩ : BufTy).Contents (Elt F) → (⟨S2, .f32⟩ : BufTy).Contents (Elt F) → (⟨S2, .f32⟩ : BufTy).Contents (Elt F)),
    binary main_v25 main_v28 main_v29 (Host.divf : (⟨S2, .f32⟩ : BufTy).Contents (Elt F) → (⟨S2, .f32⟩ : BufTy).Contents (Elt F) → (⟨S2, .f32⟩ : BufTy).Contents (Elt F)),
    binary main_v14 main_v29 main_v30 (subf : (⟨S2, .f32⟩ : BufTy).Contents (Elt F) → (⟨S2, .f32⟩ : BufTy).Contents (Elt F) → (⟨S2, .f32⟩ : BufTy).Contents (Elt F)),
    nullary main_cst_10 (constant S_ .f32 0x3F800000#32),
    nullary main_cst_11 (constant S_ .f32 0xBF800000#32),
    unary main_cst_10 main_call6_v0 ((broadcastInDim S2 ![] bcast_S_S2) : (⟨S_, .f32⟩ : BufTy).Contents (Elt F) → (⟨S2, .f32⟩ : BufTy).Contents (Elt F)),
    unary main_cst_11 main_call6_v1 ((broadcastInDim S2 ![] bcast_S_S2) : (⟨S_, .f32⟩ : BufTy).Contents (Elt F) → (⟨S2, .f32⟩ : BufTy).Contents (Elt F)),
    ternary main_arg3 main_call6_v0 main_call6_v1 main_v31 (select : (⟨S2, .i1⟩ : BufTy).Contents (Elt F) → (⟨S2, .f32⟩ : BufTy).Contents (Elt F) → (⟨S2, .f32⟩ : BufTy).Contents (Elt F) → (⟨S2, .f32⟩ : BufTy).Contents (Elt F)),
    nullary main_cst_12 (constant S_ .f32 0x3DCCCCCD#32),
    unary main_cst_12 main_v32 (broadcastInDim S2 ![] bcast_S_S2 : (⟨S_, .f32⟩ : BufTy).Contents (Elt F) → (⟨S2, .f32⟩ : BufTy).Contents (Elt F)),
    binary main_v32 main_v30 main_v33 (mulf : (⟨S2, .f32⟩ : BufTy).Contents (Elt F) → (⟨S2, .f32⟩ : BufTy).Contents (Elt F) → (⟨S2, .f32⟩ : BufTy).Contents (Elt F)),
    unary main_v31 main_v34 (id : (⟨S2, .f32⟩ : BufTy).Contents (Elt F) → (⟨S2, .f32⟩ : BufTy).Contents (Elt F)),
    binary main_v33 main_v34 main_v35 (mulf : (⟨S2, .f32⟩ : BufTy).Contents (Elt F) → (⟨S2, .f32⟩ : BufTy).Contents (Elt F) → (⟨S2, .f32⟩ : BufTy).Contents (Elt F)),
    unary main_v35 main_v36 (Host.negf : (⟨S2, .f32⟩ : BufTy).Contents (Elt F) → (⟨S2, .f32⟩ : BufTy).Contents (Elt F)),
    unary main_v36 main_v37 (Host.exp : (⟨S2, .f32⟩ : BufTy).Contents (Elt F) → (⟨S2, .f32⟩ : BufTy).Contents (Elt F)),
    nullary main_cst_13 (constant S_ .f32 0x3F800000#32),
    unary main_cst_13 main_v38 (broadcastInDim S2 ![] bcast_S_S2 : (⟨S_, .f32⟩ : BufTy).Contents (Elt F) → (⟨S2, .f32⟩ : BufTy).Contents (Elt F)),
    binary main_v38 main_v37 main_v39 (addf : (⟨S2, .f32⟩ : BufTy).Contents (Elt F) → (⟨S2, .f32⟩ : BufTy).Contents (Elt F) → (⟨S2, .f32⟩ : BufTy).Contents (Elt F)),
    nullary main_cst_14 (constant S_ .f32 0x3F800000#32),
    unary main_cst_14 main_v40 (broadcastInDim S2 ![] bcast_S_S2 : (⟨S_, .f32⟩ : BufTy).Contents (Elt F) → (⟨S2, .f32⟩ : BufTy).Contents (Elt F)),
    binary main_v40 main_v39 main_v41 (Host.divf : (⟨S2, .f32⟩ : BufTy).Contents (Elt F) → (⟨S2, .f32⟩ : BufTy).Contents (Elt F) → (⟨S2, .f32⟩ : BufTy).Contents (Elt F)),
    nullary main_cst_15 (constant S_ .f32 0x3F800000#32),
    unary main_cst_15 main_v42 (broadcastInDim S2 ![] bcast_S_S2 : (⟨S_, .f32⟩ : BufTy).Contents (Elt F) → (⟨S2, .f32⟩ : BufTy).Contents (Elt F)),
    binary main_v42 main_v41 main_v43 (subf : (⟨S2, .f32⟩ : BufTy).Contents (Elt F) → (⟨S2, .f32⟩ : BufTy).Contents (Elt F) → (⟨S2, .f32⟩ : BufTy).Contents (Elt F)),
    nullary main_cst_16 (constant S_ .f32 0x00000000#32),
    binary main_v43 main_cst_16 main_v44 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_17 (constant S_ .f32 0x40000000#32),
    binary main_v44 main_cst_17 main_v45 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eqT (c : Dev nD) : main (F := F) c = seq opsT := rfl

attribute [local irreducible] Host.reduce in
set_option maxRecDepth 8192 in
set_option maxHeartbeats 4000000 in
/-- The two spellings are the same list: operation by operation, with the maximum-reduce kept folded. -/
theorem opsT_eq : (opsT : List (HloOp τ sig (Elt F))) = ops := by
  unfold opsT ops
  iterate 148 (refine congr (congrArg List.cons ?_) ?_; · rfl)
  rfl

theorem main_eq (c : Dev nD) : main (F := F) c = seq ops := (main_eqT c).trans (congrArg seq opsT_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., unary_bufs_sub .., binary_bufs_sub .., nullary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., unary_bufs_sub .., binary_bufs_sub .., nullary_bufs_sub .., binary_bufs_sub .., nullary_bufs_sub .., binary_bufs_sub .., nullary_bufs_sub .., unary_bufs_sub .., binary_bufs_sub .., binary_bufs_sub .., binary_bufs_sub .., nullary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

set_option maxRecDepth 8192 in
/-- `main_v45`'s composed term of the arguments. -/
def res_main_v45 (m : (ℓ : Loc nD τ sig) → Buf (Elt F) ℓ) (c : Dev nD) : Buf (Elt F) ((c.tc : Thread nD τ).loc main_v45) :=
  Host.divf (Host.reduceAdd (subf (broadcastInDim S2 ![] bcast_S_S2 (constant S_ .f32 0x3F800000#32)) (Host.divf (broadcastInDim S2 ![] bcast_S_S2 (constant S_ .f32 0x3F800000#32)) (addf (broadcastInDim S2 ![] bcast_S_S2 (constant S_ .f32 0x3F800000#32)) (Host.exp (Host.negf (mulf (mulf (broadcastInDim S2 ![] bcast_S_S2 (constant S_ .f32 0x3DCCCCCD#32)) (subf (Host.divf (Host.reduceAdd (mulf (shapeCast _ (select (Host.reduce IntOp.andi (andi (cmpi .sge (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2)))))) shapeCasts_S2x1024x1_S2x1024x1x1) (broadcastInDim S2x1024x1x1 ![] bcast_S_S2x1024x1x1 (constantI S_ 32 0#32))) (cmpi .sle (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2)))))) shapeCasts_S2x1024x1_S2x1024x1x1) (broadcastInDim S2x1024x1x1 ![0, 1, 2, 3] bcast_S1x1x1x1_S2x1024x1x1_0_1_2_3 (broadcastInDim S1x1x1x1 ![3] bcast_S1_S1x1x1x1_3 (constantI S1 32 31999#32))))) (constantI S_ 1 1#1) reducesTo_S2x1024x1x1_S2x1024x1_d3 h_S_) (Host.gather gather_S2x1024x32000_S2x1024x1x1_S2x1024x1_n_2_01_01_2_3_111 (subf (subf (Host.dotGeneral dot_S2x1024x4096_S32000x4096_S2x1024x32000_2_1_01_0_n_n none (m ((c.tc : Thread nD τ).loc main_arg0)) (m ((c.tc : Thread nD τ).loc main_arg4))) (broadcastInDim S2x1024x32000 ![0, 1, 2] bcast_S2x1024x1_S2x1024x32000_0_1_2 (broadcastInDim S2x1024x1 ![0, 1] bcast_S2x1024_S2x1024x1_0_1 (maximumf (broadcastInDim S2x1024 ![] bcast_S_S2x1024 (constant S_ .f32 0xFF800000#32)) (Host.reduce FloatOps.maximumf (Host.dotGeneral dot_S2x1024x4096_S32000x4096_S2x1024x32000_2_1_01_0_n_n none (m ((c.tc : Thread nD τ).loc main_arg0)) (m ((c.tc : Thread nD τ).loc main_arg4))) (constant S_ .f32 0xFF800000#32) reducesTo_S2x1024x32000_S2x1024_d2 h_S_))))) (broadcastInDim S2x1024x32000 ![0, 1, 2] bcast_S2x1024x1_S2x1024x32000_0_1_2 (Host.log (broadcastInDim S2x1024x1 ![0, 1] bcast_S2x1024_S2x1024x1_0_1 (Host.reduceAdd (Host.exp (subf (Host.dotGeneral dot_S2x1024x4096_S32000x4096_S2x1024x32000_2_1_01_0_n_n none (m ((c.tc : Thread nD τ).loc main_arg0)) (m ((c.tc : Thread nD τ).loc main_arg4))) (broadcastInDim S2x1024x32000 ![0, 1, 2] bcast_S2x1024x1_S2x1024x32000_0_1_2 (broadcastInDim S2x1024x1 ![0, 1] bcast_S2x1024_S2x1024x1_0_1 (maximumf (broadcastInDim S2x1024 ![] bcast_S_S2x1024 (constant S_ .f32 0xFF800000#32)) (Host.reduce FloatOps.maximumf (Host.dotGeneral dot_S2x1024x4096_S32000x4096_S2x1024x32000_2_1_01_0_n_n none (m ((c.tc : Thread nD τ).loc main_arg0)) (m ((c.tc : Thread nD τ).loc main_arg4))) (constant S_ .f32 0xFF800000#32) reducesTo_S2x1024x32000_S2x1024_d2 h_S_)))))) (constant S_ .f32 0x00000000#32) reducesTo_S2x1024x32000_S2x1024_d2 h_S_))))) (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2)))))) shapeCasts_S2x1024x1_S2x1024x1x1)) (broadcastInDim S2x1024x1 ![] bcast_S_S2x1024x1 (constant S_ .f32 0x7FC00000#32))) shapeCasts_S2x1024x1_S2x1024) (uitofp .f32 (cmpi .ne (m ((c.tc : Thread nD τ).loc main_arg2)) (broadcastInDim S2x1024 ![] bcast_S_S2x1024 (constantI S_ 32 4294967196#32))))) (constant S_ .f32 0x00000000#32) reducesTo_S2x1024_S2_d1 h_S_) (maximumf (Host.reduceAdd (uitofp .f32 (cmpi .ne (m ((c.tc : Thread nD τ).loc main_arg2)) (broadcastInDim S2x1024 ![] bcast_S_S2x1024 (constantI S_ 32 4294967196#32)))) (constant S_ .f32 0x00000000#32) reducesTo_S2x1024_S2_d1 h_S_) (broadcastInDim S2 ![] bcast_S_S2 (constant S_ .f32 0x3F800000#32)))) (Host.divf (Host.reduceAdd (mulf (shapeCast _ (select (Host.reduce IntOp.andi (andi (cmpi .sge (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2)))))) shapeCasts_S2x1024x1_S2x1024x1x1) (broadcastInDim S2x1024x1x1 ![] bcast_S_S2x1024x1x1 (constantI S_ 32 0#32))) (cmpi .sle (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2)))))) shapeCasts_S2x1024x1_S2x1024x1x1) (broadcastInDim S2x1024x1x1 ![0, 1, 2, 3] bcast_S1x1x1x1_S2x1024x1x1_0_1_2_3 (broadcastInDim S1x1x1x1 ![3] bcast_S1_S1x1x1x1_3 (constantI S1 32 31999#32))))) (constantI S_ 1 1#1) reducesTo_S2x1024x1x1_S2x1024x1_d3 h_S_) (Host.gather gather_S2x1024x32000_S2x1024x1x1_S2x1024x1_n_2_01_01_2_3_111 (subf (subf (Host.dotGeneral dot_S2x1024x4096_S32000x4096_S2x1024x32000_2_1_01_0_n_n none (m ((c.tc : Thread nD τ).loc main_arg1)) (m ((c.tc : Thread nD τ).loc main_arg5))) (broadcastInDim S2x1024x32000 ![0, 1, 2] bcast_S2x1024x1_S2x1024x32000_0_1_2 (broadcastInDim S2x1024x1 ![0, 1] bcast_S2x1024_S2x1024x1_0_1 (maximumf (broadcastInDim S2x1024 ![] bcast_S_S2x1024 (constant S_ .f32 0xFF800000#32)) (Host.reduce FloatOps.maximumf (Host.dotGeneral dot_S2x1024x4096_S32000x4096_S2x1024x32000_2_1_01_0_n_n none (m ((c.tc : Thread nD τ).loc main_arg1)) (m ((c.tc : Thread nD τ).loc main_arg5))) (constant S_ .f32 0xFF800000#32) reducesTo_S2x1024x32000_S2x1024_d2 h_S_))))) (broadcastInDim S2x1024x32000 ![0, 1, 2] bcast_S2x1024x1_S2x1024x32000_0_1_2 (Host.log (broadcastInDim S2x1024x1 ![0, 1] bcast_S2x1024_S2x1024x1_0_1 (Host.reduceAdd (Host.exp (subf (Host.dotGeneral dot_S2x1024x4096_S32000x4096_S2x1024x32000_2_1_01_0_n_n none (m ((c.tc : Thread nD τ).loc main_arg1)) (m ((c.tc : Thread nD τ).loc main_arg5))) (broadcastInDim S2x1024x32000 ![0, 1, 2] bcast_S2x1024x1_S2x1024x32000_0_1_2 (broadcastInDim S2x1024x1 ![0, 1] bcast_S2x1024_S2x1024x1_0_1 (maximumf (broadcastInDim S2x1024 ![] bcast_S_S2x1024 (constant S_ .f32 0xFF800000#32)) (Host.reduce FloatOps.maximumf (Host.dotGeneral dot_S2x1024x4096_S32000x4096_S2x1024x32000_2_1_01_0_n_n none (m ((c.tc : Thread nD τ).loc main_arg1)) (m ((c.tc : Thread nD τ).loc main_arg5))) (constant S_ .f32 0xFF800000#32) reducesTo_S2x1024x32000_S2x1024_d2 h_S_)))))) (constant S_ .f32 0x00000000#32) reducesTo_S2x1024x32000_S2x1024_d2 h_S_))))) (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2))))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) (m ((c.tc : Thread nD τ).loc main_arg2)))))) shapeCasts_S2x1024x1_S2x1024x1x1)) (broadcastInDim S2x1024x1 ![] bcast_S_S2x1024x1 (constant S_ .f32 0x7FC00000#32))) shapeCasts_S2x1024x1_S2x1024) (uitofp .f32 (cmpi .ne (m ((c.tc : Thread nD τ).loc main_arg2)) (broadcastInDim S2x1024 ![] bcast_S_S2x1024 (constantI S_ 32 4294967196#32))))) (constant S_ .f32 0x00000000#32) reducesTo_S2x1024_S2_d1 h_S_) (maximumf (Host.reduceAdd (uitofp .f32 (cmpi .ne (m ((c.tc : Thread nD τ).loc main_arg2)) (broadcastInDim S2x1024 ![] bcast_S_S2x1024 (constantI S_ 32 4294967196#32)))) (constant S_ .f32 0x00000000#32) reducesTo_S2x1024_S2_d1 h_S_) (broadcastInDim S2 ![] bcast_S_S2 (constant S_ .f32 0x3F800000#32)))))) (id (select (m ((c.tc : Thread nD τ).loc main_arg3)) (broadcastInDim S2 ![] bcast_S_S2 (constant S_ .f32 0x3F800000#32)) (broadcastInDim S2 ![] bcast_S_S2 (constant S_ .f32 0xBF800000#32)))))))))) (constant S_ .f32 0x00000000#32) reducesTo_S2_S_d0 h_S_) (constant S_ .f32 0x40000000#32)

/-- `res_main_v45` under the name of its position, 0, among the values @main returns: an abbreviation of it. -/
abbrev res_out0 (m : (ℓ : Loc nD τ sig) → Buf (Elt F) ℓ) (c : Dev nD) : Buf (Elt F) ((c.tc : Thread nD τ).loc main_v45) := res_main_v45 m c

set_option maxRecDepth 8192 in
set_option maxHeartbeats 59200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = res_main_v45 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v45).trans (by after_results_simp <;> rfl <;> (unfold res_main_v45; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RefGather.lean ====
/-
  The reference's gather read at an index: the result at (b, t, 0) is the operand at (b, t, v), v the start index at
  (b, t, 0, 0) read as a signed integer and clamped into [0, 31999].
-/
import proofs.«410554_j45887430590963_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-- The dimension numbers of the reference's gather: operand [2, 1024, 32000], start indices [2, 1024, 1, 1], result
    [2, 1024, 1]; the first two axes are batching axes, the third is collapsed and is the one the start index names. -/
abbrev GD := gather_S2x1024x32000_S2x1024x1x1_S2x1024x1_n_2_01_01_2_3_111

theorem gather_axis0 (idx : IVec S2x1024x1x1 32) (b : Fin 2) (t : Fin 1024) :
    (GD.operandIdx (ix3 b t (0 : Fin 1)) idx 0).val = b.val := by
  show GD.start (ix3 b t (0 : Fin 1)) idx 0 + GD.batchCoord (ix3 b t (0 : Fin 1)) 0 + GD.offCoord (ix3 b t (0 : Fin 1)) 0 = _
  rw [GatherDims.start_batching _ _ _ _ (by decide), GatherDims.offCoord_eq_zero _ _ _ (by decide)]
  simp only [Nat.zero_add, Nat.add_zero]
  rfl

theorem gather_axis1 (idx : IVec S2x1024x1x1 32) (b : Fin 2) (t : Fin 1024) :
    (GD.operandIdx (ix3 b t (0 : Fin 1)) idx 1).val = t.val := by
  show GD.start (ix3 b t (0 : Fin 1)) idx 1 + GD.batchCoord (ix3 b t (0 : Fin 1)) 1 + GD.offCoord (ix3 b t (0 : Fin 1)) 1 = _
  rw [GatherDims.start_batching _ _ _ _ (by decide), GatherDims.offCoord_eq_zero _ _ _ (by decide)]
  simp only [Nat.zero_add, Nat.add_zero]
  rfl

theorem gather_axis2 (idx : IVec S2x1024x1x1 32) (b : Fin 2) (t : Fin 1024) :
    (GD.operandIdx (ix3 b t (0 : Fin 1)) idx 2).val = min (idx (ix4 b t (0 : Fin 1) (0 : Fin 1))).toInt.toNat 31999 := by
  show GD.start (ix3 b t (0 : Fin 1)) idx 2 + GD.batchCoord (ix3 b t (0 : Fin 1)) 2 + GD.offCoord (ix3 b t (0 : Fin 1)) 2 = _
  rw [GatherDims.batchCoord_eq_zero _ _ _ (by decide), GatherDims.offCoord_eq_zero _ _ _ (by decide)]
  simp only [Nat.add_zero]
  unfold GatherDims.start
  rw [dif_pos (by decide)]
  have hsi : GD.siIdx (ix3 b t (0 : Fin 1)) ⟨List.idxOf (2 : Fin S2x1024x32000.rank) GD.startIndexMap,
      List.idxOf_lt_length_iff.2 (by decide)⟩ = ix4 b t (0 : Fin 1) (0 : Fin 1) := by
    funext e; refine Fin.ext ?_
    match e with
    | ⟨0, _⟩ => rfl
    | ⟨1, _⟩ => rfl
    | ⟨2, _⟩ => rfl
    | ⟨3, _⟩ => rfl
  rw [hsi]
  rfl

/-- The gather of the reference read at (b, t, 0): the operand at (b, t, the start index at (b, t, 0, 0) read signed and
    clamped into [0, 31999]). -/
theorem gather_apply {α : Type} (x : S2x1024x32000.Idx → α) (idx : IVec S2x1024x1x1 32) (b : Fin 2) (t : Fin 1024) :
    Host.gather GD x idx (ix3 b t (0 : Fin 1))
      = x (ix3 b t ⟨min (idx (ix4 b t (0 : Fin 1) (0 : Fin 1))).toInt.toNat 31999, by omega⟩) := by
  unfold Host.gather
  congr 1
  funext a
  refine Fin.ext ?_
  match a with
  | ⟨0, _⟩ => exact gather_axis0 idx b t
  | ⟨1, _⟩ => exact gather_axis1 idx b t
  | ⟨2, _⟩ => exact gather_axis2 idx b t

end Cert.ReferenceIdeal.RefValue

end
-- ==== Proof.RefFolds.lean ====
/-
  Folds of the reference read at an index: a finite sum of reals inside the extended reals is the real sum; the running
  maximum from −∞ over the vocabulary axis of a row of reals is a real; the conjunction over the unit last axis from the
  bit 1 is the one entry.
-/
import proofs.«410554_j45887430590963_2_alg».proof.Proof.Gen.ReferenceIdeal
import proofs.«410554_j45887430590963_2_alg».proof.Proof.Spec
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Sums and maxima of reals inside the extended reals -/

/-- A finite sum of reals, taken in the extended reals, is the real sum. -/
theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- The running maximum from −∞ over a nonempty finite family of reals is a real. -/
theorem fold_max_real {ι : Type} (S : Finset ι) (hS : S.Nonempty) (f : ι → ℝ) :
    ∃ s : ℝ, S.fold max (⊥ : EReal) (fun k => ((f k : ℝ) : EReal)) = (s : EReal) := by
  classical
  induction hS using Finset.Nonempty.cons_induction with
  | singleton a => exact ⟨f a, by simp⟩
  | cons a S ha hS ih =>
    obtain ⟨s, hs⟩ := ih
    refine ⟨max (f a) s, ?_⟩
    rw [Finset.fold_cons, hs]
    exact (EReal.coe_strictMono.monotone.map_max).symm

/-! ## The two folds of the reference read at an index -/

/-- −∞ as the float word 0xFF800000 at the ideal instance. -/
theorem ofBits_neg_inf : Ideal.ofBits .f32 0xFF800000#32 = (⊥ : EReal) := by
  simp [Ideal.ofBits, Ideal.ieee]

/-- The index (b, t) of the reduced array with coordinate k put back on the last axis is (b, t, k). -/
theorem lift_vocab (h : S2x1024x32000.Reduces [2] S2x1024) (b : Fin 2) (t : Fin 1024) (k : Fin (S2x1024x32000.size 2)) :
    h.lift (ix2 b t) k = ix3 b t (⟨k.val, k.isLt⟩ : Fin 32000) := by
  funext c; apply Fin.ext
  fin_cases c <;> rfl

/-- The maximum over the vocabulary axis, from −∞, of a row of reals is a real. -/
theorem maxReduce_real (z : FVec Ideal S2x1024x32000 .f32) (b : Fin 2) (t : Fin 1024) (r : Fin 32000 → ℝ)
    (hz : ∀ v : Fin 32000, z (ix3 b t v) = ((r v : ℝ) : EReal)) :
    ∃ s : ℝ, Host.reduce FloatOps.maximumf z (constant (F := Ideal) S_ .f32 0xFF800000#32) reducesTo_S2x1024x32000_S2x1024_d2 h_S_ (ix2 b t)
      = ((s : ℝ) : EReal) := by
  have h : S2x1024x32000.Reduces [2] S2x1024 := by decide
  rw [Host.reduce_eq_fold_single FloatOps.maximumf z _ reducesTo_S2x1024x32000_S2x1024_d2 h h_S_]
  have hf : (z ∘ h.lift (ix2 b t)) = fun k : Fin 32000 => ((r k : ℝ) : EReal) :=
    funext fun k => (congrArg z (lift_vocab h b t k)).trans (hz _)
  obtain ⟨s, hs⟩ := fold_max_real (Finset.univ : Finset (Fin 32000)) ⟨⟨0, by decide⟩, Finset.mem_univ _⟩ r
  refine ⟨s, ?_⟩
  refine Eq.trans ?_ hs
  show Finset.fold max (Ideal.ofBits .f32 0xFF800000#32) (z ∘ h.lift (ix2 b t)) (Finset.univ : Finset (Fin 32000)) = _
  rw [hf, ofBits_neg_inf]
  rfl

/-- The index (b, t, 0) with the one coordinate of the last axis put back is (b, t, 0, 0). -/
theorem lift_unit (h : S2x1024x1x1.Reduces [3] S2x1024x1) (b : Fin 2) (t : Fin 1024) (k : Fin (S2x1024x1x1.size 3)) :
    h.lift (ix3 b t (0 : Fin 1)) k = ix4 b t (0 : Fin 1) (0 : Fin 1) := by
  funext c; apply Fin.ext
  have hk : k.val = 0 := by have := k.isLt; change k.val < 1 at this; omega
  fin_cases c
  · rfl
  · rfl
  · rfl
  · exact hk

/-- The conjunction over the unit last axis, from the bit 1, is the one entry. -/
theorem andReduce_unit (p : IVec S2x1024x1x1 1) (b : Fin 2) (t : Fin 1024) :
    Host.reduce IntOp.andi p (constantI S_ 1 1#1) reducesTo_S2x1024x1x1_S2x1024x1_d3 h_S_ (ix3 b t (0 : Fin 1))
      = p (ix4 b t (0 : Fin 1) (0 : Fin 1)) := by
  have h : S2x1024x1x1.Reduces [3] S2x1024x1 := by decide
  rw [Host.reduce_eq_fold_single IntOp.andi p _ reducesTo_S2x1024x1x1_S2x1024x1_d3 h h_S_]
  have hf : (p ∘ h.lift (ix3 b t (0 : Fin 1))) = fun _ : Fin 1 => p (ix4 b t (0 : Fin 1) (0 : Fin 1)) :=
    funext fun k => congrArg p (lift_unit h b t k)
  show Finset.fold IntOp.andi (1#1) (p ∘ h.lift (ix3 b t (0 : Fin 1))) (Finset.univ : Finset (Fin 1)) = _
  rw [hf]
  show Finset.fold IntOp.andi (1#1) (fun _ : Fin 1 => p (ix4 b t (0 : Fin 1) (0 : Fin 1))) {(0 : Fin 1)} = _
  rw [Finset.fold_singleton]
  generalize p (ix4 b t (0 : Fin 1) (0 : Fin 1)) = q
  revert q; decide

end Cert.ReferenceIdeal.RefValue

end
-- ==== Proof.RefTok.lean ====
/-
  The reference's per-token value: the row of logits (the activation row against every row of the weights), shifted by
  the row maximum, minus the log of the sum of the exponentials of the shifted row (the log-softmax), read at the clipped
  target. Over the extended reals, for arrays of reals, it is the token's log-probability of Spec.lean.
-/
import proofs.«410554_j45887430590963_2_alg».proof.ReferenceIdeal
import proofs.«410554_j45887430590963_2_alg».proof.Proof.Gen.ReferenceIdeal
import proofs.«410554_j45887430590963_2_alg».proof.Proof.Spec
import proofs.«410554_j45887430590963_2_alg».proof.Proof.RefGather
import proofs.«410554_j45887430590963_2_alg».proof.Proof.RefFolds
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Reduce
import Idealize.ShloMosaic.PureOps.Ideal.Laws

noncomputable section

namespace Cert.ReferenceIdeal.RefTok

open Cert.ReferenceIdeal Cert.ReferenceIdeal.Gen Idealize.ShloMosaic Idealize.ShloMosaic.ValueIdx

variable {F : FTy → Type} [FloatOps F]

/-! ## The printed term, named piece by piece -/

/-- The targets clipped into [0, 31999]. -/
def clip (y : IVec S2x1024 32) : IVec S2x1024 32 :=
  minsi (broadcastInDim S2x1024 ![] bcast_S_S2x1024 (id (constantI S_ 32 31999#32)))
    (maxsi (broadcastInDim S2x1024 ![] bcast_S_S2x1024 (id (constantI S_ 32 0#32))) y)

/-- The clipped targets with a unit axis appended. -/
def clip3 (y : IVec S2x1024 32) : IVec S2x1024x1 32 :=
  broadcastInDim S2x1024x1 ![0, 1] bcast_S2x1024_S2x1024x1_0_1 (clip y)

/-- The gather's start indices: a negative clipped target wrapped by 32000, then a second unit axis appended. -/
def idx (y : IVec S2x1024 32) : IVec S2x1024x1x1 32 :=
  shapeCast S2x1024x1x1
    (select (cmpi .slt (clip3 y) (broadcastInDim S2x1024x1 ![] bcast_S_S2x1024x1 (constantI S_ 32 0#32)))
      (addi (clip3 y) (broadcastInDim S2x1024x1 ![] bcast_S_S2x1024x1 (constantI S_ 32 32000#32)))
      (clip3 y)) shapeCasts_S2x1024x1_S2x1024x1x1

/-- Whether the start index lies in [0, 31999]. -/
def inRange (y : IVec S2x1024 32) : IVec S2x1024x1 1 :=
  Host.reduce IntOp.andi
    (andi (cmpi .sge (idx y) (broadcastInDim S2x1024x1x1 ![] bcast_S_S2x1024x1x1 (constantI S_ 32 0#32)))
      (cmpi .sle (idx y) (broadcastInDim S2x1024x1x1 ![0, 1, 2, 3] bcast_S1x1x1x1_S2x1024x1x1_0_1_2_3
        (broadcastInDim S1x1x1x1 ![3] bcast_S1_S1x1x1x1_3 (constantI S1 32 31999#32)))))
    (constantI S_ 1 1#1) reducesTo_S2x1024x1x1_S2x1024x1_d3 h_S_

/-- The logits: every activation row against every row of the weights. -/
def logits (x : FVec F S2x1024x4096 .f32) (W : FVec F S32000x4096 .f32) : FVec F S2x1024x32000 .f32 :=
  Host.dotGeneral dot_S2x1024x4096_S32000x4096_S2x1024x32000_2_1_01_0_n_n none x W

/-- The maximum of each row of logits (from −∞). -/
def rowMax (x : FVec F S2x1024x4096 .f32) (W : FVec F S32000x4096 .f32) : FVec F S2x1024 .f32 :=
  maximumf (broadcastInDim S2x1024 ![] bcast_S_S2x1024 (constant (F := F) S_ .f32 0xFF800000#32))
    (Host.reduce FloatOps.maximumf (logits x W) (constant (F := F) S_ .f32 0xFF800000#32) reducesTo_S2x1024x32000_S2x1024_d2 h_S_)

/-- The logits minus their row's maximum. -/
def shifted (x : FVec F S2x1024x4096 .f32) (W : FVec F S32000x4096 .f32) : FVec F S2x1024x32000 .f32 :=
  subf (logits x W)
    (broadcastInDim S2x1024x32000 ![0, 1, 2] bcast_S2x1024x1_S2x1024x32000_0_1_2
      (broadcastInDim S2x1024x1 ![0, 1] bcast_S2x1024_S2x1024x1_0_1 (rowMax x W)))

/-- The log of the sum of the exponentials of each shifted row. -/
def logSum (x : FVec F S2x1024x4096 .f32) (W : FVec F S32000x4096 .f32) : FVec F S2x1024x1 .f32 :=
  Host.log (broadcastInDim S2x1024x1 ![0, 1] bcast_S2x1024_S2x1024x1_0_1
    (Host.reduceAdd (Host.exp (shifted x W)) (constant (F := F) S_ .f32 0x00000000#32) reducesTo_S2x1024x32000_S2x1024_d2 h_S_))

/-- The log-softmax of each row of logits. -/
def logp (x : FVec F S2x1024x4096 .f32) (W : FVec F S32000x4096 .f32) : FVec F S2x1024x32000 .f32 :=
  subf (shifted x W) (broadcastInDim S2x1024x32000 ![0, 1, 2] bcast_S2x1024x1_S2x1024x32000_0_1_2 (logSum x W))

/-- The reference's per-token value: the log-softmax read at the start index where it is in range (a NaN where not). -/
def refTok (x : FVec F S2x1024x4096 .f32) (W : FVec F S32000x4096 .f32) (y : IVec S2x1024 32) : FVec F S2x1024 .f32 :=
  shapeCast S2x1024
    (select (inRange y)
      (Host.gather gather_S2x1024x32000_S2x1024x1x1_S2x1024x1_n_2_01_01_2_3_111 (logp x W) (idx y))
      (broadcastInDim S2x1024x1 ![] bcast_S_S2x1024x1 (constant (F := F) S_ .f32 0x7FC00000#32)))
    shapeCasts_S2x1024x1_S2x1024

/-- refTok is, by unfolding its named pieces, the printed term. -/
theorem refTok_printed (x : FVec F S2x1024x4096 .f32) (W : FVec F S32000x4096 .f32) (y : IVec S2x1024 32) :
    refTok x W y = ((shapeCast _ (select (Host.reduce IntOp.andi (andi (cmpi .sge (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y)))) shapeCasts_S2x1024x1_S2x1024x1x1) (broadcastInDim S2x1024x1x1 ![] bcast_S_S2x1024x1x1 (constantI S_ 32 0#32))) (cmpi .sle (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y)))) shapeCasts_S2x1024x1_S2x1024x1x1) (broadcastInDim S2x1024x1x1 ![0, 1, 2, 3] bcast_S1x1x1x1_S2x1024x1x1_0_1_2_3 (broadcastInDim S1x1x1x1 ![3] bcast_S1_S1x1x1x1_3 (constantI S1 32 31999#32))))) (constantI S_ 1 1#1) reducesTo_S2x1024x1x1_S2x1024x1_d3 h_S_) (Host.gather gather_S2x1024x32000_S2x1024x1x1_S2x1024x1_n_2_01_01_2_3_111 (subf (subf (Host.dotGeneral dot_S2x1024x4096_S32000x4096_S2x1024x32000_2_1_01_0_n_n none x W) (broadcastInDim S2x1024x32000 ![0, 1, 2] bcast_S2x1024x1_S2x1024x32000_0_1_2 (broadcastInDim S2x1024x1 ![0, 1] bcast_S2x1024_S2x1024x1_0_1 (maximumf (broadcastInDim S2x1024 ![] bcast_S_S2x1024 (constant S_ .f32 0xFF800000#32)) (Host.reduce FloatOps.maximumf (Host.dotGeneral dot_S2x1024x4096_S32000x4096_S2x1024x32000_2_1_01_0_n_n none x W) (constant S_ .f32 0xFF800000#32) reducesTo_S2x1024x32000_S2x1024_d2 h_S_))))) (broadcastInDim S2x1024x32000 ![0, 1, 2] bcast_S2x1024x1_S2x1024x32000_0_1_2 (Host.log (broadcastInDim S2x1024x1 ![0, 1] bcast_S2x1024_S2x1024x1_0_1 (Host.reduceAdd (Host.exp (subf (Host.dotGeneral dot_S2x1024x4096_S32000x4096_S2x1024x32000_2_1_01_0_n_n none x W) (broadcastInDim S2x1024x32000 ![0, 1, 2] bcast_S2x1024x1_S2x1024x32000_0_1_2 (broadcastInDim S2x1024x1 ![0, 1] bcast_S2x1024_S2x1024x1_0_1 (maximumf (broadcastInDim S2x1024 ![] bcast_S_S2x1024 (constant S_ .f32 0xFF800000#32)) (Host.reduce FloatOps.maximumf (Host.dotGeneral dot_S2x1024x4096_S32000x4096_S2x1024x32000_2_1_01_0_n_n none x W) (constant S_ .f32 0xFF800000#32) reducesTo_S2x1024x32000_S2x1024_d2 h_S_)))))) (constant S_ .f32 0x00000000#32) reducesTo_S2x1024x32000_S2x1024_d2 h_S_))))) (shapeCast _ (select (cmpi .slt (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y))) (broadcastInDim S2x1024x1 ![] bcast_S_S2x1024x1 (constantI S_ 32 0#32))) (addi (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y))) (broadcastInDim S2x1024x1 ![] bcast_S_S2x1024x1 (constantI S_ 32 32000#32))) (broadcastInDim S2x1024x1 ![0, 1] bcast_S2x1024_S2x1024x1_0_1 (minsi (broadcastInDim S2x1024 ![] bcast_S_S2x1024 (id (constantI S_ 32 31999#32))) (maxsi (broadcastInDim S2x1024 ![] bcast_S_S2x1024 (id (constantI S_ 32 0#32))) y)))) shapeCasts_S2x1024x1_S2x1024x1x1)) (broadcastInDim S2x1024x1 ![] bcast_S_S2x1024x1 (constant S_ .f32 0x7FC00000#32))) shapeCasts_S2x1024x1_S2x1024) : FVec F S2x1024 .f32) := rfl

/-! ## The pieces read at an index -/

section Reads

open Cert.ReferenceIdeal.RefValue Cert.Spec

/-- A [2, 1024] array with a unit axis appended reads, at (b, t, u), its entry (b, t). -/
theorem bc3_apply {α : Type} (v : S2x1024.Idx → α) (b : Fin 2) (t : Fin 1024) (u : Fin 1) :
    broadcastInDim S2x1024x1 ![0, 1] bcast_S2x1024_S2x1024x1_0_1 v (ix3 b t u) = v (ix2 b t) := by
  unfold broadcastInDim
  congr 1
  funext a
  match a with
  | ⟨0, _⟩ => rfl
  | ⟨1, _⟩ => rfl

/-- A [2, 1024, 1] array repeated along the vocabulary axis reads, at (b, t, v), its entry (b, t, 0). -/
theorem bcV_apply {α : Type} (g : S2x1024x1.Idx → α) (b : Fin 2) (t : Fin 1024) (v : Fin 32000) :
    broadcastInDim S2x1024x32000 ![0, 1, 2] bcast_S2x1024x1_S2x1024x32000_0_1_2 g (ix3 b t v) = g (ix3 b t (0 : Fin 1)) := by
  unfold broadcastInDim
  congr 1
  funext a
  match a with
  | ⟨0, _⟩ => rfl
  | ⟨1, _⟩ => rfl
  | ⟨2, _⟩ => rfl

/-- The clipped target at (b, t) is the clipped word of Spec.lean. -/
theorem clip_apply (y : IVec S2x1024 32) (b : Fin 2) (t : Fin 1024) : clip y (ix2 b t) = clipWord (y (ix2 b t)) := rfl

/-- A clipped word reads the same signed and unsigned, and is below 2³¹. -/
theorem clipWord_lt31 (w : BitVec 32) : (clipWord w).toNat < 2 ^ 31 := lt_trans (clipWord_lt w) (by norm_num)

/-- The start index at (b, t, 0, 0) is the clipped word: it is not negative, so it is not wrapped. -/
theorem idx_apply (y : IVec S2x1024 32) (b : Fin 2) (t : Fin 1024) :
    idx y (ix4 b t (0 : Fin 1) (0 : Fin 1)) = clipWord (y (ix2 b t)) := by
  unfold idx
  refine (shapeCast_apply _ shapeCasts_S2x1024x1_S2x1024x1x1 (ix4 b t (0 : Fin 1) (0 : Fin 1)) (ix3 b t (0 : Fin 1)) ?_).trans ?_
  · rw [Shape.rowMajor_val_three, Shape.rowMajor_val_four]
    show (b.val * 1024 + t.val) * 1 + 0 = ((b.val * 1024 + t.val) * 1 + 0) * 1 + 0
    omega
  · have h0 : ¬ IntOp.cmpi .slt (clipWord (y (ix2 b t))) 0#32 = 1#1 := by
      rw [StableHlo.Predicate.slt_iff_toNat (clipWord_lt31 _) (by decide)]
      exact Nat.not_lt_zero _
    have e3 : clip3 y (ix3 b t (0 : Fin 1)) = clipWord (y (ix2 b t)) := by
      unfold clip3; rw [bc3_apply]; rfl
    have ec : cmpi .slt (clip3 y) (broadcastInDim S2x1024x1 ![] bcast_S_S2x1024x1 (constantI S_ 32 0#32)) (ix3 b t (0 : Fin 1))
        = IntOp.cmpi .slt (clipWord (y (ix2 b t))) 0#32 := by
      show IntOp.cmpi .slt (clip3 y (ix3 b t (0 : Fin 1))) 0#32 = _
      rw [e3]
    rw [select_apply, ec, e3]
    exact if_neg h0

/-- The start index lies in [0, 31999]: the range mask is set. -/
theorem inRange_apply (y : IVec S2x1024 32) (b : Fin 2) (t : Fin 1024) : inRange y (ix3 b t (0 : Fin 1)) = 1#1 := by
  unfold inRange
  rw [andReduce_unit]
  show IntOp.andi (IntOp.cmpi .sge (idx y (ix4 b t (0 : Fin 1) (0 : Fin 1))) 0#32)
    (IntOp.cmpi .sle (idx y (ix4 b t (0 : Fin 1) (0 : Fin 1))) 31999#32) = 1#1
  rw [idx_apply, IntOp.andi_eq_one]
  refine ⟨?_, ?_⟩
  · rw [StableHlo.Predicate.sge_iff_toNat (clipWord_lt31 _) (by decide)]
    exact Nat.zero_le _
  · rw [StableHlo.Predicate.sle_iff_toNat (clipWord_lt31 _) (by decide)]
    have := clipWord_lt (y (ix2 b t))
    show _ ≤ 31999
    omega

/-- The gather reads the log-softmax at (b, t, the clipped target). -/
theorem gather_idx_apply {α : Type} (g : S2x1024x32000.Idx → α) (y : IVec S2x1024 32) (b : Fin 2) (t : Fin 1024) :
    Host.gather gather_S2x1024x32000_S2x1024x1x1_S2x1024x1_n_2_01_01_2_3_111 g (idx y) (ix3 b t (0 : Fin 1))
      = g (ix3 b t (⟨(clipWord (y (ix2 b t))).toNat, clipWord_lt _⟩ : Fin 32000)) := by
  have hv : min (idx y (ix4 b t (0 : Fin 1) (0 : Fin 1))).toInt.toNat 31999 = (clipWord (y (ix2 b t))).toNat := by
    rw [idx_apply, StableHlo.Predicate.toInt_eq_toNat_of_lt (clipWord_lt31 _), Int.toNat_natCast]
    have := clipWord_lt (y (ix2 b t))
    omega
  refine (gather_apply g (idx y) b t).trans ?_
  exact congrArg g (congrArg (ix3 b t) (Fin.ext hv))

end Reads

/-! ## The values, over the extended reals -/

section Values

open Cert.ReferenceIdeal.RefValue Cert.Spec

/- The inner product's operand indices, coordinate by coordinate: at output (b, t, v) and contraction coordinate q the
   activations are read at (b, t, q) and the weights at (v, q). -/
theorem dot_lhs_0 (i : S2x1024x32000.Idx) (q : dot_S2x1024x4096_S32000x4096_S2x1024x32000_2_1_01_0_n_n.contr.Idx) :
    (dot_S2x1024x4096_S32000x4096_S2x1024x32000_2_1_01_0_n_n.lhsIdx i q 0).val = (i 0).val := by
  unfold DotDims.lhsIdx
  rw [dif_neg (show ¬(0 : Fin S2x1024x4096.rank) ∈ dot_S2x1024x4096_S32000x4096_S2x1024x32000_2_1_01_0_n_n.lhsBatch by decide), dif_pos (show (0 : Fin S2x1024x4096.rank) ∈ dot_S2x1024x4096_S32000x4096_S2x1024x32000_2_1_01_0_n_n.lhsNonContracting by decide)]
  rfl
theorem dot_lhs_1 (i : S2x1024x32000.Idx) (q : dot_S2x1024x4096_S32000x4096_S2x1024x32000_2_1_01_0_n_n.contr.Idx) :
    (dot_S2x1024x4096_S32000x4096_S2x1024x32000_2_1_01_0_n_n.lhsIdx i q 1).val = (i 1).val := by
  unfold DotDims.lhsIdx
  rw [dif_neg (show ¬(1 : Fin S2x1024x4096.rank) ∈ dot_S2x1024x4096_S32000x4096_S2x1024x32000_2_1_01_0_n_n.lhsBatch by decide), dif_pos (show (1 : Fin S2x1024x4096.rank) ∈ dot_S2x1024x4096_S32000x4096_S2x1024x32000_2_1_01_0_n_n.lhsNonContracting by decide)]
  rfl
theorem dot_lhs_2 (i : S2x1024x32000.Idx) (q : dot_S2x1024x4096_S32000x4096_S2x1024x32000_2_1_01_0_n_n.contr.Idx) :
    (dot_S2x1024x4096_S32000x4096_S2x1024x32000_2_1_01_0_n_n.lhsIdx i q 2).val = (q ⟨0, by decide⟩).val :=
  dot_S2x1024x4096_S32000x4096_S2x1024x32000_2_1_01_0_n_n.lhsIdx_val_of_single rfl i q
theorem dot_rhs_0 (i : S2x1024x32000.Idx) (q : dot_S2x1024x4096_S32000x4096_S2x1024x32000_2_1_01_0_n_n.contr.Idx) :
    (dot_S2x1024x4096_S32000x4096_S2x1024x32000_2_1_01_0_n_n.rhsIdx i q 0).val = (i 2).val := by
  unfold DotDims.rhsIdx
  rw [dif_neg (show ¬(0 : Fin S32000x4096.rank) ∈ dot_S2x1024x4096_S32000x4096_S2x1024x32000_2_1_01_0_n_n.rhsBatch by decide), dif_pos (show (0 : Fin S32000x4096.rank) ∈ dot_S2x1024x4096_S32000x4096_S2x1024x32000_2_1_01_0_n_n.rhsNonContracting by decide)]
  rfl
theorem dot_rhs_1 (i : S2x1024x32000.Idx) (q : dot_S2x1024x4096_S32000x4096_S2x1024x32000_2_1_01_0_n_n.contr.Idx) :
    (dot_S2x1024x4096_S32000x4096_S2x1024x32000_2_1_01_0_n_n.rhsIdx i q 1).val = (q ⟨0, by decide⟩).val :=
  dot_S2x1024x4096_S32000x4096_S2x1024x32000_2_1_01_0_n_n.rhsIdx_val_of_single rfl i q

/-- The logit at (b, t, v): the inner product of activation row (b, t) with row v of the weights. -/
theorem logits_apply (x : FVec Ideal S2x1024x4096 .f32) (W : FVec Ideal S32000x4096 .f32) (b : Fin 2) (t : Fin 1024) (v : Fin 32000) :
    logits (F := Ideal) x W (ix3 b t v) = ∑ k : Fin 4096, x (ix3 b t k) * W (ix2 v k) := by
  unfold logits
  simp only [Host.dotGeneral]
  rw [Ideal.dotGeneral_apply, ← Equiv.sum_comp (contrEquiv1 dot_S2x1024x4096_S32000x4096_S2x1024x32000_2_1_01_0_n_n 4096 rfl rfl).symm]
  refine Finset.sum_congr rfl fun k _ => ?_
  have hk := contrEquiv1_symm_val dot_S2x1024x4096_S32000x4096_S2x1024x32000_2_1_01_0_n_n 4096 rfl rfl k
  have el : dot_S2x1024x4096_S32000x4096_S2x1024x32000_2_1_01_0_n_n.lhsIdx (ix3 b t v) ((contrEquiv1 dot_S2x1024x4096_S32000x4096_S2x1024x32000_2_1_01_0_n_n 4096 rfl rfl).symm k) = ix3 b t k := funext fun a => Fin.ext (by
    match a with
    | ⟨0, _⟩ => exact dot_lhs_0 _ _
    | ⟨1, _⟩ => exact dot_lhs_1 _ _
    | ⟨2, _⟩ => exact (dot_lhs_2 _ _).trans hk)
  have er : dot_S2x1024x4096_S32000x4096_S2x1024x32000_2_1_01_0_n_n.rhsIdx (ix3 b t v) ((contrEquiv1 dot_S2x1024x4096_S32000x4096_S2x1024x32000_2_1_01_0_n_n 4096 rfl rfl).symm k) = ix2 v k := funext fun a => Fin.ext (by
    match a with
    | ⟨0, _⟩ => exact dot_rhs_0 _ _
    | ⟨1, _⟩ => exact (dot_rhs_1 _ _).trans hk)
  rw [el, er]

/-- For arrays of reals the logit is the real inner product of Spec.lean. -/
theorem logits_real (x : FVec Ideal S2x1024x4096 .f32) (W : FVec Ideal S32000x4096 .f32)
    (hx : ∀ i, x i = (((x i).toReal : ℝ) : EReal)) (hW : ∀ i, W i = (((W i).toReal : ℝ) : EReal))
    (b : Fin 2) (t : Fin 1024) (v : Fin 32000) :
    logits (F := Ideal) x W (ix3 b t v)
      = ((logitR (fun k => (x (ix3 b t k)).toReal) (fun v k => (W (ix2 v k)).toReal) v : ℝ) : EReal) := by
  rw [logits_apply]
  unfold logitR
  rw [← coe_sum]
  refine Finset.sum_congr rfl fun k _ => ?_
  rw [EReal.coe_mul, ← hx (ix3 b t k), ← hW (ix2 v k)]

end Values

section Final

open Cert.ReferenceIdeal.RefValue Cert.Spec

/-- For arrays of reals the maximum of row (b, t) of the logits is a real. -/
theorem rowMax_real (x : FVec Ideal S2x1024x4096 .f32) (W : FVec Ideal S32000x4096 .f32)
    (hx : ∀ i, x i = (((x i).toReal : ℝ) : EReal)) (hW : ∀ i, W i = (((W i).toReal : ℝ) : EReal))
    (b : Fin 2) (t : Fin 1024) : ∃ s : ℝ, rowMax (F := Ideal) x W (ix2 b t) = ((s : ℝ) : EReal) := by
  obtain ⟨s, hs⟩ := maxReduce_real (logits (F := Ideal) x W) b t
    (fun v => logitR (fun k => (x (ix3 b t k)).toReal) (fun v k => (W (ix2 v k)).toReal) v) (fun v => logits_real x W hx hW b t v)
  refine ⟨s, ?_⟩
  unfold rowMax
  rw [maximumf_apply, hs, StableHlo.Predicate.bcast_scalar bcast_S_S2x1024 h_S_, constant_apply, ofBits_neg_inf]
  exact max_eq_right bot_le

/-- The shifted logit at (b, t, v): the logit minus the row's maximum. -/
theorem shifted_apply (x : FVec Ideal S2x1024x4096 .f32) (W : FVec Ideal S32000x4096 .f32) (b : Fin 2) (t : Fin 1024) (v : Fin 32000) :
    shifted (F := Ideal) x W (ix3 b t v) = logits (F := Ideal) x W (ix3 b t v) - rowMax (F := Ideal) x W (ix2 b t) := by
  unfold shifted
  rw [subf_apply, bcV_apply, bc3_apply]

/-- The host's sum over the vocabulary axis from 0, at (b, t): the sum of the row. -/
theorem sumRow_apply (g : FVec Ideal S2x1024x32000 .f32) (b : Fin 2) (t : Fin 1024) :
    Host.reduceAdd g (constant (F := Ideal) S_ .f32 0x00000000#32) reducesTo_S2x1024x32000_S2x1024_d2 h_S_ (ix2 b t)
      = ∑ v : Fin 32000, g (ix3 b t v) := by
  have hR : S2x1024x32000.Reduces [2] S2x1024 := by decide
  show Ideal.hostReduceAdd reducesTo_S2x1024x32000_S2x1024_d2 g (Ideal.ofBits .f32 0x00000000#32) (ix2 b t) = _
  rw [Ideal.hostReduceAdd_single _ hR, Ideal.ofBits_zero_f32, zero_add]
  show ∑ k : Fin 32000, g (hR.lift (ix2 b t) k) = _
  exact Finset.sum_congr rfl fun k _ => congrArg g (lift_vocab hR b t k)

/-- The log of the sum of the exponentials of the shifted row, at (b, t, 0). -/
theorem logSum_apply (x : FVec Ideal S2x1024x4096 .f32) (W : FVec Ideal S32000x4096 .f32) (b : Fin 2) (t : Fin 1024) :
    logSum (F := Ideal) x W (ix3 b t (0 : Fin 1))
      = Ideal.log (∑ v : Fin 32000, Ideal.exp (shifted (F := Ideal) x W (ix3 b t v))) := by
  have e : ∀ (g : FVec Ideal S2x1024x1 .f32) (i : S2x1024x1.Idx), Host.log g i = Ideal.log (g i) := fun _ _ => rfl
  unfold logSum
  rw [e, bc3_apply, sumRow_apply]
  exact congrArg Ideal.log (Finset.sum_congr rfl fun v _ => rfl)

/-- The real logits of row (b, t). -/
def zRow (x : FVec Ideal S2x1024x4096 .f32) (W : FVec Ideal S32000x4096 .f32) (b : Fin 2) (t : Fin 1024) : Fin 32000 → ℝ :=
  fun v => logitR (fun k => (x (ix3 b t k)).toReal) (fun v k => (W (ix2 v k)).toReal) v

/-- The token's log-probability of Spec.lean over the real logits of its row. -/
theorem tokAt_zRow (x : FVec Ideal S2x1024x4096 .f32) (W : FVec Ideal S32000x4096 .f32) (y : IVec S2x1024 32) (b : Fin 2) (t : Fin 1024) :
    tokAt x W y b t = (((zRow x W b t ⟨(clipWord (y (ix2 b t))).toNat, clipWord_lt _⟩
      - Real.log (∑ v : Fin 32000, Real.exp (zRow x W b t v)) : ℝ)) : EReal) := rfl

/-- The reference's per-token value at (b, t), for arrays of reals: the token's log-probability. -/
theorem refTok_apply (x : FVec Ideal S2x1024x4096 .f32) (W : FVec Ideal S32000x4096 .f32) (y : IVec S2x1024 32)
    (hx : ∀ i, x i = (((x i).toReal : ℝ) : EReal)) (hW : ∀ i, W i = (((W i).toReal : ℝ) : EReal)) (b : Fin 2) (t : Fin 1024) :
    refTok (F := Ideal) x W y (ix2 b t) = tokAt x W y b t := by
  obtain ⟨s, hs⟩ := rowMax_real x W hx hW b t
  rw [tokAt_zRow]
  have hz : ∀ v, logits (F := Ideal) x W (ix3 b t v) = ((zRow x W b t v : ℝ) : EReal) := fun v => logits_real x W hx hW b t v
  generalize zRow x W b t = z at hz ⊢
  -- the shifted row, its exponentials' sum, the log of the sum
  have hsh : ∀ v, shifted (F := Ideal) x W (ix3 b t v) = ((z v - s : ℝ) : EReal) := fun v => by
    rw [shifted_apply, hz v, hs, ← EReal.coe_sub]
  have hpos : 0 < ∑ v : Fin 32000, Real.exp (z v - s) :=
    Finset.sum_pos (fun v _ => Real.exp_pos _) ⟨⟨0, by decide⟩, Finset.mem_univ _⟩
  have hsum : (∑ v : Fin 32000, Ideal.exp (shifted (F := Ideal) x W (ix3 b t v))) = ((∑ v : Fin 32000, Real.exp (z v - s) : ℝ) : EReal) := by
    rw [← coe_sum]
    exact Finset.sum_congr rfl fun v _ => by rw [hsh v, Ideal.exp_coe]
  have hlog : logSum (F := Ideal) x W (ix3 b t (0 : Fin 1)) = ((Real.log (∑ v : Fin 32000, Real.exp (z v - s)) : ℝ) : EReal) := by
    rw [logSum_apply, hsum, Ideal.log_coe, if_neg (not_le.2 hpos)]
  have hlogp : ∀ v, logp (F := Ideal) x W (ix3 b t v)
      = ((z v - s - Real.log (∑ v : Fin 32000, Real.exp (z v - s)) : ℝ) : EReal) := fun v => by
    unfold logp
    rw [subf_apply, bcV_apply, hsh v, hlog, ← EReal.coe_sub]
  -- the log-sum-exp does not depend on the shift
  haveI : Nonempty (Fin 32000) := ⟨⟨0, by decide⟩⟩
  have hshift := shift_logsumexp z s
  -- the printed term at (b, t): the unit axis dropped, the range mask set, the gather at the clipped target
  unfold refTok
  refine (shapeCast_apply _ shapeCasts_S2x1024x1_S2x1024 (ix2 b t) (ix3 b t (0 : Fin 1)) ?_).trans ?_
  · rw [Shape.rowMajor_val_three, Shape.rowMajor_val_two]
    show (b.val * 1024 + t.val) * 1 + 0 = b.val * 1024 + t.val
    omega
  · rw [select_apply, inRange_apply, select_one, gather_idx_apply, hlogp]
    refine congrArg (fun r : ℝ => (r : EReal)) ?_
    linarith

theorem refTok_eq (x : FVec Ideal S2x1024x4096 .f32) (W : FVec Ideal S32000x4096 .f32) (y : IVec S2x1024 32)
    (hx : ∀ i, x i = (((x i).toReal : ℝ) : EReal)) (hW : ∀ i, W i = (((W i).toReal : ℝ) : EReal)) :
    refTok (F := Ideal) x W y = Cert.Spec.tokArr x W y := by
  funext i
  rw [eq_ix2 i]
  exact refTok_apply x W y hx hW (i 0) (i 1)

end Final

end Cert.ReferenceIdeal.RefTok

end
-- ==== Proof.RefValue.lean ====
/-
  The reference's value: per token the log-probability of the (clipped) target under the softmax of the row of
  logits, then the masked mean over each sequence, the difference of the two models' means and the loss.
  The result's composed term is the loss of the two masked means of the per-token arrays (the same operations, read off
  the term); at the ideal instance, for finite activations and weights, each per-token array is the array of token
  log-probabilities.
-/
import proofs.«410554_j45887430590963_2_alg».proof.Defs
import proofs.«410554_j45887430590963_2_alg».proof.Proof.Gen.ReferenceIdeal
import proofs.«410554_j45887430590963_2_alg».proof.Proof.RefRun
import proofs.«410554_j45887430590963_2_alg».proof.Proof.RefTok
import proofs.«410554_j45887430590963_2_alg».proof.Proof.Loss
import proofs.«410554_j45887430590963_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- For any float values: the result's term is the loss of the two models' masked means of their per-token arrays and
    the labels. -/
theorem res_eq_loss {F : FTy → Type} [FloatOps F] (m : (ℓ : Loc nD τ sig) → Buf (Elt F) ℓ) (c : Dev nD) :
    Cert.ReferenceIdeal.RefRun.res_out0 (F := F) m c
      = Cert.Loss.loss (F := F) bcast_S_S2 reducesTo_S2_S_d0 h_S_
          (Cert.Loss.seqMean (F := F) bcast_S_S2x1024 reducesTo_S2x1024_S2_d1 h_S_ bcast_S_S2
            (Cert.ReferenceIdeal.RefTok.refTok (F := F) (m ((c.tc : Thread nD τ).loc main_arg0)) (m ((c.tc : Thread nD τ).loc main_arg4)) (m ((c.tc : Thread nD τ).loc main_arg2))) (m ((c.tc : Thread nD τ).loc main_arg2)))
          (Cert.Loss.seqMean (F := F) bcast_S_S2x1024 reducesTo_S2x1024_S2_d1 h_S_ bcast_S_S2
            (Cert.ReferenceIdeal.RefTok.refTok (F := F) (m ((c.tc : Thread nD τ).loc main_arg1)) (m ((c.tc : Thread nD τ).loc main_arg5)) (m ((c.tc : Thread nD τ).loc main_arg2))) (m ((c.tc : Thread nD τ).loc main_arg2)))
          (m ((c.tc : Thread nD τ).loc main_arg3)) := by
  rw [Cert.ReferenceIdeal.RefTok.refTok_printed, Cert.ReferenceIdeal.RefTok.refTok_printed]
  unfold Cert.ReferenceIdeal.RefRun.res_out0 Cert.ReferenceIdeal.RefRun.res_main_v45 Cert.Loss.loss Cert.Loss.seqMean Cert.Loss.mask Cert.Loss.sign
  rfl

/-- At the ideal instance, for finite activations and weights of both models: the result is the loss of the two masked
    means of the token log-probabilities. -/
theorem result_eq (m : (ℓ : Loc nD τ sig) → Buf (Elt Ideal) ℓ) (c : Dev nD)
    (h0 : ∀ i, m ((c.tc : Thread nD τ).loc main_arg0) i = (((m ((c.tc : Thread nD τ).loc main_arg0) i).toReal : ℝ) : EReal))
    (h1 : ∀ i, m ((c.tc : Thread nD τ).loc main_arg1) i = (((m ((c.tc : Thread nD τ).loc main_arg1) i).toReal : ℝ) : EReal))
    (h4 : ∀ i, m ((c.tc : Thread nD τ).loc main_arg4) i = (((m ((c.tc : Thread nD τ).loc main_arg4) i).toReal : ℝ) : EReal))
    (h5 : ∀ i, m ((c.tc : Thread nD τ).loc main_arg5) i = (((m ((c.tc : Thread nD τ).loc main_arg5) i).toReal : ℝ) : EReal)) :
    Cert.ReferenceIdeal.RefRun.res_out0 (F := Ideal) m c
      = Cert.Loss.loss (F := Ideal) bcast_S_S2 reducesTo_S2_S_d0 h_S_
          (Cert.Loss.seqMean (F := Ideal) bcast_S_S2x1024 reducesTo_S2x1024_S2_d1 h_S_ bcast_S_S2
            (Cert.Spec.tokArr (m ((c.tc : Thread nD τ).loc main_arg0)) (m ((c.tc : Thread nD τ).loc main_arg4)) (m ((c.tc : Thread nD τ).loc main_arg2))) (m ((c.tc : Thread nD τ).loc main_arg2)))
          (Cert.Loss.seqMean (F := Ideal) bcast_S_S2x1024 reducesTo_S2x1024_S2_d1 h_S_ bcast_S_S2
            (Cert.Spec.tokArr (m ((c.tc : Thread nD τ).loc main_arg1)) (m ((c.tc : Thread nD τ).loc main_arg5)) (m ((c.tc : Thread nD τ).loc main_arg2))) (m ((c.tc : Thread nD τ).loc main_arg2)))
          (m ((c.tc : Thread nD τ).loc main_arg3)) := by
  rw [res_eq_loss, Cert.ReferenceIdeal.RefTok.refTok_eq _ _ _ h0 h4, Cert.ReferenceIdeal.RefTok.refTok_eq _ _ _ h1 h5]

end Cert.ReferenceIdeal.RefValue

end
-- ==== Proof.lean ====
/-
  The certificate of the chunked log-softmax KTO loss kernel against its jnp reference.

  Both programs compute, for a policy model and a frozen reference model, per token the log-probability of the (clipped)
  target under the softmax of the row of logits h·Wᵀ; per sequence the mean of those over the positions that are not
  ignored; and from the two means and the preference labels the loss  (1/2) Σ_b (1 - sigmoid (0.1 (a_b - r_b) s_b)).
  The reference takes the logits whole, subtracts the row maximum M and evaluates (z_y - M) - log Σ_v exp (z_v - M).
  The kernel never holds a row of logits: per row tile it walks the 125 vocabulary tiles carrying a running maximum m
  (started at a large negative finite number, not at minus infinity), the sum Σ exp (z_v - m) rescaled by
  exp (m_old - m_new) whenever m moves, and the target's logit, and emits z_y - (m + log Σ exp (z_v - m)) at the last
  tile. Over the extended reals, where every entry is a real number by the precondition, both are
  z_y - log Σ_v exp z_v: log-sum-exp does not depend on the shift (`Cert.Spec.shift_logsumexp`), so neither the
  kernel's finite starting value nor the order of the tiles matters. The masked means and the loss are the same
  operations in both programs.

  frame_Kernel, frame_KernelIdeal — @main is host operations, the policy model's call, host operations, the frozen
    model's call, host operations. Each call is a pipeline over a 2 × 125 grid whose body is run in three cases (a row
    tile's first vocabulary tile, its last, neither); the three carried columns live in scratch buffers and pass from
    point to point in the pipeline's invariant at the contents the pure fold `carryAt` names; the output's block is
    written back only after a row tile's last vocabulary tile. The two calls enter the generated host side of @main as
    segment records (Proof/Calls.lean; the word-level program's modules are the same text in its own namespace).
  frame_ReferenceIdeal — the reference is host operations only: its run read back.
  preserves_Kernel_KernelIdeal — the idealization rewrote nothing.
  algebraic_KernelIdeal_ReferenceIdeal — the kernel program's result is the loss of the masked means of the two arrays
    of token log-probabilities (Proof/Bridge.lean, over Proof/Policy/TileMath.lean's fold and Proof/Policy/Result.lean's
    reading of the result array), and so is the reference's (Proof/RefValue.lean over Proof/RefTok.lean, the reference's run in Proof/RefRun.lean).
-/
import proofs.«410554_j45887430590963_2_alg».proof.Defs
import proofs.«410554_j45887430590963_2_alg».proof.Proof.Gen.Kernel
import proofs.«410554_j45887430590963_2_alg».proof.Proof.Gen.KernelIdeal
import proofs.«410554_j45887430590963_2_alg».proof.Proof.Gen.ReferenceIdeal
import proofs.«410554_j45887430590963_2_alg».proof.Proof.Gen.Pre_finite_inputs
import proofs.«410554_j45887430590963_2_alg».proof.Proof.Word.Calls
import proofs.«410554_j45887430590963_2_alg».proof.Proof.Calls
import proofs.«410554_j45887430590963_2_alg».proof.Proof.Bridge
import proofs.«410554_j45887430590963_2_alg».proof.Proof.Finite
import proofs.«410554_j45887430590963_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_word : Cert.frame_Kernel := fun m ρ _ => Cert.Kernel.Calls.frame (F := Bits) m ρ

/-- So does its reading at the extended reals. -/
theorem frame_ideal : Cert.frame_KernelIdeal := fun m ρ _ => Cert.KernelIdeal.Calls.frame (F := Ideal) m ρ

/-- The reference runs and keeps its arguments: its run, the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- From memories that agree on the arguments, all finite, the two programs end with the same loss: each side's result
    is the loss of the masked means of the two arrays of token log-probabilities of the arguments. -/
theorem algebraic : Cert.algebraic_KernelIdeal_ReferenceIdeal := by
  intro m ρ m' ρ' hpre hagree
  refine ⟨fun c => Cert.KernelIdeal.Gen.V11 m (Cert.KernelIdeal.Calls.leftBy m) c Cert.KernelIdeal.main_v47,
    Cert.KernelIdeal.Calls.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h4, h5⟩ := Cert.Finite.entries_real _ _ _ _ _ _ (hpre c)
  obtain ⟨e0, e1, e2, e3, e4, e5⟩ := hagree c
  show Cert.ReferenceIdeal.RefRun.res_out0 (F := Ideal) m' c
    = Cert.KernelIdeal.Gen.V11 m (Cert.KernelIdeal.Calls.leftBy m) c Cert.KernelIdeal.main_v47
  rw [Cert.KernelIdeal.Bridge.result m c h0 h1 h4 h5]
  rw [Cert.ReferenceIdeal.RefValue.result_eq m' c (by rw [e0]; exact h0) (by rw [e1]; exact h1) (by rw [e4]; exact h4) (by rw [e5]; exact h5)]
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_word, frame_ideal, frame_ref, trivial, algebraic⟩

end Cert.Proof

end
